-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S50257x1024 : Shape := ⟨2, ![50257, 1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg0 : IVec S1 32) (main_arg8 : FVec F S50257 .f32) (main_v33 : IVec S_ 1) : IVec S_ 1 :=
  let main_v34 : FVec F S50257 .f32 := Host.absf main_arg8
  let main_cst_12 : FVec F S_ .f32 := constant S_ .f32 0x7F800000#32
  let main_v35 : FVec F S50257 .f32 := broadcastInDim S50257 ![] bcast_S_S50257 main_cst_12
  let main_v36 : IVec S50257 1 := cmpf .olt main_v34 main_v35
  let main_c_13 : IVec S_ 1 := constantI S_ 1 1#1
  let main_v37 : IVec S_ 1 := (fun x v => Host.reduce IntOp.andi x v reducesTo_S50257_S_d0 h_S_) main_v36 main_c_13
  let main_v38 : IVec S_ 1 := andi main_v33 main_v37
  let main_c_14 : IVec S_ 32 := constantI S_ 32 0#32
  let main_v39 : IVec S1 32 := broadcastInDim S1 ![] bcast_S_S1 main_c_14
  let main_v40 : IVec S1 1 := cmpi .sge main_arg0 main_v39
  let main_c_15 : IVec S_ 1 := constantI S_ 1 1#1
  let main_v41 : IVec S_ 1 := (fun x v => Host.reduce IntOp.andi x v reducesTo_S1_S_d0 h_S_) main_v40 main_c_15
  let main_v42 : IVec S_ 1 := andi main_v38 main_v41
  let main_c_16 : IVec S_ 32 := constantI S_ 32 50257#32
  let main_v43 : IVec S1 32 := broadcastInDim S1 ![] bcast_S_S1 main_c_16
  let main_v44 : IVec S1 1 := cmpi .slt main_arg0 main_v43
  let main_c_17 : IVec S_ 1 := constantI S_ 1 1#1
  let main_v45 : IVec S_ 1 := (fun x v => Host.reduce IntOp.andi x v reducesTo_S1_S_d0 h_S_) main_v44 main_c_17
  let main_v46 : IVec S_ 1 := andi main_v42 main_v45
  main_v46

def fn_part1 {F : FTy → Type} [FloatOps F] (main_arg0 : IVec S1 32) (main_arg5 : FVec F S3072 .f32) (main_arg6 : FVec F S3072 .f32) (main_arg7 : FVec F S50257x1024 .f32) (main_arg8 : FVec F S50257 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S50257x1024 .f32 := Host.absf main_arg7
  let main_cst_10 : FVec F S_ .f32 := constant S_ .f32 0x7F800000#32
  let main_v30 : FVec F S50257x1024 .f32 := broadcastInDim S50257x1024 ![] bcast_S_S50257x1024 main_cst_10
  let main_v31 : IVec S50257x1024 1 := cmpf .olt main_v29 main_v30
  let main_c_11 : IVec S_ 1 := constantI S_ 1 1#1
  let main_v32 : IVec S_ 1 := (fun x v => Host.reduce IntOp.andi x v reducesTo_S50257x1024_S_d0_1 h_S_) main_v31 main_c_11
  let main_v33 : IVec S_ 1 := andi main_v28 main_v32
  fn_part2 (F := F) main_arg0 main_arg8 main_v33

def fn {F : FTy → Type} [FloatOps F] (main_arg0 : IVec S1 32) (main_arg1 : FVec F S1x1x1024 .f32) (main_arg2 : FVec F S50257x1024 .f32) (main_arg3 : FVec F S3072x1024 .f32) (main_arg4 : FVec F S3072x1024 .f32) (main_arg5 : FVec F S3072 .f32) (main_arg6 : FVec F S3072 .f32) (main_arg7 : FVec F S50257x1024 .f32) (main_arg8 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S50257x1024 .f32 := Host.absf main_arg2
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg0 main_arg5 main_arg6 main_arg7 main_arg8 main_v13 main_v16
-- ==== Kernel.lean ====
abbrev S1 : Shape := ⟨1, ![1]⟩
abbrev S1x1x1024 : Shape := ⟨3, ![1, 1, 1024]⟩
abbrev S50257x1024 : Shape := ⟨2, ![50257, 1024]⟩
abbrev S3072x1024 : Shape := ⟨2, ![3072, 1024]⟩
abbrev S3072 : Shape := ⟨1, ![3072]⟩
abbrev S50257 : Shape := ⟨1, ![50257]⟩
abbrev S1x1024 : Shape := ⟨2, ![1, 1024]⟩
abbrev S_ : Shape := ⟨0, ![]⟩
abbrev S1x3072 : Shape := ⟨2, ![1, 3072]⟩
abbrev S1024x3072 : Shape := ⟨2, ![1024, 3072]⟩
abbrev S49152x1024 : Shape := ⟨2, ![49152, 1024]⟩
abbrev S49152 : Shape := ⟨1, ![49152]⟩
abbrev S1105x1024 : Shape := ⟨2, ![1105, 1024]⟩
abbrev S1105 : Shape := ⟨1, ![1105]⟩
abbrev S1x49152 : Shape := ⟨2, ![1, 49152]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S1x1105 : Shape := ⟨2, ![1, 1105]⟩
abbrev S1024x1105 : Shape := ⟨2, ![1024, 1105]⟩
abbrev S1x50257 : Shape := ⟨2, ![1, 50257]⟩
abbrev S1x1 : Shape := ⟨2, ![1, 1]⟩

abbrev nBuf : Space → Nat
  | .hbm => 33
  | .vmem => 18
  | .smem => 1
  | _ => 0

abbrev bufTy : (tb : Table) → Fin (tcTables nBuf tb) → BufTy
  | .hbm, ⟨0, _⟩ => ⟨S1x1x1024, .f32⟩
  | .hbm, ⟨1, _⟩ => ⟨S50257x1024, .f32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S50257x1024, .f32⟩
  | .hbm, ⟨7, _⟩ => ⟨S50257, .f32⟩
  | .hbm, ⟨8, _⟩ => ⟨S1x1024, .f32⟩
  | .hbm, ⟨9, _⟩ => ⟨S1x1024, .f32⟩
  | .hbm, ⟨10, _⟩ => ⟨S49152x1024, .f32⟩
  | .hbm, ⟨11, _⟩ => ⟨S49152, .f32⟩
  | .hbm, ⟨12, _⟩ => ⟨S1105x1024, .f32⟩
  | .hbm, ⟨13, _⟩ => ⟨S1105, .f32⟩
  | .hbm, ⟨14, _⟩ => ⟨S1x49152, .f32⟩
  | .hbm, ⟨15, _⟩ => ⟨S1x1105, .f32⟩
  | .hbm, ⟨16, _⟩ => ⟨S1x50257, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S1x1, .f32⟩
  | .hbm, ⟨23, _⟩ => ⟨S1x50257, .f32⟩
  | .hbm, ⟨24, _⟩ => ⟨S1x50257, .f32⟩
  | .hbm, ⟨25, _⟩ => ⟨S1x50257, .f32⟩
  | .hbm, ⟨26, _⟩ => ⟨S_, .f32⟩
  | .hbm, ⟨27, _⟩ => ⟨S1, .f32⟩
  | .hbm, ⟨28, _⟩ => ⟨S1x1, .f32⟩
  | .hbm, ⟨29, _⟩ => ⟨S1x1, .f32⟩
  | .hbm, ⟨30, _⟩ => ⟨S1x50257, .f32⟩
  | .hbm, ⟨31, _⟩ => ⟨S1x50257, .f32⟩
  | .hbm, ⟨32, _⟩ => ⟨S1x1x1024, .f32⟩
  | .local _ .vmem, ⟨0, _⟩ => ⟨S1x1024, .f32⟩
  | .local _ .vmem, ⟨1, _⟩ => ⟨S3072x1024, .f32⟩
  | .local _ .vmem, ⟨2, _⟩ => ⟨S3072x1024, .f32⟩
  | .local _ .vmem, ⟨3, _⟩ => ⟨S3072, .f32⟩
  | .local _ .vmem, ⟨4, _⟩ => ⟨S3072, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4096x1024, .f32⟩
  | .local _ .vmem, ⟨9, _⟩ => ⟨S4096x1024, .f32⟩
  | .local _ .vmem, ⟨10, _⟩ => ⟨S4096, .f32⟩
  | .local _ .vmem, ⟨11, _⟩ => ⟨S4096, .f32⟩
  | .local _ .vmem, ⟨12, _⟩ => ⟨S1x4096, .f32⟩
  | .local _ .vmem, ⟨13, _⟩ => ⟨S1x4096, .f32⟩
  | .local _ .vmem, ⟨14, _⟩ => ⟨S1x1024, .f32⟩
  | .local _ .vmem, ⟨15, _⟩ => ⟨S1105x1024, .f32⟩
  | .local _ .vmem, ⟨16, _⟩ => ⟨S1105, .f32⟩
  | .local _ .vmem, ⟨17, _⟩ => ⟨S1x1105, .f32⟩
  | .local _ .smem, ⟨0, _⟩ => ⟨S1, .i32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v9 : Ref sig .tc := ⟨.hbm, 31, rfl⟩
abbrev main_v10 : Ref sig .tc := ⟨.hbm, 32, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32 : BitVec 32 := 0#32
  ![v0.toNat, 0]

def k0_chk1 (v0 : BitVec 32) : Prop :=
  (∀ a, (k0_off1 v0) a + S1x1024.size a ≤ S50257x1024.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1024.size a ≤ S50257x1024.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1105x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1105 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x1105 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  shapeCasts_S1x1x1024_S1x1024 : S1x1x1024.ShapeCasts S1x1024
  inb_S1_S1_0 : ∀ a, (![0] : Fin 1 → Nat) a + S1.size a ≤ S1.size a
  numel1_S1 : S1.numel = 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3072x1024_S3072x1024_0_0 : ∀ a, (![0, 0] : Fin 2 → Nat) a + S3072x1024.size a ≤ S3072x1024.size a
  h_S3072x1024 : 0 < S3072x1024.numel
  bitsLt_bf16_f32 : FTy.bits .bf16 < FTy.bits .f32
  inb_S3072_S3072_0 : ∀ a, (![0] : Fin 1 → Nat) a + S3072.size a ≤ S3072.size a
  h_S3072 : 0 < S3072.numel
  shapeCasts_S3072_S1x3072 : S3072.ShapeCasts S1x3072
  transposes_S3072x1024_p1_0_S1024x3072 : S3072x1024.Transposes [1, 0] S1024x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  slices_S50257x1024_S49152x1024_0_0 : S50257x1024.Slices ![0, 0] S49152x1024
  slices_S50257_S49152_0 : S50257.Slices ![0] S49152
  slices_S50257x1024_S1105x1024_49152_0 : S50257x1024.Slices ![49152, 0] S1105x1024
  slices_S50257_S1105_49152 : S50257.Slices ![49152] S1105
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  inb_S1105x1024_S1105x1024_0_0 : ∀ a, (![0, 0] : Fin 2 → Nat) a + S1105x1024.size a ≤ S1105x1024.size a
  h_S1105x1024 : 0 < S1105x1024.numel
  shapeCasts_S1105x1024_S1105x1024 : S1105x1024.ShapeCasts S1105x1024
  transposes_S1105x1024_p1_0_S1024x1105 : S1105x1024.Transposes [1, 0] S1024x1105
  inb_S1105_S1105_0 : ∀ a, (![0] : Fin 1 → Nat) a + S1105.size a ≤ S1105.size a
  h_S1105 : 0 < S1105.numel
  shapeCasts_S1105_S1105 : S1105.ShapeCasts S1105
  shapeCasts_S1105_S1x1105 : S1105.ShapeCasts S1x1105
  inb_S1x1105_S1x1105_0_0 : ∀ a, (![0, 0] : Fin 2 → Nat) a + S1x1105.size a ≤ S1x1105.size a
  h_S1x1105 : 0 < S1x1105.numel
  concatenates_S1x49152_S1x1105_S1x50257_d1 : Shape.Concatenates [S1x49152, S1x1105] S1x50257 1
  reducesTo_S1x50257_S1_d1 : S1x50257.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x1024_S1024x3072_S1x3072_1_0_0_1_n_n_wf : DotDims.WF S1x1024 S1024x3072 S1x3072 [1] [0] [0] [1] [] []
  dot_S1x1024_S1024x4096_S1x4096_1_0_0_1_n_n_wf : DotDims.WF S1x1024 S1024x4096 S1x4096 [1] [0] [0] [1] [] []
  dot_S1x1024_S1024x1105_S1x1105_1_0_0_1_n_n_wf : DotDims.WF S1x1024 S1024x1105 S1x1105 [1] [0] [0] [1] [] []
  hcc0_scratch1 : 6 + S_.numel ≤ 18
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x1024.size a ≤ S1x1024.size a
  hwx0_0 : ∀ i : grid0.Coords, EltTy.bits .f32 = 32 ∨ (Rect.block (s := S1x1024) S1x1024.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S3072x1024.size a ≤ S3072x1024.size a
  hwx0_1 : ∀ i : grid0.Coords, EltTy.bits .f32 = 32 ∨ (Rect.block (s := S3072x1024) S3072x1024.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S3072x1024.size a ≤ S3072x1024.size a
  hwx0_2 : ∀ i : grid0.Coords, EltTy.bits .f32 = 32 ∨ (Rect.block (s := S3072x1024) S3072x1024.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S3072.size a ≤ S3072.size a
  hwx0_3 : ∀ i : grid0.Coords, EltTy.bits .f32 = 32 ∨ (Rect.block (s := S3072) S3072.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S3072.size a ≤ S3072.size a
  hwx0_4 : ∀ i : grid0.Coords, EltTy.bits .f32 = 32 ∨ (Rect.block (s := S3072) S3072.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x1024.size a ≤ S1x1024.size a
  hwx0_5 : ∀ i : grid0.Coords, EltTy.bits .f32 = 32 ∨ (Rect.block (s := S1x1024) S1x1024.size (cc0_transform_6 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S49152x1024.size a
  hwx1_1 : ∀ i : grid1.Coords, EltTy.bits .f32 = 32 ∨ (Rect.block (s := S49152x1024) S4096x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S49152.size a
  hwx1_2 : ∀ i : grid1.Coords, EltTy.bits .f32 = 32 ∨ (Rect.block (s := S49152) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x49152.size a
  hwx1_3 : ∀ i : grid1.Coords, EltTy.bits .f32 = 32 ∨ (Rect.block (s := S1x49152) S1x4096.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1105x1024.size a ≤ S1105x1024.size a
  hwx2_1 : ∀ i : grid2.Coords, EltTy.bits .f32 = 32 ∨ (Rect.block (s := S1105x1024) S1105x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1105.size a ≤ S1105.size a
  hwx2_2 : ∀ i : grid2.Coords, EltTy.bits .f32 = 32 ∨ (Rect.block (s := S1105) S1105.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1105.size a ≤ S1x1105.size a
  hwx2_3 : ∀ i : grid2.Coords, EltTy.bits .f32 = 32 ∨ (Rect.block (s := S1x1105) S1x1105.size (cc2_transform_3 i) (hinb2_3 i)).WholeWords (EltTy.packing .f32)

variable [Facts₀]

abbrev cc0_scratch1 : DmaSems sig S_ := SemArray.consecutive 6 S_ hcc0_scratch1
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x1105_S1x1105_1_0_0_1_n_n : DotDims S1x1024 S1024x1105 S1x1105 where
  lhsContracting := [1]
  rhsContracting := [0]
  lhsNonContracting := [0]
  rhsNonContracting := [1]
  lhsBatch := []
  rhsBatch := []
  wf := dot_S1x1024_S1024x1105_S1x1105_1_0_0_1_n_n_wf

abbrev spec0_0 : Pipeline.WinSpec sig grid0.rank :=
  Pipeline.WinSpec.ofSpec (Memref.whole main_v0) S1x1024.size reads0_0 false true 1 stage0_0 sem0_0 nbuf0_0 hstage0_0

abbrev spec0_1 : Pipeline.WinSpec sig grid0.rank :=
  Pipeline.WinSpec.ofSpec (Memref.whole main_arg3) S3072x1024.size reads0_1 false true 1 stage0_1 sem0_1 nbuf0_1 hstage0_1

abbrev spec0_2 : Pipeline.WinSpec sig grid0.rank :=
  Pipeline.WinSpec.ofSpec (Memref.whole main_arg4) S3072x1024.size reads0_2 false true 1 stage0_2 sem0_2 nbuf0_2 hstage0_2

abbrev spec0_3 : Pipeline.WinSpec sig grid0.rank :=
  Pipeline.WinSpec.ofSpec (Memref.whole main_arg5) S3072.size reads0_3 false true 1 stage0_3 sem0_3 nbuf0_3 hstage0_3

abbrev spec0_4 : Pipeline.WinSpec sig grid0.rank :=
  Pipeline.WinSpec.ofSpec (Memref.whole main_arg6) S3072.size reads0_4 false true 1 stage0_4 sem0_4 nbuf0_4 hstage0_4

abbrev spec0_5 : Pipeline.WinSpec sig grid0.rank :=
  Pipeline.WinSpec.ofSpec (Memref.whole main_v1) S1x1024.size reads0_5 true true 1 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_1 | 1 => cc0_transform_2 | 2 => cc0_transform_3 | 3 => cc0_transform_4 | 4 => cc0_transform_5 | 5 => cc0_transform_6 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))
abbrev win1_0 : Pipeline.Window sig grid1 :=
  Pipeline.Window.ofSpec (Memref.whole main_v1) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1105x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1105.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x1105.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S50257x1024 : Shape := ⟨2, ![50257, 1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 124
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S50257x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S50257x1024, .f32⟩
  | .hbm, ⟨8, _⟩ => ⟨S50257, .f32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1x1, .i32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x3072, .f32⟩
  | .hbm, ⟨23, _⟩ => ⟨S1x3072, .f32⟩
  | .hbm, ⟨24, _⟩ => ⟨S1x3072, .f32⟩
  | .hbm, ⟨25, _⟩ => ⟨S1x3072, .f32⟩
  | .hbm, ⟨26, _⟩ => ⟨S1024x3072, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1024x3072, .f32⟩
  | .hbm, ⟨64, _⟩ => ⟨S1x3072, .f32⟩
  | .hbm, ⟨65, _⟩ => ⟨S1x3072, .f32⟩
  | .hbm, ⟨66, _⟩ => ⟨S1x3072, .f32⟩
  | .hbm, ⟨67, _⟩ => ⟨S1024x3072, .f32⟩
  | .hbm, ⟨68, _⟩ => ⟨S1x3072, .f32⟩
  | .hbm, ⟨69, _⟩ => ⟨S1x3072, .f32⟩
  | .hbm, ⟨70, _⟩ => ⟨S1x3072, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1024x50257, .f32⟩
  | .hbm, ⟨105, _⟩ => ⟨S1x50257, .f32⟩
  | .hbm, ⟨106, _⟩ => ⟨S1x50257, .f32⟩
  | .hbm, ⟨107, _⟩ => ⟨S1x50257, .f32⟩
  | .hbm, ⟨108, _⟩ => ⟨S_, .f32⟩
  | .hbm, ⟨109, _⟩ => ⟨S1, .f32⟩
  | .hbm, ⟨110, _⟩ => ⟨S_, .f32⟩
  | .hbm, ⟨111, _⟩ => ⟨S1, .f32⟩
  | .hbm, ⟨112, _⟩ => ⟨S1, .f32⟩
  | .hbm, ⟨113, _⟩ => ⟨S1x1, .f32⟩
  | .hbm, ⟨114, _⟩ => ⟨S1x50257, .f32⟩
  | .hbm, ⟨115, _⟩ => ⟨S1x50257, .f32⟩
  | .hbm, ⟨116, _⟩ => ⟨S1x50257, .f32⟩
  | .hbm, ⟨117, _⟩ => ⟨S_, .f32⟩
  | .hbm, ⟨118, _⟩ => ⟨S1, .f32⟩
  | .hbm, ⟨119, _⟩ => ⟨S1x1, .f32⟩
  | .hbm, ⟨120, _⟩ => ⟨S1x1, .f32⟩
  | .hbm, ⟨121, _⟩ => ⟨S1x50257, .f32⟩
  | .hbm, ⟨122, _⟩ => ⟨S1x50257, .f32⟩
  | .hbm, ⟨123, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_5 : Ref sig .tc := ⟨.hbm, 80, rfl⟩
abbrev main_v62 : Ref sig .tc := ⟨.hbm, 81, rfl⟩
abbrev main_v63 : Ref sig .tc := ⟨.hbm, 82, rfl⟩
abbrev main_cst_6 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_9 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1024 : S_.BroadcastsInDim S1x1024 (![] : Fin 0 → Fin S1x1024.rank)
  shapeCasts_S1x1x1024_S1x1024 : S1x1x1024.ShapeCasts S1x1024
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.TokenRange.lean ====
/-
  The index range of the integer input, read out of the precondition.

  The precondition is a conjunction (a chain of `and` on one-bit scalars) whose last two conjuncts are
  "every entry of the integer input is ≥ 0" and "every entry of the integer input is < 50257", both as signed
  32-bit comparisons against a broadcast constant, each folded by `and` from 1 over the whole vector. If the
  conjunction is 1 then each conjunct is 1, a fold by `and` that is 1 met only 1s, and a 32-bit word w with
  0 ≤ w < n as a signed word (n < 2³¹) satisfies w.toNat < n. Hence every entry, read as a natural number,
  is below 50257.
-/
import proofs.«416419_j79018808312087_1_alg».proof.Pre_finite_inputs
import Idealize.ShloMosaic.Lib.ReduceAll
import Idealize.ShloMosaic.Lib.ValueIdx
import Idealize.ShloMosaic.Lib.StableHlo.Predicate

noncomputable section

namespace Cert.TokenRange

open Idealize.ShloMosaic Idealize.ShloMosaic.ValueIdx
open Cert.Pre_finite_inputs

/-- A 32-bit word that is at least 0 and below `n` as a signed word, with `n < 2³¹`, is below `n` as a natural
    number: its sign bit is clear, so its signed and unsigned readings agree. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from rfl, BitVec.toInt_eq_toNat_cond] at h0
  rw [IntOp.cmpi_slt, StableHlo.Predicate.toInt_ofNat_small n hn, BitVec.toInt_eq_toNat_cond] at h1
  have hw := w.isLt
  rcases Nat.lt_or_ge (2 * w.toNat) (2 ^ 32) with hc | hc
  · rw [if_pos hc] at h1; omega
  · rw [if_neg (by omega)] at h0; omega

variable {F : FTy → Type} [FloatOps F] [Facts]

/-- The scalar shape has exactly one index. -/
instance : Subsingleton S_.Idx := ⟨fun a b => funext fun d => d.elim0⟩

/-- Under the precondition every entry of the integer input, as a natural number, is below 50257. -/
theorem tok_all (a0 : IVec S1 32) (a1 : FVec F S1x1x1024 .f32) (a2 : FVec F S50257x1024 .f32)
    (a3 : FVec F S3072x1024 .f32) (a4 : FVec F S3072x1024 .f32) (a5 : FVec F S3072 .f32) (a6 : FVec F S3072 .f32)
    (a7 : FVec F S50257x1024 .f32) (a8 : FVec F S50257 .f32)
    (h : fn (F := F) a0 a1 a2 a3 a4 a5 a6 a7 a8 = (fun _ => 1#1)) : ∀ i, (a0 i).toNat < 50257 := by
  intro i
  -- the conjunction at the scalar's one index, split; the last two conjuncts are the two range checks
  have e := congrFun h ix0
  dsimp only [fn, fn_part1, fn_part2] at e
  simp only [andi, IntOp.andi_eq_one] at e
  obtain ⟨⟨-, h0⟩, h1⟩ := e
  -- each check is a fold by `and` over the whole vector: it holds at entry i
  have g0 := Host.reduce_andi_all _ _ _ _ _ h0 i
  have g1 := Host.reduce_andi_all _ _ _ _ _ h1 i
  simp only [cmpi, broadcastInDim, constantI] at g0 g1
  exact toNat_lt_of_signed _ 50257 (by decide) g0 g1

/-- The same at the vector's one entry, index 0. -/
theorem tok_lt (a0 : IVec S1 32) (a1 : FVec F S1x1x1024 .f32) (a2 : FVec F S50257x1024 .f32)
    (a3 : FVec F S3072x1024 .f32) (a4 : FVec F S3072x1024 .f32) (a5 : FVec F S3072 .f32) (a6 : FVec F S3072 .f32)
    (a7 : FVec F S50257x1024 .f32) (a8 : FVec F S50257 .f32)
    (h : fn (F := F) a0 a1 a2 a3 a4 a5 a6 a7 a8 = (fun _ => 1#1)) : (a0 (ix1 0)).toNat < 50257 :=
  tok_all a0 a1 a2 a3 a4 a5 a6 a7 a8 h _

end Cert.TokenRange

end
-- ==== Proof.KB.Lin1.lean ====
/-
  The output projection's pallas_call number 1 (a tile of 4096 vocabulary rows per grid point): what its body leaves in
  the output block, and the pipeline's proof data and body obligation for it, at any contents `V` of the core's buffers
  when the call is entered.  The body loads the hidden row `h` [1,1024], a block `W` [4096,1024] of the projection matrix
  and the matching block `b` [4096] of the bias, and stores `h · Wᵀ + b` over the whole output block [1,4096]; it reads no
  output buffer and keeps nothing between points, so the invariant carried from point to point is only the untouched
  rest of the core's scoped memory and its generator register.
-/
import proofs.«416419_j79018808312087_1_alg».proof.Proof.Gen.Kernel.Launch
import proofs.«416419_j79018808312087_1_alg».proof.Proof.Gen.Kernel.Skeleton
import proofs.«416419_j79018808312087_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there
    or the block index did not move: for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded or stored whole -/

abbrev rh1 : Rect S1x1024 := Rect.unit (s := S1x1024) ![0, 0] S1x1024.size inb_S1x1024_S1x1024_0_0
abbrev rw1 : Rect S4096x1024 := Rect.unit (s := S4096x1024) ![0, 0] S4096x1024.size inb_S4096x1024_S4096x1024_0_0
abbrev rb1 : Rect S4096 := Rect.unit (s := S4096) ![0] S4096.size inb_S4096_S4096_0
abbrev ro1 : Rect S1x4096 := Rect.unit (s := S1x4096) ![0, 0] S1x4096.size inb_S1x4096_S1x4096_0_0

/-! ## What the body leaves in the output block -/

/-- The output block after the body, from the three input blocks: its one store, of `h · Wᵀ + b` (the payload
    `k1_pay1` of the loads), over the whole block. -/
def out1_3 (x0 : Vec F S1x1024 .f32) (x1 : Vec F S4096x1024 .f32) (x2 : Vec F S4096 .f32) : Vec F S1x4096 .f32 :=
  View.canon [⟨ro1, k1_pay1 (View.ld x0 rh1) (View.ld x1 rw1) (View.ld x2 rb1)⟩]

/-- The one store covers the block. -/
theorem cover1_3 (p0 : Vec F S1x4096 .f32) (y : S1x4096.Idx) :
    ∃ pc ∈ ([⟨ro1, p0⟩] : List (View.Piece (Elt F) S1x4096 .f32)), y ∈ pc.1.set :=
  View.cover_of_tiled [⟨ro1, p0⟩] S1x4096.size (by rfl) y

/-! ## The body's triple -/

set_option maxHeartbeats 1000000 in
/-- On whole staging buffers, the inputs' at contents `x0 x1 x2` and the output's at anything, the body runs to its
    continuation with the inputs' as they were and the output's at `out1_3 x0 x1 x2`. -/
theorem sound_kernel1 (c : Dev nD) (E : Set ℕ) (i : grid1.Coords)
    (arg1 : Memref sig .tc .vmem S1x1024 .f32) (harg1 : arg1.IsWhole) (arg2 : Memref sig .tc .vmem S4096x1024 .f32) (harg2 : arg2.IsWhole)
    (arg3 : Memref sig .tc .vmem S4096 .f32) (harg3 : arg3.IsWhole) (arg4 : Memref sig .tc .vmem S1x4096 .f32) (harg4 : arg4.IsWhole)
    (x0 : Vec F S1x1024 .f32) (x1 : Vec F S4096x1024 .f32) (x2 : Vec F S4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this call on core `c`: the arrays as the call finds them; after the body at point `t` each
    input's buffer still at its block and the output's at `out1_3` of the input blocks; the invariant the untouched
    scoped rest and the generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Lin2.lean ====
/-
  The output projection's pallas_call number 2 (a tile of 1105 vocabulary rows per grid point): what its body leaves in
  the output block, and the pipeline's proof data and body obligation for it, at any contents `V` of the core's buffers
  when the call is entered.  The body loads the hidden row `h` [1,1024], a block `W` [1105,1024] of the projection matrix
  and the matching block `b` [1105] of the bias, and stores `h · Wᵀ + b` over the whole output block [1,1105]; it reads no
  output buffer and keeps nothing between points, so the invariant carried from point to point is only the untouched
  rest of the core's scoped memory and its generator register.
-/
import proofs.«416419_j79018808312087_1_alg».proof.Proof.Gen.Kernel.Launch
import proofs.«416419_j79018808312087_1_alg».proof.Proof.Gen.Kernel.Skeleton
import proofs.«416419_j79018808312087_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there
    or the block index did not move: for any proof data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is loaded or stored whole -/

abbrev rh2 : Rect S1x1024 := Rect.unit (s := S1x1024) ![0, 0] S1x1024.size inb_S1x1024_S1x1024_0_0
abbrev rw2 : Rect S1105x1024 := Rect.unit (s := S1105x1024) ![0, 0] S1105x1024.size inb_S1105x1024_S1105x1024_0_0
abbrev rb2 : Rect S1105 := Rect.unit (s := S1105) ![0] S1105.size inb_S1105_S1105_0
abbrev ro2 : Rect S1x1105 := Rect.unit (s := S1x1105) ![0, 0] S1x1105.size inb_S1x1105_S1x1105_0_0

/-! ## What the body leaves in the output block -/

/-- The output block after the body, from the three input blocks: its one store, of `h · Wᵀ + b` (the payload
    `k2_pay1` of the loads), over the whole block. -/
def out2_3 (x0 : Vec F S1x1024 .f32) (x1 : Vec F S1105x1024 .f32) (x2 : Vec F S1105 .f32) : Vec F S1x1105 .f32 :=
  View.canon [⟨ro2, k2_pay1 (View.ld x0 rh2) (View.ld x1 rw2) (View.ld x2 rb2)⟩]

/-- The one store covers the block. -/
theorem cover2_3 (p0 : Vec F S1x1105 .f32) (y : S1x1105.Idx) :
    ∃ pc ∈ ([⟨ro2, p0⟩] : List (View.Piece (Elt F) S1x1105 .f32)), y ∈ pc.1.set :=
  View.cover_of_tiled [⟨ro2, p0⟩] S1x1105.size (by rfl) y

/-! ## The body's triple -/

set_option maxHeartbeats 1000000 in
/-- On whole staging buffers, the inputs' at contents `x0 x1 x2` and the output's at anything, the body runs to its
    continuation with the inputs' as they were and the output's at `out2_3 x0 x1 x2`. -/
theorem sound_kernel2 (c : Dev nD) (E : Set ℕ) (i : grid2.Coords)
    (arg1 : Memref sig .tc .vmem S1x1024 .f32) (harg1 : arg1.IsWhole) (arg2 : Memref sig .tc .vmem S1105x1024 .f32) (harg2 : arg2.IsWhole)
    (arg3 : Memref sig .tc .vmem S1105 .f32) (harg3 : arg3.IsWhole) (arg4 : Memref sig .tc .vmem S1x1105 .f32) (harg4 : arg4.IsWhole)
    (x0 : Vec F S1x1024 .f32) (x1 : Vec F S1105x1024 .f32) (x2 : Vec F S1105 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this call on core `c`: the arrays as the call finds them; after the body at point `t` each
    input's buffer still at its block and the output's at `out2_3` of the input blocks; the invariant the untouched
    scoped rest and the generator register; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Gru0.lean ====
/-
  The first pallas_call (the embedding lookup and the two GRU cells, one grid point): its operands beside the pipelined
  windows, the invariant its body runs under, and the body's run.  The body reads the token word from the prefetched
  table in scalar memory, copies row `token` of the embedding matrix (left in HBM) into its own scratch row by a
  transfer on its own semaphore and waits for it at once, and then computes; the row's offset is in range exactly when
  `token + 1 ≤ 50257`, which the body assumes of the word and the certificate's precondition supplies.
-/
import proofs.«416419_j79018808312087_1_alg».proof.Proof.Gen.Kernel.Launch
import proofs.«416419_j79018808312087_1_alg».proof.Proof.Gen.Kernel.Skeleton
import proofs.«416419_j79018808312087_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (a0 : (pcfg0 (F := F)).Adm)
variable (V : (c : Dev nD) → (b : Ref sig .tc) → Buf (Elt F) ((c : Thread nD τ).loc b))

/-! ## The operands the pipeline does not stage -/

/-- The scratch row the looked-up embedding row is copied into. -/
abbrev scM0 : Memref sig .tc .vmem S1x1024 .f32 := Memref.whole cc0_scratch0
/-- The embedding matrix, left in HBM. -/
abbrev hbM0 : Memref sig .tc .hbm S50257x1024 .f32 := Memref.whole main_arg2
/-- The token table, in scalar memory. -/
abbrev tbM0 : Memref sig .tc .smem S1 .i32 := Memref.whole main_arg0

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore. -/
abbrev osem0 : Fin 1 → SemLoc sig := fun j => (![SemLoc.dma 6] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0) := by
  rw [Pipeline.ownSems0_eq_of_list c osem0 [0] (by decide) (by decide)]; rfl

/-- The unscoped buffers the body reads that are no window's array: the embedding matrix and the token table. -/
def H0 : Finset (Ref sig .tc) := {main_arg2, main_arg0}
theorem H0_sub : H0 ⊆ Pipeline.restRefs sig spec0 := by decide
theorem hbmPts0_eq (c : Dev nD) :
    (bigSep H0 (fun b => ((c : Thread nD τ).loc b) ↦{fullShare} V c b) : sProp 𝕄)
      = iprop(hbPt0 c hbM0 (V c main_arg2) ∗ hbPt0 c tbM0 (V c main_arg0)) := by
  rw [BI.bigSep_eq_bigSepL_of_eq [main_arg2, main_arg0] (by decide) (by decide)]; rfl

/-- The invariant, conjunct by conjunct: the scoped rest (the scratch row among it), the generator register, the
    body's semaphore at zero, the embedding matrix and the token table at their contents when the call is entered. -/
theorem PhiD0_eq (c : Dev nD) :
    (Pipeline.ΦD osem0 spec0 H0 V c : sProp 𝕄)
      = iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 6) 0) ∗ iprop(hbPt0 c hbM0 (V c main_arg2) ∗ hbPt0 c tbM0 (V c main_arg0))) := by
  rw [Pipeline.ΦD_eq, ownSems00_eq, hbmPts0_eq]

/-! ## The body's run -/

/-- The token word as the body's scalar load reads it off the table's contents `ft`. -/
abbrev tokWord (c : Dev nD) (ft : HbBuf0 (F := F) c tbM0) : BitVec 32 :=
  tbM0.view.readAt (Elt F) (Rect.unit (s := S1) ![0] S1.size inb_S1_S1_0).toLoadRect ft (Shape.Idx.first (numel1_S1.symm ▸ Nat.one_pos))

/-- One staging buffer of the output window, through which its contents are stated. -/
abbrev VO0 : View sig .tc .vmem S1x1024 .f32 := (Memref.whole cc0_stg5_0 : Memref sig .tc .vmem S1x1024 .f32).view

set_option maxHeartbeats 4000000 in
/-- What the body's one store leaves in the output's staging buffer, as pieces, WITH the proof that on whole staging
    buffers — the five inputs' at contents `x0 … x4`, the output's and the scratch row's at anything —, holding the
    embedding matrix at `fe` and the token table at `ft` whose word keeps the row in range, its semaphore at zero and
    the core's dues, the body runs to its continuation with the inputs, the matrix, the table and the semaphore as they
    were, the scratch at some contents, the wait recorded, and the output's buffer with its pieces written. -/
noncomputable def kernelRun0 (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec F S1x1024 .f32) (x1 x2 : Vec F S3072x1024 .f32) (x3 x4 : Vec F S3072 .f32)
    (fe : HbBuf0 (F := F) c hbM0) (ft : HbBuf0 (F := F) c tbM0) (htok : k0_chk1 (tokWord c ft)) :
    { L : List (View.Piece (Elt F) S1x1024 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) scM0 fullShare d)
            ∗ semVal ((c : Thread nD τ), SemLoc.dma 6) 0 ∗ hbPt0 c hbM0 fe ∗ hbPt0 c tbM0 ft ∗ owes (c : Thread nD τ) 0 W
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) scM0 fullShare d)
                ∗ semVal ((c : Thread nD τ), SemLoc.dma 6) 0 ∗ hbPt0 c hbM0 fe ∗ hbPt0 c tbM0 ft ∗ (∃ W', owes (c : Thread nD τ) 0 W')) -∗ K ⟨⟩))
          ⊢ wp frame (wpE (defs₀ (F := F)) Variants.none c none) Set.univ
              (cc0__embed_gru_kernel i tbM0 (Memref.isWhole_whole _) hbM0 (Memref.isWhole_whole _) arg3 harg3 arg4 harg4 arg5 harg5 arg6 harg6 arg7 harg7 arg8 harg8 scM0 (Memref.isWhole_whole _) cc0_scratch1) K } := by
  refine ⟨?_, fun W K => ?run⟩
  case run =>
    simp only [cc0__embed_gru_kernel_eq_skeleton]; unfold cc0__embed_gru_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hq, Hhe, Hht, HW, Hk⟩
    obtain rfl := harg3.eq_unread hf0
    obtain rfl := harg4.eq_unread hf1
    obtain rfl := harg5.eq_unread hf2
    obtain rfl := harg6.eq_unread hf3
    obtain rfl := harg7.eq_unread hf4
    sl_exec (disch := sl_exact htok)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]
    · iexists _, _; isplitr; swap; · iexact HS
      ipureintro; rfl
    isplitl [Hq]; · iexact Hq
    isplitl [Hhe]; · iexact Hhe
    isplitl [Hht]; · iexact Hht
    iexists _; iexact HW

/-- The run's one piece is the whole output block, so its pieces cover it. -/
theorem cover0_5 (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec F S1x1024 .f32) (x1 x2 : Vec F S3072x1024 .f32) (x3 x4 : Vec F S3072 .f32)
    (fe : HbBuf0 (F := F) c hbM0) (ft : HbBuf0 (F := F) c tbM0) (htok : k0_chk1 (tokWord c ft)) (y : S1x1024.Idx) :
    ∃ pc ∈ (kernelRun0 c i arg3 harg3 arg4 harg4 arg5 harg5 arg6 harg6 arg7 harg7 arg8 harg8 x0 x1 x2 x3 x4 fe ft htok).1, y ∈ pc.1.set :=
  View.cover_of_tiledL (kernelRun0 c i arg3 harg3 arg4 harg4 arg5 harg5 arg6 harg6 arg7 harg7 arg8 harg8 x0 x1 x2 x3 x4 fe ft htok).1 S1x1024.size (by sl_kernel_rfl) y

/-- What the run leaves in the output's staging buffer: its pieces read back over junk. -/
def out0_5 (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec F S1x1024 .f32) (x1 x2 : Vec F S3072x1024 .f32) (x3 x4 : Vec F S3072 .f32)
    (fe : HbBuf0 (F := F) c hbM0) (ft : HbBuf0 (F := F) c tbM0) (htok : k0_chk1 (tokWord c ft)) : Vec F S1x1024 .f32 :=
  VO0.read (Elt F) (VO0.writes (Elt F) VO0.junk (kernelRun0 c i arg3 harg3 arg4 harg4 arg5 harg5 arg6 harg6 arg7 harg7 arg8 harg8 x0 x1 x2 x3 x4 fe ft htok).1)

/-! ## The invariant with the scratch row exposed -/

/-- The scoped buffers of the core that are neither a staging buffer of this call nor its scratch row, each at some contents. -/
def restO0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

theorem PhiD0_eq' (c : Dev nD) :
    (Pipeline.ΦD osem0 spec0 H0 V c : sProp 𝕄)
      = iprop(iprop((∃ d, owns (c : Thread nD τ) scM0 fullShare d) ∗ restO0 (F := F) c) ∗ (∃ r, prngReg c r)
          ∗ iprop(semVal ((c : Thread nD τ), SemLoc.dma 6) 0) ∗ iprop(hbPt0 c hbM0 (V c main_arg2) ∗ hbPt0 c tbM0 (V c main_arg0))) := by
  rw [PhiD0_eq, scopedRest0_eq]; unfold restO0; simp only [scM0, owns_whole]; try rfl

/-! ## The windows' blocks -/

/-- Window `w`'s block at grid point `t`, read off its array as the call finds it. -/
def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

theorem before0_0_of {c : Dev nD} (dat : Dat τ (Elt F) Unit ℕ (Pipeline.UD sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a0) c) (hA : dat.A 2 = V c (Pipeline.arrRef spec0 2))
    (hafter : ∀ t, dat.after 2 t = iblk0 a0 V c 2 t) (t : Fin (cfg0 a0).N) (d) : dat.before 2 t d = iblk0 a0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ (cfg0 a0) c) (hA : dat.A 3 = V c (Pipeline.arrRef spec0 3))
    (hafter : ∀ t, dat.after 3 t = iblk0 a0 V c 3 t) (t : Fin (cfg0 a0).N) (d) : dat.before 3 t d = iblk0 a0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ (cfg0 a0) c) (hA : dat.A 4 = V c (Pipeline.arrRef spec0 4))
    (hafter : ∀ t, dat.after 4 t = iblk0 a0 V c 4 t) (t : Fin (cfg0 a0).N) (d) : dat.before 4 t d = iblk0 a0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body. -/
abbrev ms0_0 (t : Fin (cfg0 a0).N) : Memref sig .tc .vmem S1x1024 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S3072x1024 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S3072x1024 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S3072 .f32 := spec0_3.stage ((cfg0 a0).slots t 3)
abbrev hs0_3 (t : Fin (cfg0 a0).N) : (ms0_3 a0 t).IsWhole := hstage0_3 (((cfg0 a0).slots t 3).cast nbuf0_3)
abbrev ms0_4 (t : Fin (cfg0 a0).N) : Memref sig .tc .vmem S3072 .f32 := spec0_4.stage ((cfg0 a0).slots t 4)
abbrev hs0_4 (t : Fin (cfg0 a0).N) : (ms0_4 a0 t).IsWhole := hstage0_4 (((cfg0 a0).slots t 4).cast nbuf0_4)
abbrev ms0_5 (t : Fin (cfg0 a0).N) : Memref sig .tc .vmem S1x1024 .f32 := spec0_5.stage ((cfg0 a0).slots t 5)
abbrev hs0_5 (t : Fin (cfg0 a0).N) : (ms0_5 a0 t).IsWhole := hstage0_5 (((cfg0 a0).slots t 5).cast nbuf0_5)

/-! ## The proof data -/

variable (htok : ∀ c : Dev nD, k0_chk1 (tokWord (F := F) c (V c main_arg0)))

/-- What the output's staging buffer holds after the body at point `t`: the run's contents at the point's buffers,
    the five input blocks, the embedding matrix and the token table as the call finds them. -/
def outsAt0 (c : Dev nD) (t : Fin (cfg0 a0).N) : Vec F S1x1024 .f32 :=
  out0_5 c (grid0.coords t) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (iblk0 a0 V c 0 t) (iblk0 a0 V c 1 t) (iblk0 a0 V c 2 t) (iblk0 a0 V c 3 t) (iblk0 a0 V c 4 t) (V c main_arg2) (V c main_arg0) (htok c)

/-- The proof data of this call on core `c`: the arrays as the call finds them; after the body each input's buffer
    still at its block and the output's at `outsAt0`; the invariant of a body with a transfer of its own (the scoped
    rest, the generator register, its semaphore at zero, the matrix and the table at their entry contents); nothing owed. -/
def dat0 (c : Dev nD) : Dat τ (Elt F) Unit ℕ (Pipeline.UD sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => iblk0 a0 V c 2 t
    | ⟨3, _⟩ => iblk0 a0 V c 3 t
    | ⟨4, _⟩ => iblk0 a0 V c 4 t
    | ⟨5, _⟩ => outsAt0 a0 V htok c t
  Φ _ := Pipeline.ΦD osem0 spec0 H0 V c
  q _ := fullShare
  owed _ := 0

theorem A_eq0 (c : Dev nD) (w : Fin (cfg0 a0).W) : (dat0 a0 V htok c).A w = V c (Pipeline.arrRef spec0 w) := by
  dsimp only [dat0]

theorem after0_0 (c : Dev nD) (t : Fin (cfg0 a0).N) : (dat0 a0 V htok c).after 0 t = iblk0 a0 V c 0 t := by dsimp only [dat0]; rfl
theorem after0_1 (c : Dev nD) (t : Fin (cfg0 a0).N) : (dat0 a0 V htok c).after 1 t = iblk0 a0 V c 1 t := by dsimp only [dat0]; rfl
theorem after0_2 (c : Dev nD) (t : Fin (cfg0 a0).N) : (dat0 a0 V htok c).after 2 t = iblk0 a0 V c 2 t := by dsimp only [dat0]; rfl
theorem after0_3 (c : Dev nD) (t : Fin (cfg0 a0).N) : (dat0 a0 V htok c).after 3 t = iblk0 a0 V c 3 t := by dsimp only [dat0]; rfl
theorem after0_4 (c : Dev nD) (t : Fin (cfg0 a0).N) : (dat0 a0 V htok c).after 4 t = iblk0 a0 V c 4 t := by dsimp only [dat0]; rfl
theorem after0_5 (c : Dev nD) (t : Fin (cfg0 a0).N) : (dat0 a0 V htok c).after 5 t = outsAt0 a0 V htok c t := by dsimp only [dat0]; rfl

theorem before0_0 (c : Dev nD) (t : Fin (cfg0 a0).N) (d) : (dat0 a0 V htok c).before 0 t d = iblk0 a0 V c 0 t :=
  before0_0_of a0 V (dat0 a0 V htok c) (A_eq0 a0 V htok c 0) (after0_0 a0 V htok c) t d
theorem before0_1 (c : Dev nD) (t : Fin (cfg0 a0).N) (d) : (dat0 a0 V htok c).before 1 t d = iblk0 a0 V c 1 t :=
  before0_1_of a0 V (dat0 a0 V htok c) (A_eq0 a0 V htok c 1) (after0_1 a0 V htok c) t d
theorem before0_2 (c : Dev nD) (t : Fin (cfg0 a0).N) (d) : (dat0 a0 V htok c).before 2 t d = iblk0 a0 V c 2 t :=
  before0_2_of a0 V (dat0 a0 V htok c) (A_eq0 a0 V htok c 2) (after0_2 a0 V htok c) t d
theorem before0_3 (c : Dev nD) (t : Fin (cfg0 a0).N) (d) : (dat0 a0 V htok c).before 3 t d = iblk0 a0 V c 3 t :=
  before0_3_of a0 V (dat0 a0 V htok c) (A_eq0 a0 V htok c 3) (after0_3 a0 V htok c) t d
theorem before0_4 (c : Dev nD) (t : Fin (cfg0 a0).N) (d) : (dat0 a0 V htok c).before 4 t d = iblk0 a0 V c 4 t :=
  before0_4_of a0 V (dat0 a0 V htok c) (A_eq0 a0 V htok c 4) (after0_4 a0 V htok c) t d

/-! ## The body obligation -/

/-- The body as the pipeline calls it at point `t`. -/
abbrev bodyAt0 (t : Fin (cfg0 a0).N) : Prog (TpuEff nD τ sig (Elt F) Λ₀ .tc) PUnit :=
  cc0__embed_gru_kernel (grid0.coords t) (Memref.whole main_arg0) (Memref.isWhole_whole _) (Memref.whole main_arg2) (Memref.isWhole_whole _)
    (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (Memref.whole cc0_scratch0) (Memref.isWhole_whole _) cc0_scratch1

/-- What the body is called with at point `t`, window by window, -/
def bodyPre0 (c : Dev nD) (t : Fin (cfg0 a0).N) : sProp 𝕄 :=
  iprop((dat0 a0 V htok c).Φ t.castSucc ∗ (dat0 a0 V htok c).owesAt () t.castSucc
    ∗ (∃ d, owns (c : Thread nD τ) (ms0_0 a0 t) fullShare ((dat0 a0 V htok c).before 0 t d))
    ∗ (∃ d, owns (c : Thread nD τ) (ms0_1 a0 t) fullShare ((dat0 a0 V htok c).before 1 t d))
    ∗ (∃ d, owns (c : Thread nD τ) (ms0_2 a0 t) fullShare ((dat0 a0 V htok c).before 2 t d))
    ∗ (∃ d, owns (c : Thread nD τ) (ms0_3 a0 t) fullShare ((dat0 a0 V htok c).before 3 t d))
    ∗ (∃ d, owns (c : Thread nD τ) (ms0_4 a0 t) fullShare ((dat0 a0 V htok c).before 4 t d))
    ∗ (∃ d, owns (c : Thread nD τ) (ms0_5 a0 t) fullShare ((dat0 a0 V htok c).before 5 t d)))

/-- and what it returns. -/
def bodyPost0 (c : Dev nD) (t : Fin (cfg0 a0).N) : sProp 𝕄 :=
  iprop((dat0 a0 V htok c).Φ t.succ ∗ (dat0 a0 V htok c).owesAt () t.succ
    ∗ owns (c : Thread nD τ) (ms0_0 a0 t) fullShare ((dat0 a0 V htok c).after 0 t)
    ∗ owns (c : Thread nD τ) (ms0_1 a0 t) fullShare ((dat0 a0 V htok c).after 1 t)
    ∗ owns (c : Thread nD τ) (ms0_2 a0 t) fullShare ((dat0 a0 V htok c).after 2 t)
    ∗ owns (c : Thread nD τ) (ms0_3 a0 t) fullShare ((dat0 a0 V htok c).after 3 t)
    ∗ owns (c : Thread nD τ) (ms0_4 a0 t) fullShare ((dat0 a0 V htok c).after 4 t)
    ∗ owns (c : Thread nD τ) (ms0_5 a0 t) fullShare ((dat0 a0 V htok c).after 5 t))

/-- The body at any point: the inputs' buffers hold their blocks, so the run applies; the invariant hands the body its
    scratch row, its semaphore at zero, the matrix and the table, and takes them back as they were; the core's dues go
    in at nothing owed and come back with this point's wait recorded. -/
theorem sound_body0 (c : Dev nD) (t : Fin (cfg0 a0).N) :
    bodyPre0 a0 V htok c t ⊢ wp frame (wpE (defs₀ (F := F)) Variants.none c none) Set.univ (bodyAt0 a0 t) (fun _ => bodyPost0 a0 V htok c t) := by
  unfold bodyPre0 bodyPost0 bodyAt0
  simp only [before0_0, before0_1, before0_2, before0_3, before0_4]
  rw [show (dat0 a0 V htok c).Φ t.succ = (dat0 a0 V htok c).Φ t.castSucc from rfl,
    after0_0, after0_1, after0_2, after0_3, after0_4, after0_5]
  rw [show (dat0 a0 V htok c).Φ t.castSucc = Pipeline.ΦD osem0 spec0 H0 V c from rfl, PhiD0_eq']
  unfold Dat.owesAt Pipeline.owesWithin
  rw [show (dat0 a0 V htok c).owed t.castSucc = 0 from rfl, show (dat0 a0 V htok c).owed t.succ = 0 from rfl]
  unfold outsAt0
  unfold out0_5
  iintro ⟨⟨⟨HS, HR⟩, Hg, Hq, Hhe, Hht⟩, ⟨%W, -, HW⟩, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk0 a0 V c 0 t) (iblk0 a0 V c 1 t) (iblk0 a0 V c 2 t) (iblk0 a0 V c 3 t) (iblk0 a0 V c 4 t) (V c main_arg2) (V c main_arg0) (htok c)).2 W _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [Hq]; · iexact Hq
  isplitl [Hhe]; · iexact Hhe
  isplitl [Hht]; · iexact Hht
  isplitl [HW]; · iexact HW
  iintro ⟨H0, H1, H2, H3, H4, ⟨%e5, H5⟩, HS, Hq, Hhe, Hht, ⟨%W', HW'⟩⟩
  isplitl [HS HR Hg Hq Hhe Hht]
  · isplitl [HS HR]
    · isplitl [HS]; · iexact HS
      iexact HR
    isplitl [Hg]; · iexact Hg
    isplitl [Hq]; · iexact Hq
    isplitl [Hhe]; · iexact Hhe
    iexact Hht
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _)

/-- The pipeline's body obligation, at every point. -/
theorem body_obligation0 (c : Dev nD) : BodyObligation (dat0 (F := F) a0 V htok c) (defs₀ (F := F)) Variants.none () Set.univ := fun t => by
  rw [bigSep_W0, bigSep_W0]
  exact sound_body0 a0 V htok c t

end Cert.Kernel.Hand

end
-- ==== Proof.KB.Run.lean ====
/-
  The whole program's run: the contents of the core's unscoped buffers at every boundary between two items of the main
  function (a stretch of host operations, or one of the three pallas_calls), the proof data of the three calls at their
  entry contents, each call as a segment entered from one boundary's contents and left at the next, and the launch:
  every weakly fair execution ends with every unscoped buffer at the last boundary's contents.  The token table's word
  must keep the looked-up row in range (`htok`): the first call's body assumes it.
-/
import proofs.«416419_j79018808312087_1_alg».proof.Proof.Gen.Kernel.Launch
import proofs.«416419_j79018808312087_1_alg».proof.Proof.Gen.Kernel.Skeleton
import proofs.«416419_j79018808312087_1_alg».proof.Proof.Gen.Kernel.Points
import proofs.«416419_j79018808312087_1_alg».proof.Proof.KB.Lin1
import proofs.«416419_j79018808312087_1_alg».proof.Proof.KB.Lin2
import proofs.«416419_j79018808312087_1_alg».proof.Proof.KB.Gru0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the reshape of the hidden state: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The token table's contents, read off the launch memory: the contents the first call's pipeline is pinned at. -/
def adm0 : (pcfg0 (F := F)).Adm := ⟨fun k => m (((⟨0, Nat.one_pos⟩ : Dev nD) : Thread nD τ).loc (pre0.ref k)), trivial⟩
/-- Every call's tables: only the first has one. -/
abbrev adm : (p : Fin 3) → (pcfgs (F := F) p).Adm
  | ⟨0, _⟩ => adm0 m
  | ⟨1, _⟩ => cfg1.toPCfg_adm
  | ⟨2, _⟩ => cfg2.toPCfg_adm

variable (htok : ∀ c : Dev nD, k0_chk1 (tokWord (F := F) c (V1 m ρ c main_arg0)))

/-- At call 0's exit: its arrays at what the pipeline leaves (an input as entered, the output's write-backs folded),
    every other buffer as entered. -/
def W2 (c : Dev nD) : Valuation τ sig (Elt F) :=
  Pipeline.withArrays spec0 c (W1 m ρ c) fun w => (dat0 (adm0 m) (V1 m ρ) htok c).arrAt w (cfg0 (adm0 (F := F) m)).N
theorem W2_arr (c : Dev nD) (w : Fin 6) :
    W2 m ρ htok c (Proc.devRef .tc (Pipeline.arrRef spec0 w)) = (dat0 (adm0 m) (V1 m ρ) htok c).arrAt w (cfg0 (adm0 (F := F) m)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ htok c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ htok c b

theorem hF0 (c : Dev nD) (w : Fin 6) : (dat0 (adm0 m) (V1 m ρ) htok c).arrAt w (cfg0 (adm0 (F := F) m)).N = V2 m ρ htok c (Pipeline.arrRef spec0 w) :=
  (W2_arr m ρ htok c w).symm
theorem hrest0 (c : Dev nD) : ∀ b, b ∉ Finset.univ.image (Pipeline.arrRef spec0) → V2 m ρ htok c b = V1 m ρ c b :=
  fun b hb => W2_of_ne m ρ htok c b fun w e => hb (Finset.mem_image.mpr ⟨w, Finset.mem_univ _, e⟩)

/-- After the four slices of the projection matrix and bias: the second call's entry. -/
abbrev W3 : Dev nD → Valuation τ sig (Elt F) := fun c => StableHlo.after hostOps1 (W2 m ρ htok c)
abbrev V3 : (c : Dev nD) → (b : Ref sig .tc) → Buf (Elt F) ((c : Thread nD τ).loc b) := fun c b => W3 m ρ htok c b

/-- At call 1's exit: its arrays at what the pipeline leaves (an input as entered, the output's write-backs folded),
    every other buffer as entered. -/
def W4 (c : Dev nD) : Valuation τ sig (Elt F) :=
  Pipeline.withArrays spec1 c (W3 m ρ htok c) fun w => (dat1 (V3 m ρ htok) c).arrAt w cfg1.N
theorem W4_arr (c : Dev nD) (w : Fin 4) :
    W4 m ρ htok c (Proc.devRef .tc (Pipeline.arrRef spec1 w)) = (dat1 (V3 m ρ htok) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ htok c (Proc.devRef .tc b) = W3 m ρ htok c (Proc.devRef .tc b) := by
  unfold W4; exact Pipeline.withArrays_of_ne spec1 c _ _ b hb
abbrev V4 : (c : Dev nD) → (b : Ref sig .tc) → Buf (Elt F) ((c : Thread nD τ).loc b) := fun c b => W4 m ρ htok c b

theorem hF1 (c : Dev nD) (w : Fin 4) : (dat1 (V3 m ρ htok) c).arrAt w cfg1.N = V4 m ρ htok c (Pipeline.arrRef spec1 w) :=
  (W4_arr m ρ htok c w).symm
theorem hrest1 (c : Dev nD) : ∀ b, b ∉ Finset.univ.image (Pipeline.arrRef spec1) → V4 m ρ htok c b = V3 m ρ htok c b :=
  fun b hb => W4_of_ne m ρ htok c b fun w e => hb (Finset.mem_image.mpr ⟨w, Finset.mem_univ _, e⟩)

/-- At call 2's exit: its arrays at what the pipeline leaves (an input as entered, the output's write-backs folded),
    every other buffer as entered. -/
def W5 (c : Dev nD) : Valuation τ sig (Elt F) :=
  Pipeline.withArrays spec2 c (W4 m ρ htok c) fun w => (dat2 (V4 m ρ htok) c).arrAt w cfg2.N
theorem W5_arr (c : Dev nD) (w : Fin 4) :
    W5 m ρ htok c (Proc.devRef .tc (Pipeline.arrRef spec2 w)) = (dat2 (V4 m ρ htok) c).arrAt w cfg2.N := by
  unfold W5; exact Pipeline.withArrays_arr spec2 (launch2 (F := F)).win.arr_inj c _ _ w
theorem W5_of_ne (c : Dev nD) (b : Ref sig .tc) (hb : ∀ w, Pipeline.arrRef spec2 w ≠ b) :
    W5 m ρ htok c (Proc.devRef .tc b) = W4 m ρ htok c (Proc.devRef .tc b) := by
  unfold W5; exact Pipeline.withArrays_of_ne spec2 c _ _ b hb
abbrev V5 : (c : Dev nD) → (b : Ref sig .tc) → Buf (Elt F) ((c : Thread nD τ).loc b) := fun c b => W5 m ρ htok c b

theorem hF2 (c : Dev nD) (w : Fin 4) : (dat2 (V4 m ρ htok) c).arrAt w cfg2.N = V5 m ρ htok c (Pipeline.arrRef spec2 w) :=
  (W5_arr m ρ htok c w).symm
theorem hrest2 (c : Dev nD) : ∀ b, b ∉ Finset.univ.image (Pipeline.arrRef spec2) → V5 m ρ htok c b = V4 m ρ htok c b :=
  fun b hb => W5_of_ne m ρ htok c b fun w e => hb (Finset.mem_image.mpr ⟨w, Finset.mem_univ _, e⟩)

/-- After the concatenation of the two logit pieces, -/
abbrev W6 : Dev nD → Valuation τ sig (Elt F) := fun c => StableHlo.after hostOps3 (W5 m ρ htok c)
/-- after the log-softmax, -/
abbrev W7 : Dev nD → Valuation τ sig (Elt F) := fun c => StableHlo.after hostOps3_1 (W6 m ρ htok c)
/-- and after the final broadcast of the hidden state: the contents at the return. -/
abbrev W8 : Dev nD → Valuation τ sig (Elt F) := fun c => StableHlo.after hostOps3_2 (W7 m ρ htok c)

/-! ## The proof data family and what rides along -/

/-- Every call's proof data, each at its entry contents. -/
def pdats : (p : Fin 3) → (c : Dev nD) → Dat τ (Elt F) Unit ℕ (Pipeline.UD sig nD τ) ℕ (Pipeline.pin (pcfgs (F := F)) (adm m) p) c
  | ⟨0, _⟩ => fun c => dat0 (adm0 m) (V1 m ρ) htok c
  | ⟨1, _⟩ => fun c => dat1 (V3 m ρ htok) c
  | ⟨2, _⟩ => fun c => dat2 (V4 m ρ htok) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ htok c) ∗ ∃ r, prngReg c r)

/-! ## The first call as a segment -/

/-- There is one core. -/
theorem dev_eq (c : Dev nD) : c = (⟨0, Nat.one_pos⟩ : Dev nD) := Subsingleton.elim _ _

/-- The first call's entry leaves the token table as launched: the reshape before it writes another buffer. -/
theorem V1_tok (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- The table's contents the pipeline is pinned at are the entry contents of its buffer. -/
theorem prefHeld0_eq (c : Dev nD) :
    (Pipeline.prefHeld (Ix := Unit) (Name := ℕ) (U := Pipeline.UD sig nD τ) (Lvl := ℕ) pre0 c (fun _ => fullShare) (adm0 (F := F) m).1 : sProp 𝕄)
      = iprop(hbPt0 c tbM0 (V1 m ρ c main_arg0)) := by
  unfold Pipeline.prefHeld
  rw [show (Finset.univ : Finset (Fin 1)) = {0} from by decide, bigSep_singleton, V1_tok]
  obtain rfl := dev_eq c
  rfl

set_option backward.isDefEq.respectTransparency.types false in
/-- The first call as a segment: entered with every unscoped buffer at `W1`, left at `W2`.  Its arrays are split out
    of the unscoped buffers and put back at the exit contents; the embedding matrix and the token table, which the body
    reads itself, are split out of the bypassing buffers — the table as the pipeline's prefetched table — and rejoined;
    the generator register and the body's own semaphore (at zero from the boundary and back) go into the invariant
    and come back; nothing is owed. -/
def reg0 : Pipeline.RegionSeg (pcfgs (F := F)) (adm m) (pdats m ρ htok) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (adm0 m) (V1 m ρ) htok c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ htok c) ∗ R c)
  X c := iprop((∃ r, prngReg c r) ∗ Pipeline.ownSems0 (Ix := Unit) (Name := ℕ) (U := Pipeline.UD sig nD τ) (Lvl := ℕ) (Val := Elt F) (τ := τ) osem0 c ∗ hbPt0 c hbM0 (V1 m ρ c main_arg2))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) (adm m) (pdats m ρ htok) (launch0 (F := F)).win (launch0 (F := F)).arr_whole c
      ((pdats m ρ htok 0 c).share_full fun _ => rfl) (V1 m ρ c) fun _ => rfl
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts0_eq (V1 m ρ) c)) $$ HH
    icases H'' with ⟨Hhe, Hht⟩
    imodintro
    isplitl [Ha]; · iexact Ha
    isplitl [Hht]
    · iapply (Entails.of_eq (prefHeld0_eq m ρ c).symm); iexact Hht
    isplitl [HO]
    · unfold Pipeline.Dat.owesAt Pipeline.owesWithin
      icases HO with ⟨%W, HO⟩; iexists W; isplitr; · ipureintro; exact fun _ _ => Or.inl trivial
      iexact HO
    isplitl [Hp Hos Hhe]
    · isplitl [Hp]; · iexact Hp
      isplitl [Hos]; · iexact Hos
      iexact Hhe
    iexact HR
  hin c := by
    rw [show (pdats m ρ htok 0 c).Φ 0 = Pipeline.ΦD osem0 spec0 H0 (V1 m ρ) c from rfl, Pipeline.ΦD_eq, hbmPts0_eq]
    iintro ⟨⟨Hp, Ho, Hhe⟩, Hpf, Hr⟩
    ihave Hht := (Entails.of_eq (prefHeld0_eq m ρ c)) $$ Hpf
    isplitl [Hr]; · iexact Hr
    isplitl [Hp]; · iexact Hp
    isplitl [Ho]; · iexact Ho
    isplitl [Hhe]; · iexact Hhe
    iexact Hht
  hout c := by
    rw [show (pdats m ρ htok 0 c).Φ (Fin.last _) = Pipeline.ΦD osem0 spec0 H0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m ρ htok) ((pdats m ρ htok 0 c).share_full fun _ => rfl)
      (V1 m ρ c) (V2 m ρ htok c) ((pdats m ρ htok 0 c).arrAt · (cfg0 (adm0 (F := F) m)).N) (hF0 m ρ htok c) (hrest0 m ρ htok c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The two projection calls as segments -/

set_option backward.isDefEq.respectTransparency.types false in
/-- The output projection's call number 1 as a segment: entered with every unscoped buffer at `W3`, left at `W4`.
    Its arrays are split out of the unscoped buffers and put back at the exit contents; the generator register goes into
    the invariant and comes back; nothing is owed; the body has no semaphore of its own. -/
def reg1 : Pipeline.RegionSeg (pcfgs (F := F)) (adm m) (pdats m ρ htok) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ htok) c).loose
  hwaits := Pipeline.hwaits_of_owed_zero _ _ _ _ L lv 1 fun _ _ => rfl
  pre c := iprop(StableHlo.held (c : Thread nD τ) (Pipeline.ucRefs τ sig) (W3 m ρ htok c) ∗ R c)
  post c := iprop(StableHlo.held (c : Thread nD τ) (Pipeline.ucRefs τ sig) (W4 m ρ htok c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ htok c)
  hentry c := by
    rw [Pipeline.ownSems0_none]
    have hsplit := Pipeline.arrays_of_unscopedBufs (p := 1) (pcfgs (F := F)) (adm m) (pdats m ρ htok) (launch1 (F := F)).win (launch1 (F := F)).arr_whole c
      ((pdats m ρ htok 1 c).share_full fun _ => rfl) (V3 m ρ htok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ htok 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ htok 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m ρ htok) ((pdats m ρ htok 1 c).share_full fun _ => rfl)
      (V3 m ρ htok c) (V4 m ρ htok c) ((pdats m ρ htok 1 c).arrAt · cfg1.N) (hF1 m ρ htok c) (hrest1 m ρ htok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection's call number 2 as a segment: entered with every unscoped buffer at `W4`, left at `W5`.
    Its arrays are split out of the unscoped buffers and put back at the exit contents; the generator register goes into
    the invariant and comes back; nothing is owed; the body has no semaphore of its own. -/
def reg2 : Pipeline.RegionSeg (pcfgs (F := F)) (adm m) (pdats m ρ htok) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V4 m ρ htok) c).loose
  hwaits := Pipeline.hwaits_of_owed_zero _ _ _ _ L lv 2 fun _ _ => rfl
  pre c := iprop(StableHlo.held (c : Thread nD τ) (Pipeline.ucRefs τ sig) (W4 m ρ htok c) ∗ R c)
  post c := iprop(StableHlo.held (c : Thread nD τ) (Pipeline.ucRefs τ sig) (W5 m ρ htok c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ htok c)
  hentry c := by
    rw [Pipeline.ownSems0_none]
    have hsplit := Pipeline.arrays_of_unscopedBufs (p := 2) (pcfgs (F := F)) (adm m) (pdats m ρ htok) (launch2 (F := F)).win (launch2 (F := F)).arr_whole c
      ((pdats m ρ htok 2 c).share_full fun _ => rfl) (V4 m ρ htok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ htok 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ htok 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m ρ htok) ((pdats m ρ htok 2 c).share_full fun _ => rfl)
      (V4 m ρ htok c) (V5 m ρ htok c) ((pdats m ρ htok 2 c).arrAt · cfg2.N) (hF2 m ρ htok c) (hrest2 m ρ htok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps3_1_fresh' : (hostOps3_1 : List (HloOp τ sig (Elt F))).Forall fun op => op.fresh = ∅ := by
  simp only [List.Forall]; repeat' constructor
theorem hostOps3_2_fresh' : (hostOps3_2 : List (HloOp τ sig (Elt F))).Forall fun op => op.fresh = ∅ := by
  simp only [List.Forall]; repeat' constructor

/-- The main function's eight items in order. -/
abbrev segs : List (Pipeline.Seg (pcfgs (F := F)) (adm m) (pdats m ρ htok) () defs₀ 𝒱₀ L lv) :=
  [ .host (hseg hostOps0 hostOps0_sub hostOps0_fresh' (W0 m ρ)),
    .region (reg0 m ρ htok),
    .host (hseg hostOps1 hostOps1_sub hostOps1_fresh' (W2 m ρ htok)),
    .region (reg1 m ρ htok),
    .region (reg2 m ρ htok),
    .host (hseg hostOps3 hostOps3_sub hostOps3_fresh' (W5 m ρ htok)),
    .host (hseg hostOps3_1 hostOps3_1_sub hostOps3_1_fresh' (W6 m ρ htok)),
    .host (hseg hostOps3_2 hostOps3_2_sub hostOps3_2_fresh' (W7 m ρ htok)) ]

/-- The main function is the run of its segments. -/
theorem main_run (c : Dev nD) : main (F := F) c = Pipeline.Seg.run (segs m ρ htok) := (main_chain c).trans (by chain_rfl)

set_option backward.isDefEq.respectTransparency.types false in
/-- THE RUN.  From any memory with zero counters whose token word keeps the looked-up row in range, every weakly fair
    execution of the main function terminates, nothing faulting, and every final state holds every unscoped buffer of
    each core at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ htok c b) :=
  Pipeline.θ_run_regions_kit (pcfgs (F := F)) (adm m) (pdats m ρ htok) () (cellOf_inj (adm m)) embL defs₀ 𝒱₀ L lv m ρ main (segs m ρ htok)
    (fun c Q => by rw [main_run m ρ htok c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ htok)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ htok c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ htok c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ htok c) s')
      isplitl [Hh] <;> iassumption)
    (hQ := fun s h c => h c)

end Cert.Kernel.Hand

end
-- ==== Proof.KB.Frame.lean ====
/-
  The frame of the program: the side condition the first call's body assumes follows from the token lying in the
  index range of the embedding matrix, and at the last boundary every argument buffer holds what it held at launch —
  no host operation writes an argument and no call changes one (a call reads an argument through an input window, by
  its own transfer, as its table, or not at all).
-/
import proofs.«416419_j79018808312087_1_alg».proof.Proof.Gen.Kernel.Launch
import proofs.«416419_j79018808312087_1_alg».proof.Proof.Gen.Kernel.Skeleton
import proofs.«416419_j79018808312087_1_alg».proof.Proof.Gen.Kernel.Points
import proofs.«416419_j79018808312087_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The assumed side condition -/

/-- A token word below 50257 keeps the copied row inside the embedding matrix: row `token` of 50257, all 1024 columns. -/
theorem chk_of_lt (c : Dev nD) (ft : HbBuf0 (F := F) c tbM0) (h : ∀ i, (ft i).toNat < 50257) : k0_chk1 (tokWord (F := F) c ft) := by
  intro a
  unfold k0_off1
  have hw : (tokWord (F := F) c ft).toNat < 50257 := h _
  match a with
  | ⟨0, _⟩ => show (tokWord (F := F) c ft).toNat + 1 ≤ 50257; omega
  | ⟨1, _⟩ => show 0 + 1024 ≤ 1024; omega

/-- The first call's entry leaves the token table as launched, so a launch memory whose token is in range meets the
    body's assumption on every core. -/
theorem htok_of_lt (h : ∀ c : Dev nD, ∀ i, (m ((c : Thread nD τ).loc main_arg0) i).toNat < 50257) :
    ∀ c : Dev nD, k0_chk1 (tokWord (F := F) c (V1 m ρ c main_arg0)) := fun c => by
  rw [V1_tok]; exact chk_of_lt c _ (h c)

/-! ## What each stretch of host operations leaves alone -/

theorem keep0_w : (hostOps0 : List (HloOp τ sig (Elt F))).Forall fun op => op.writes ⊆ (([main_v0] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep0 (V : Valuation τ sig (Elt F)) (r : Ref sig .tc) (h : r ∉ ([main_v0] : List (Ref sig .tc))) :
    StableHlo.after hostOps0 V (Proc.devRef .tc r) = V (Proc.devRef .tc r) :=
  StableHlo.after_of_writes_sub hostOps0 _ keep0_w h
theorem keep1_w : (hostOps1 : List (HloOp τ sig (Elt F))).Forall fun op => op.writes ⊆ (([main_v2, main_v3, main_v4, main_v5] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep1 (V : Valuation τ sig (Elt F)) (r : Ref sig .tc) (h : r ∉ ([main_v2, main_v3, main_v4, main_v5] : List (Ref sig .tc))) :
    StableHlo.after hostOps1 V (Proc.devRef .tc r) = V (Proc.devRef .tc r) :=
  StableHlo.after_of_writes_sub hostOps1 _ keep1_w h
theorem keep3_w : (hostOps3 : List (HloOp τ sig (Elt F))).Forall fun op => op.writes ⊆ (([main_v8] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep3 (V : Valuation τ sig (Elt F)) (r : Ref sig .tc) (h : r ∉ ([main_v8] : List (Ref sig .tc))) :
    StableHlo.after hostOps3 V (Proc.devRef .tc r) = V (Proc.devRef .tc r) :=
  StableHlo.after_of_writes_sub hostOps3 _ keep3_w h
theorem keep3_1_w : (hostOps3_1 : List (HloOp τ sig (Elt F))).Forall fun op => op.writes ⊆ (([main_call0_cst, main_call0_v0, main_call0_cst_0, main_call0_v1, main_call0_v2, main_call0_v3, main_call0_v4, main_call0_v5, main_call0_v6, main_call0_cst_1, main_call0_v7, main_call0_v8, main_call0_v9, main_call0_v10, main_v9] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep3_1 (V : Valuation τ sig (Elt F)) (r : Ref sig .tc) (h : r ∉ ([main_call0_cst, main_call0_v0, main_call0_cst_0, main_call0_v1, main_call0_v2, main_call0_v3, main_call0_v4, main_call0_v5, main_call0_v6, main_call0_cst_1, main_call0_v7, main_call0_v8, main_call0_v9, main_call0_v10, main_v9] : List (Ref sig .tc))) :
    StableHlo.after hostOps3_1 V (Proc.devRef .tc r) = V (Proc.devRef .tc r) :=
  StableHlo.after_of_writes_sub hostOps3_1 _ keep3_1_w h
theorem keep3_2_w : (hostOps3_2 : List (HloOp τ sig (Elt F))).Forall fun op => op.writes ⊆ (([main_v10] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep3_2 (V : Valuation τ sig (Elt F)) (r : Ref sig .tc) (h : r ∉ ([main_v10] : List (Ref sig .tc))) :
    StableHlo.after hostOps3_2 V (Proc.devRef .tc r) = V (Proc.devRef .tc r) :=
  StableHlo.after_of_writes_sub hostOps3_2 _ keep3_2_w h

/-! ## The arguments at the last boundary -/

variable (htok : ∀ c : Dev nD, k0_chk1 (tokWord (F := F) c (V1 m ρ c main_arg0)))

/-- `main_arg0` ends as launched: no host operation writes it and no call changes it. -/
theorem W8_main_arg0 (c : Dev nD) : W8 m ρ htok c (Proc.devRef .tc main_arg0) = m ((c : Thread nD τ).loc main_arg0) :=
  (keep3_2 _ main_arg0 (by decide)).trans <| (keep3_1 _ main_arg0 (by decide)).trans <| (keep3 _ main_arg0 (by decide)).trans <|
  (W5_of_ne m ρ htok c main_arg0 (by decide)).trans <| (W4_of_ne m ρ htok c main_arg0 (by decide)).trans <| (keep1 _ main_arg0 (by decide)).trans <|
  (W2_of_ne m ρ htok c main_arg0 (by decide)).trans <| (keep0 _ main_arg0 (by decide)).trans rfl
/-- `main_arg1` ends as launched: no host operation writes it and no call changes it. -/
theorem W8_main_arg1 (c : Dev nD) : W8 m ρ htok c (Proc.devRef .tc main_arg1) = m ((c : Thread nD τ).loc main_arg1) :=
  (keep3_2 _ main_arg1 (by decide)).trans <| (keep3_1 _ main_arg1 (by decide)).trans <| (keep3 _ main_arg1 (by decide)).trans <|
  (W5_of_ne m ρ htok c main_arg1 (by decide)).trans <| (W4_of_ne m ρ htok c main_arg1 (by decide)).trans <| (keep1 _ main_arg1 (by decide)).trans <|
  (W2_of_ne m ρ htok c main_arg1 (by decide)).trans <| (keep0 _ main_arg1 (by decide)).trans rfl
/-- `main_arg2` ends as launched: no host operation writes it and no call changes it. -/
theorem W8_main_arg2 (c : Dev nD) : W8 m ρ htok c (Proc.devRef .tc main_arg2) = m ((c : Thread nD τ).loc main_arg2) :=
  (keep3_2 _ main_arg2 (by decide)).trans <| (keep3_1 _ main_arg2 (by decide)).trans <| (keep3 _ main_arg2 (by decide)).trans <|
  (W5_of_ne m ρ htok c main_arg2 (by decide)).trans <| (W4_of_ne m ρ htok c main_arg2 (by decide)).trans <| (keep1 _ main_arg2 (by decide)).trans <|
  (W2_of_ne m ρ htok c main_arg2 (by decide)).trans <| (keep0 _ main_arg2 (by decide)).trans rfl
/-- `main_arg3` ends as launched: no host operation writes it and no call changes it. -/
theorem W8_main_arg3 (c : Dev nD) : W8 m ρ htok c (Proc.devRef .tc main_arg3) = m ((c : Thread nD τ).loc main_arg3) :=
  (keep3_2 _ main_arg3 (by decide)).trans <| (keep3_1 _ main_arg3 (by decide)).trans <| (keep3 _ main_arg3 (by decide)).trans <|
  (W5_of_ne m ρ htok c main_arg3 (by decide)).trans <| (W4_of_ne m ρ htok c main_arg3 (by decide)).trans <| (keep1 _ main_arg3 (by decide)).trans <|
  ((W2_arr m ρ htok c 1).trans (((dat0 (adm0 m) (V1 m ρ) htok c).arrAt_in 1 rfl _).trans (A_eq0 (adm0 m) (V1 m ρ) htok c 1))).trans <| (keep0 _ main_arg3 (by decide)).trans rfl
/-- `main_arg4` ends as launched: no host operation writes it and no call changes it. -/
theorem W8_main_arg4 (c : Dev nD) : W8 m ρ htok c (Proc.devRef .tc main_arg4) = m ((c : Thread nD τ).loc main_arg4) :=
  (keep3_2 _ main_arg4 (by decide)).trans <| (keep3_1 _ main_arg4 (by decide)).trans <| (keep3 _ main_arg4 (by decide)).trans <|
  (W5_of_ne m ρ htok c main_arg4 (by decide)).trans <| (W4_of_ne m ρ htok c main_arg4 (by decide)).trans <| (keep1 _ main_arg4 (by decide)).trans <|
  ((W2_arr m ρ htok c 2).trans (((dat0 (adm0 m) (V1 m ρ) htok c).arrAt_in 2 rfl _).trans (A_eq0 (adm0 m) (V1 m ρ) htok c 2))).trans <| (keep0 _ main_arg4 (by decide)).trans rfl
/-- `main_arg5` ends as launched: no host operation writes it and no call changes it. -/
theorem W8_main_arg5 (c : Dev nD) : W8 m ρ htok c (Proc.devRef .tc main_arg5) = m ((c : Thread nD τ).loc main_arg5) :=
  (keep3_2 _ main_arg5 (by decide)).trans <| (keep3_1 _ main_arg5 (by decide)).trans <| (keep3 _ main_arg5 (by decide)).trans <|
  (W5_of_ne m ρ htok c main_arg5 (by decide)).trans <| (W4_of_ne m ρ htok c main_arg5 (by decide)).trans <| (keep1 _ main_arg5 (by decide)).trans <|
  ((W2_arr m ρ htok c 3).trans (((dat0 (adm0 m) (V1 m ρ) htok c).arrAt_in 3 rfl _).trans (A_eq0 (adm0 m) (V1 m ρ) htok c 3))).trans <| (keep0 _ main_arg5 (by decide)).trans rfl
/-- `main_arg6` ends as launched: no host operation writes it and no call changes it. -/
theorem W8_main_arg6 (c : Dev nD) : W8 m ρ htok c (Proc.devRef .tc main_arg6) = m ((c : Thread nD τ).loc main_arg6) :=
  (keep3_2 _ main_arg6 (by decide)).trans <| (keep3_1 _ main_arg6 (by decide)).trans <| (keep3 _ main_arg6 (by decide)).trans <|
  (W5_of_ne m ρ htok c main_arg6 (by decide)).trans <| (W4_of_ne m ρ htok c main_arg6 (by decide)).trans <| (keep1 _ main_arg6 (by decide)).trans <|
  ((W2_arr m ρ htok c 4).trans (((dat0 (adm0 m) (V1 m ρ) htok c).arrAt_in 4 rfl _).trans (A_eq0 (adm0 m) (V1 m ρ) htok c 4))).trans <| (keep0 _ main_arg6 (by decide)).trans rfl
/-- `main_arg7` ends as launched: no host operation writes it and no call changes it. -/
theorem W8_main_arg7 (c : Dev nD) : W8 m ρ htok c (Proc.devRef .tc main_arg7) = m ((c : Thread nD τ).loc main_arg7) :=
  (keep3_2 _ main_arg7 (by decide)).trans <| (keep3_1 _ main_arg7 (by decide)).trans <| (keep3 _ main_arg7 (by decide)).trans <|
  (W5_of_ne m ρ htok c main_arg7 (by decide)).trans <| (W4_of_ne m ρ htok c main_arg7 (by decide)).trans <| (keep1 _ main_arg7 (by decide)).trans <|
  (W2_of_ne m ρ htok c main_arg7 (by decide)).trans <| (keep0 _ main_arg7 (by decide)).trans rfl
/-- `main_arg8` ends as launched: no host operation writes it and no call changes it. -/
theorem W8_main_arg8 (c : Dev nD) : W8 m ρ htok c (Proc.devRef .tc main_arg8) = m ((c : Thread nD τ).loc main_arg8) :=
  (keep3_2 _ main_arg8 (by decide)).trans <| (keep3_1 _ main_arg8 (by decide)).trans <| (keep3 _ main_arg8 (by decide)).trans <|
  (W5_of_ne m ρ htok c main_arg8 (by decide)).trans <| (W4_of_ne m ρ htok c main_arg8 (by decide)).trans <| (keep1 _ main_arg8 (by decide)).trans <|
  (W2_of_ne m ρ htok c main_arg8 (by decide)).trans <| (keep0 _ main_arg8 (by decide)).trans rfl

/-! ## The frame -/

include htok in
/-- From any memory with zero counters whose token word is in range: every weakly fair execution of the main function
    terminates, nothing faulting, and every argument buffer ends holding its launch contents. -/
theorem frame_of_tok : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ htok c),
     (h c _ (mem_uc main_arg1 (by decide))).trans (W8_main_arg1 m ρ htok c),
     (h c _ (mem_uc main_arg2 (by decide))).trans (W8_main_arg2 m ρ htok c),
     (h c _ (mem_uc main_arg3 (by decide))).trans (W8_main_arg3 m ρ htok c),
     (h c _ (mem_uc main_arg4 (by decide))).trans (W8_main_arg4 m ρ htok c),
     (h c _ (mem_uc main_arg5 (by decide))).trans (W8_main_arg5 m ρ htok c),
     (h c _ (mem_uc main_arg6 (by decide))).trans (W8_main_arg6 m ρ htok c),
     (h c _ (mem_uc main_arg7 (by decide))).trans (W8_main_arg7 m ρ htok c),
     (h c _ (mem_uc main_arg8 (by decide))).trans (W8_main_arg8 m ρ htok c)⟩)
    (run_all m ρ htok)

end Cert.Kernel.Hand

end
-- ==== Proof.KI.Lin1.lean ====
/-
  The output projection's pallas_call number 1 (a tile of 4096 vocabulary rows per grid point): what its body leaves in
  the output block, and the pipeline's proof data and body obligation for it, at any contents `V` of the core's buffers
  when the call is entered.  The body loads the hidden row `h` [1,1024], a block `W` [4096,1024] of the projection matrix
  and the matching block `b` [4096] of the bias, and stores `h · Wᵀ + b` over the whole output block [1,4096]; it reads no
  output buffer and keeps nothing between points, so the invariant carried from point to point is only the untouched
  rest of the core's scoped memory and its generator register.
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there
    or the block index did not move: for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded or stored whole -/

abbrev rh1 : Rect S1x1024 := Rect.unit (s := S1x1024) ![0, 0] S1x1024.size inb_S1x1024_S1x1024_0_0
abbrev rw1 : Rect S4096x1024 := Rect.unit (s := S4096x1024) ![0, 0] S4096x1024.size inb_S4096x1024_S4096x1024_0_0
abbrev rb1 : Rect S4096 := Rect.unit (s := S4096) ![0] S4096.size inb_S4096_S4096_0
abbrev ro1 : Rect S1x4096 := Rect.unit (s := S1x4096) ![0, 0] S1x4096.size inb_S1x4096_S1x4096_0_0

/-! ## What the body leaves in the output block -/

/-- The output block after the body, from the three input blocks: its one store, of `h · Wᵀ + b` (the payload
    `k1_pay1` of the loads), over the whole block. -/
def out1_3 (x0 : Vec F S1x1024 .f32) (x1 : Vec F S4096x1024 .f32) (x2 : Vec F S4096 .f32) : Vec F S1x4096 .f32 :=
  View.canon [⟨ro1, k1_pay1 (View.ld x0 rh1) (View.ld x1 rw1) (View.ld x2 rb1)⟩]

/-- The one store covers the block. -/
theorem cover1_3 (p0 : Vec F S1x4096 .f32) (y : S1x4096.Idx) :
    ∃ pc ∈ ([⟨ro1, p0⟩] : List (View.Piece (Elt F) S1x4096 .f32)), y ∈ pc.1.set :=
  View.cover_of_tiled [⟨ro1, p0⟩] S1x4096.size (by rfl) y

/-! ## The body's triple -/

set_option maxHeartbeats 1000000 in
/-- On whole staging buffers, the inputs' at contents `x0 x1 x2` and the output's at anything, the body runs to its
    continuation with the inputs' as they were and the output's at `out1_3 x0 x1 x2`. -/
theorem sound_kernel1 (c : Dev nD) (E : Set ℕ) (i : grid1.Coords)
    (arg1 : Memref sig .tc .vmem S1x1024 .f32) (harg1 : arg1.IsWhole) (arg2 : Memref sig .tc .vmem S4096x1024 .f32) (harg2 : arg2.IsWhole)
    (arg3 : Memref sig .tc .vmem S4096 .f32) (harg3 : arg3.IsWhole) (arg4 : Memref sig .tc .vmem S1x4096 .f32) (harg4 : arg4.IsWhole)
    (x0 : Vec F S1x1024 .f32) (x1 : Vec F S4096x1024 .f32) (x2 : Vec F S4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this call on core `c`: the arrays as the call finds them; after the body at point `t` each
    input's buffer still at its block and the output's at `out1_3` of the input blocks; the invariant the untouched
    scoped rest and the generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
/-
  The output projection's pallas_call number 2 (a tile of 1105 vocabulary rows per grid point): what its body leaves in
  the output block, and the pipeline's proof data and body obligation for it, at any contents `V` of the core's buffers
  when the call is entered.  The body loads the hidden row `h` [1,1024], a block `W` [1105,1024] of the projection matrix
  and the matching block `b` [1105] of the bias, and stores `h · Wᵀ + b` over the whole output block [1,1105]; it reads no
  output buffer and keeps nothing between points, so the invariant carried from point to point is only the untouched
  rest of the core's scoped memory and its generator register.
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there
    or the block index did not move: for any proof data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is loaded or stored whole -/

abbrev rh2 : Rect S1x1024 := Rect.unit (s := S1x1024) ![0, 0] S1x1024.size inb_S1x1024_S1x1024_0_0
abbrev rw2 : Rect S1105x1024 := Rect.unit (s := S1105x1024) ![0, 0] S1105x1024.size inb_S1105x1024_S1105x1024_0_0
abbrev rb2 : Rect S1105 := Rect.unit (s := S1105) ![0] S1105.size inb_S1105_S1105_0
abbrev ro2 : Rect S1x1105 := Rect.unit (s := S1x1105) ![0, 0] S1x1105.size inb_S1x1105_S1x1105_0_0

/-! ## What the body leaves in the output block -/

/-- The output block after the body, from the three input blocks: its one store, of `h · Wᵀ + b` (the payload
    `k2_pay1` of the loads), over the whole block. -/
def out2_3 (x0 : Vec F S1x1024 .f32) (x1 : Vec F S1105x1024 .f32) (x2 : Vec F S1105 .f32) : Vec F S1x1105 .f32 :=
  View.canon [⟨ro2, k2_pay1 (View.ld x0 rh2) (View.ld x1 rw2) (View.ld x2 rb2)⟩]

/-- The one store covers the block. -/
theorem cover2_3 (p0 : Vec F S1x1105 .f32) (y : S1x1105.Idx) :
    ∃ pc ∈ ([⟨ro2, p0⟩] : List (View.Piece (Elt F) S1x1105 .f32)), y ∈ pc.1.set :=
  View.cover_of_tiled [⟨ro2, p0⟩] S1x1105.size (by rfl) y

/-! ## The body's triple -/

set_option maxHeartbeats 1000000 in
/-- On whole staging buffers, the inputs' at contents `x0 x1 x2` and the output's at anything, the body runs to its
    continuation with the inputs' as they were and the output's at `out2_3 x0 x1 x2`. -/
theorem sound_kernel2 (c : Dev nD) (E : Set ℕ) (i : grid2.Coords)
    (arg1 : Memref sig .tc .vmem S1x1024 .f32) (harg1 : arg1.IsWhole) (arg2 : Memref sig .tc .vmem S1105x1024 .f32) (harg2 : arg2.IsWhole)
    (arg3 : Memref sig .tc .vmem S1105 .f32) (harg3 : arg3.IsWhole) (arg4 : Memref sig .tc .vmem S1x1105 .f32) (harg4 : arg4.IsWhole)
    (x0 : Vec F S1x1024 .f32) (x1 : Vec F S1105x1024 .f32) (x2 : Vec F S1105 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this call on core `c`: the arrays as the call finds them; after the body at point `t` each
    input's buffer still at its block and the output's at `out2_3` of the input blocks; the invariant the untouched
    scoped rest and the generator register; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Gru0.lean ====
/-
  The first pallas_call (the embedding lookup and the two GRU cells, one grid point): its operands beside the pipelined
  windows, the invariant its body runs under, and the body's run.  The body reads the token word from the prefetched
  table in scalar memory, copies row `token` of the embedding matrix (left in HBM) into its own scratch row by a
  transfer on its own semaphore and waits for it at once, and then computes; the row's offset is in range exactly when
  `token + 1 ≤ 50257`, which the body assumes of the word and the certificate's precondition supplies.
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (a0 : (pcfg0 (F := F)).Adm)
variable (V : (c : Dev nD) → (b : Ref sig .tc) → Buf (Elt F) ((c : Thread nD τ).loc b))

/-! ## The operands the pipeline does not stage -/

/-- The scratch row the looked-up embedding row is copied into. -/
abbrev scM0 : Memref sig .tc .vmem S1x1024 .f32 := Memref.whole cc0_scratch0
/-- The embedding matrix, left in HBM. -/
abbrev hbM0 : Memref sig .tc .hbm S50257x1024 .f32 := Memref.whole main_arg2
/-- The token table, in scalar memory. -/
abbrev tbM0 : Memref sig .tc .smem S1 .i32 := Memref.whole main_arg0

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore. -/
abbrev osem0 : Fin 1 → SemLoc sig := fun j => (![SemLoc.dma 6] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0) := by
  rw [Pipeline.ownSems0_eq_of_list c osem0 [0] (by decide) (by decide)]; rfl

/-- The unscoped buffers the body reads that are no window's array: the embedding matrix and the token table. -/
def H0 : Finset (Ref sig .tc) := {main_arg2, main_arg0}
theorem H0_sub : H0 ⊆ Pipeline.restRefs sig spec0 := by decide
theorem hbmPts0_eq (c : Dev nD) :
    (bigSep H0 (fun b => ((c : Thread nD τ).loc b) ↦{fullShare} V c b) : sProp 𝕄)
      = iprop(hbPt0 c hbM0 (V c main_arg2) ∗ hbPt0 c tbM0 (V c main_arg0)) := by
  rw [BI.bigSep_eq_bigSepL_of_eq [main_arg2, main_arg0] (by decide) (by decide)]; rfl

/-- The invariant, conjunct by conjunct: the scoped rest (the scratch row among it), the generator register, the
    body's semaphore at zero, the embedding matrix and the token table at their contents when the call is entered. -/
theorem PhiD0_eq (c : Dev nD) :
    (Pipeline.ΦD osem0 spec0 H0 V c : sProp 𝕄)
      = iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 6) 0) ∗ iprop(hbPt0 c hbM0 (V c main_arg2) ∗ hbPt0 c tbM0 (V c main_arg0))) := by
  rw [Pipeline.ΦD_eq, ownSems00_eq, hbmPts0_eq]

/-! ## The body's run -/

/-- The token word as the body's scalar load reads it off the table's contents `ft`. -/
abbrev tokWord (c : Dev nD) (ft : HbBuf0 (F := F) c tbM0) : BitVec 32 :=
  tbM0.view.readAt (Elt F) (Rect.unit (s := S1) ![0] S1.size inb_S1_S1_0).toLoadRect ft (Shape.Idx.first (numel1_S1.symm ▸ Nat.one_pos))

/-- One staging buffer of the output window, through which its contents are stated. -/
abbrev VO0 : View sig .tc .vmem S1x1024 .f32 := (Memref.whole cc0_stg5_0 : Memref sig .tc .vmem S1x1024 .f32).view

set_option maxHeartbeats 4000000 in
/-- What the body's one store leaves in the output's staging buffer, as pieces, WITH the proof that on whole staging
    buffers — the five inputs' at contents `x0 … x4`, the output's and the scratch row's at anything —, holding the
    embedding matrix at `fe` and the token table at `ft` whose word keeps the row in range, its semaphore at zero and
    the core's dues, the body runs to its continuation with the inputs, the matrix, the table and the semaphore as they
    were, the scratch at some contents, the wait recorded, and the output's buffer with its pieces written. -/
noncomputable def kernelRun0 (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec F S1x1024 .f32) (x1 x2 : Vec F S3072x1024 .f32) (x3 x4 : Vec F S3072 .f32)
    (fe : HbBuf0 (F := F) c hbM0) (ft : HbBuf0 (F := F) c tbM0) (htok : k0_chk1 (tokWord c ft)) :
    { L : List (View.Piece (Elt F) S1x1024 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) scM0 fullShare d)
            ∗ semVal ((c : Thread nD τ), SemLoc.dma 6) 0 ∗ hbPt0 c hbM0 fe ∗ hbPt0 c tbM0 ft ∗ owes (c : Thread nD τ) 0 W
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) scM0 fullShare d)
                ∗ semVal ((c : Thread nD τ), SemLoc.dma 6) 0 ∗ hbPt0 c hbM0 fe ∗ hbPt0 c tbM0 ft ∗ (∃ W', owes (c : Thread nD τ) 0 W')) -∗ K ⟨⟩))
          ⊢ wp frame (wpE (defs₀ (F := F)) Variants.none c none) Set.univ
              (cc0__embed_gru_kernel i tbM0 (Memref.isWhole_whole _) hbM0 (Memref.isWhole_whole _) arg3 harg3 arg4 harg4 arg5 harg5 arg6 harg6 arg7 harg7 arg8 harg8 scM0 (Memref.isWhole_whole _) cc0_scratch1) K } := by
  refine ⟨?_, fun W K => ?run⟩
  case run =>
    simp only [cc0__embed_gru_kernel_eq_skeleton]; unfold cc0__embed_gru_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hq, Hhe, Hht, HW, Hk⟩
    obtain rfl := harg3.eq_unread hf0
    obtain rfl := harg4.eq_unread hf1
    obtain rfl := harg5.eq_unread hf2
    obtain rfl := harg6.eq_unread hf3
    obtain rfl := harg7.eq_unread hf4
    sl_exec (disch := sl_exact htok)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]
    · iexists _, _; isplitr; swap; · iexact HS
      ipureintro; rfl
    isplitl [Hq]; · iexact Hq
    isplitl [Hhe]; · iexact Hhe
    isplitl [Hht]; · iexact Hht
    iexists _; iexact HW

/-- The run's one piece is the whole output block, so its pieces cover it. -/
theorem cover0_5 (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec F S1x1024 .f32) (x1 x2 : Vec F S3072x1024 .f32) (x3 x4 : Vec F S3072 .f32)
    (fe : HbBuf0 (F := F) c hbM0) (ft : HbBuf0 (F := F) c tbM0) (htok : k0_chk1 (tokWord c ft)) (y : S1x1024.Idx) :
    ∃ pc ∈ (kernelRun0 c i arg3 harg3 arg4 harg4 arg5 harg5 arg6 harg6 arg7 harg7 arg8 harg8 x0 x1 x2 x3 x4 fe ft htok).1, y ∈ pc.1.set :=
  View.cover_of_tiledL (kernelRun0 c i arg3 harg3 arg4 harg4 arg5 harg5 arg6 harg6 arg7 harg7 arg8 harg8 x0 x1 x2 x3 x4 fe ft htok).1 S1x1024.size (by sl_kernel_rfl) y

/-- What the run leaves in the output's staging buffer: its pieces read back over junk. -/
def out0_5 (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec F S1x1024 .f32) (x1 x2 : Vec F S3072x1024 .f32) (x3 x4 : Vec F S3072 .f32)
    (fe : HbBuf0 (F := F) c hbM0) (ft : HbBuf0 (F := F) c tbM0) (htok : k0_chk1 (tokWord c ft)) : Vec F S1x1024 .f32 :=
  VO0.read (Elt F) (VO0.writes (Elt F) VO0.junk (kernelRun0 c i arg3 harg3 arg4 harg4 arg5 harg5 arg6 harg6 arg7 harg7 arg8 harg8 x0 x1 x2 x3 x4 fe ft htok).1)

/-! ## The invariant with the scratch row exposed -/

/-- The scoped buffers of the core that are neither a staging buffer of this call nor its scratch row, each at some contents. -/
def restO0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

theorem PhiD0_eq' (c : Dev nD) :
    (Pipeline.ΦD osem0 spec0 H0 V c : sProp 𝕄)
      = iprop(iprop((∃ d, owns (c : Thread nD τ) scM0 fullShare d) ∗ restO0 (F := F) c) ∗ (∃ r, prngReg c r)
          ∗ iprop(semVal ((c : Thread nD τ), SemLoc.dma 6) 0) ∗ iprop(hbPt0 c hbM0 (V c main_arg2) ∗ hbPt0 c tbM0 (V c main_arg0))) := by
  rw [PhiD0_eq, scopedRest0_eq]; unfold restO0; simp only [scM0, owns_whole]; try rfl

/-! ## The windows' blocks -/

/-- Window `w`'s block at grid point `t`, read off its array as the call finds it. -/
def iblk0 (c : Dev nD) (w : Fin (cfg0 a0).W) (t : Fin (cfg0 a0).N) : (((cfg0 a0).win w).xblock ((cfg0 a0).grid.coords t)).Idx → Elt F ((cfg0 a0).win w).elt :=
  (((cfg0 a0).win w).blk t).view.read (Elt F) (V c (Pipeline.arrRef spec0 w))

theorem before0_0_of {c : Dev nD} (dat : Dat τ (Elt F) Unit ℕ (Pipeline.UD sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a0) c) (hA : dat.A 2 = V c (Pipeline.arrRef spec0 2))
    (hafter : ∀ t, dat.after 2 t = iblk0 a0 V c 2 t) (t : Fin (cfg0 a0).N) (d) : dat.before 2 t d = iblk0 a0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ (cfg0 a0) c) (hA : dat.A 3 = V c (Pipeline.arrRef spec0 3))
    (hafter : ∀ t, dat.after 3 t = iblk0 a0 V c 3 t) (t : Fin (cfg0 a0).N) (d) : dat.before 3 t d = iblk0 a0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ (cfg0 a0) c) (hA : dat.A 4 = V c (Pipeline.arrRef spec0 4))
    (hafter : ∀ t, dat.after 4 t = iblk0 a0 V c 4 t) (t : Fin (cfg0 a0).N) (d) : dat.before 4 t d = iblk0 a0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body. -/
abbrev ms0_0 (t : Fin (cfg0 a0).N) : Memref sig .tc .vmem S1x1024 .f32 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S3072x1024 .f32 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S3072x1024 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S3072 .f32 := spec0_3.stage ((cfg0 a0).slots t 3)
abbrev hs0_3 (t : Fin (cfg0 a0).N) : (ms0_3 a0 t).IsWhole := hstage0_3 (((cfg0 a0).slots t 3).cast nbuf0_3)
abbrev ms0_4 (t : Fin (cfg0 a0).N) : Memref sig .tc .vmem S3072 .f32 := spec0_4.stage ((cfg0 a0).slots t 4)
abbrev hs0_4 (t : Fin (cfg0 a0).N) : (ms0_4 a0 t).IsWhole := hstage0_4 (((cfg0 a0).slots t 4).cast nbuf0_4)
abbrev ms0_5 (t : Fin (cfg0 a0).N) : Memref sig .tc .vmem S1x1024 .f32 := spec0_5.stage ((cfg0 a0).slots t 5)
abbrev hs0_5 (t : Fin (cfg0 a0).N) : (ms0_5 a0 t).IsWhole := hstage0_5 (((cfg0 a0).slots t 5).cast nbuf0_5)

/-! ## The proof data -/

variable (htok : ∀ c : Dev nD, k0_chk1 (tokWord (F := F) c (V c main_arg0)))

/-- What the output's staging buffer holds after the body at point `t`: the run's contents at the point's buffers,
    the five input blocks, the embedding matrix and the token table as the call finds them. -/
def outsAt0 (c : Dev nD) (t : Fin (cfg0 a0).N) : Vec F S1x1024 .f32 :=
  out0_5 c (grid0.coords t) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (iblk0 a0 V c 0 t) (iblk0 a0 V c 1 t) (iblk0 a0 V c 2 t) (iblk0 a0 V c 3 t) (iblk0 a0 V c 4 t) (V c main_arg2) (V c main_arg0) (htok c)

/-- The proof data of this call on core `c`: the arrays as the call finds them; after the body each input's buffer
    still at its block and the output's at `outsAt0`; the invariant of a body with a transfer of its own (the scoped
    rest, the generator register, its semaphore at zero, the matrix and the table at their entry contents); nothing owed. -/
def dat0 (c : Dev nD) : Dat τ (Elt F) Unit ℕ (Pipeline.UD sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => iblk0 a0 V c 2 t
    | ⟨3, _⟩ => iblk0 a0 V c 3 t
    | ⟨4, _⟩ => iblk0 a0 V c 4 t
    | ⟨5, _⟩ => outsAt0 a0 V htok c t
  Φ _ := Pipeline.ΦD osem0 spec0 H0 V c
  q _ := fullShare
  owed _ := 0

theorem A_eq0 (c : Dev nD) (w : Fin (cfg0 a0).W) : (dat0 a0 V htok c).A w = V c (Pipeline.arrRef spec0 w) := by
  dsimp only [dat0]

theorem after0_0 (c : Dev nD) (t : Fin (cfg0 a0).N) : (dat0 a0 V htok c).after 0 t = iblk0 a0 V c 0 t := by dsimp only [dat0]; rfl
theorem after0_1 (c : Dev nD) (t : Fin (cfg0 a0).N) : (dat0 a0 V htok c).after 1 t = iblk0 a0 V c 1 t := by dsimp only [dat0]; rfl
theorem after0_2 (c : Dev nD) (t : Fin (cfg0 a0).N) : (dat0 a0 V htok c).after 2 t = iblk0 a0 V c 2 t := by dsimp only [dat0]; rfl
theorem after0_3 (c : Dev nD) (t : Fin (cfg0 a0).N) : (dat0 a0 V htok c).after 3 t = iblk0 a0 V c 3 t := by dsimp only [dat0]; rfl
theorem after0_4 (c : Dev nD) (t : Fin (cfg0 a0).N) : (dat0 a0 V htok c).after 4 t = iblk0 a0 V c 4 t := by dsimp only [dat0]; rfl
theorem after0_5 (c : Dev nD) (t : Fin (cfg0 a0).N) : (dat0 a0 V htok c).after 5 t = outsAt0 a0 V htok c t := by dsimp only [dat0]; rfl

theorem before0_0 (c : Dev nD) (t : Fin (cfg0 a0).N) (d) : (dat0 a0 V htok c).before 0 t d = iblk0 a0 V c 0 t :=
  before0_0_of a0 V (dat0 a0 V htok c) (A_eq0 a0 V htok c 0) (after0_0 a0 V htok c) t d
theorem before0_1 (c : Dev nD) (t : Fin (cfg0 a0).N) (d) : (dat0 a0 V htok c).before 1 t d = iblk0 a0 V c 1 t :=
  before0_1_of a0 V (dat0 a0 V htok c) (A_eq0 a0 V htok c 1) (after0_1 a0 V htok c) t d
theorem before0_2 (c : Dev nD) (t : Fin (cfg0 a0).N) (d) : (dat0 a0 V htok c).before 2 t d = iblk0 a0 V c 2 t :=
  before0_2_of a0 V (dat0 a0 V htok c) (A_eq0 a0 V htok c 2) (after0_2 a0 V htok c) t d
theorem before0_3 (c : Dev nD) (t : Fin (cfg0 a0).N) (d) : (dat0 a0 V htok c).before 3 t d = iblk0 a0 V c 3 t :=
  before0_3_of a0 V (dat0 a0 V htok c) (A_eq0 a0 V htok c 3) (after0_3 a0 V htok c) t d
theorem before0_4 (c : Dev nD) (t : Fin (cfg0 a0).N) (d) : (dat0 a0 V htok c).before 4 t d = iblk0 a0 V c 4 t :=
  before0_4_of a0 V (dat0 a0 V htok c) (A_eq0 a0 V htok c 4) (after0_4 a0 V htok c) t d

/-! ## The body obligation -/

/-- The body as the pipeline calls it at point `t`. -/
abbrev bodyAt0 (t : Fin (cfg0 a0).N) : Prog (TpuEff nD τ sig (Elt F) Λ₀ .tc) PUnit :=
  cc0__embed_gru_kernel (grid0.coords t) (Memref.whole main_arg0) (Memref.isWhole_whole _) (Memref.whole main_arg2) (Memref.isWhole_whole _)
    (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (Memref.whole cc0_scratch0) (Memref.isWhole_whole _) cc0_scratch1

/-- What the body is called with at point `t`, window by window, -/
def bodyPre0 (c : Dev nD) (t : Fin (cfg0 a0).N) : sProp 𝕄 :=
  iprop((dat0 a0 V htok c).Φ t.castSucc ∗ (dat0 a0 V htok c).owesAt () t.castSucc
    ∗ (∃ d, owns (c : Thread nD τ) (ms0_0 a0 t) fullShare ((dat0 a0 V htok c).before 0 t d))
    ∗ (∃ d, owns (c : Thread nD τ) (ms0_1 a0 t) fullShare ((dat0 a0 V htok c).before 1 t d))
    ∗ (∃ d, owns (c : Thread nD τ) (ms0_2 a0 t) fullShare ((dat0 a0 V htok c).before 2 t d))
    ∗ (∃ d, owns (c : Thread nD τ) (ms0_3 a0 t) fullShare ((dat0 a0 V htok c).before 3 t d))
    ∗ (∃ d, owns (c : Thread nD τ) (ms0_4 a0 t) fullShare ((dat0 a0 V htok c).before 4 t d))
    ∗ (∃ d, owns (c : Thread nD τ) (ms0_5 a0 t) fullShare ((dat0 a0 V htok c).before 5 t d)))

/-- and what it returns. -/
def bodyPost0 (c : Dev nD) (t : Fin (cfg0 a0).N) : sProp 𝕄 :=
  iprop((dat0 a0 V htok c).Φ t.succ ∗ (dat0 a0 V htok c).owesAt () t.succ
    ∗ owns (c : Thread nD τ) (ms0_0 a0 t) fullShare ((dat0 a0 V htok c).after 0 t)
    ∗ owns (c : Thread nD τ) (ms0_1 a0 t) fullShare ((dat0 a0 V htok c).after 1 t)
    ∗ owns (c : Thread nD τ) (ms0_2 a0 t) fullShare ((dat0 a0 V htok c).after 2 t)
    ∗ owns (c : Thread nD τ) (ms0_3 a0 t) fullShare ((dat0 a0 V htok c).after 3 t)
    ∗ owns (c : Thread nD τ) (ms0_4 a0 t) fullShare ((dat0 a0 V htok c).after 4 t)
    ∗ owns (c : Thread nD τ) (ms0_5 a0 t) fullShare ((dat0 a0 V htok c).after 5 t))

/-- The body at any point: the inputs' buffers hold their blocks, so the run applies; the invariant hands the body its
    scratch row, its semaphore at zero, the matrix and the table, and takes them back as they were; the core's dues go
    in at nothing owed and come back with this point's wait recorded. -/
theorem sound_body0 (c : Dev nD) (t : Fin (cfg0 a0).N) :
    bodyPre0 a0 V htok c t ⊢ wp frame (wpE (defs₀ (F := F)) Variants.none c none) Set.univ (bodyAt0 a0 t) (fun _ => bodyPost0 a0 V htok c t) := by
  unfold bodyPre0 bodyPost0 bodyAt0
  simp only [before0_0, before0_1, before0_2, before0_3, before0_4]
  rw [show (dat0 a0 V htok c).Φ t.succ = (dat0 a0 V htok c).Φ t.castSucc from rfl,
    after0_0, after0_1, after0_2, after0_3, after0_4, after0_5]
  rw [show (dat0 a0 V htok c).Φ t.castSucc = Pipeline.ΦD osem0 spec0 H0 V c from rfl, PhiD0_eq']
  unfold Dat.owesAt Pipeline.owesWithin
  rw [show (dat0 a0 V htok c).owed t.castSucc = 0 from rfl, show (dat0 a0 V htok c).owed t.succ = 0 from rfl]
  unfold outsAt0
  unfold out0_5
  iintro ⟨⟨⟨HS, HR⟩, Hg, Hq, Hhe, Hht⟩, ⟨%W, -, HW⟩, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk0 a0 V c 0 t) (iblk0 a0 V c 1 t) (iblk0 a0 V c 2 t) (iblk0 a0 V c 3 t) (iblk0 a0 V c 4 t) (V c main_arg2) (V c main_arg0) (htok c)).2 W _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [Hq]; · iexact Hq
  isplitl [Hhe]; · iexact Hhe
  isplitl [Hht]; · iexact Hht
  isplitl [HW]; · iexact HW
  iintro ⟨H0, H1, H2, H3, H4, ⟨%e5, H5⟩, HS, Hq, Hhe, Hht, ⟨%W', HW'⟩⟩
  isplitl [HS HR Hg Hq Hhe Hht]
  · isplitl [HS HR]
    · isplitl [HS]; · iexact HS
      iexact HR
    isplitl [Hg]; · iexact Hg
    isplitl [Hq]; · iexact Hq
    isplitl [Hhe]; · iexact Hhe
    iexact Hht
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _)

/-- The pipeline's body obligation, at every point. -/
theorem body_obligation0 (c : Dev nD) : BodyObligation (dat0 (F := F) a0 V htok c) (defs₀ (F := F)) Variants.none () Set.univ := fun t => by
  rw [bigSep_W0, bigSep_W0]
  exact sound_body0 a0 V htok c t

end Cert.KernelIdeal.Hand

end
-- ==== Proof.KI.Run.lean ====
/-
  The whole program's run: the contents of the core's unscoped buffers at every boundary between two items of the main
  function (a stretch of host operations, or one of the three pallas_calls), the proof data of the three calls at their
  entry contents, each call as a segment entered from one boundary's contents and left at the next, and the launch:
  every weakly fair execution ends with every unscoped buffer at the last boundary's contents.  The token table's word
  must keep the looked-up row in range (`htok`): the first call's body assumes it.
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import proofs.«416419_j79018808312087_1_alg».proof.Proof.KI.Lin1
import proofs.«416419_j79018808312087_1_alg».proof.Proof.KI.Lin2
import proofs.«416419_j79018808312087_1_alg».proof.Proof.KI.Gru0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the reshape of the hidden state: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The token table's contents, read off the launch memory: the contents the first call's pipeline is pinned at. -/
def adm0 : (pcfg0 (F := F)).Adm := ⟨fun k => m (((⟨0, Nat.one_pos⟩ : Dev nD) : Thread nD τ).loc (pre0.ref k)), trivial⟩
/-- Every call's tables: only the first has one. -/
abbrev adm : (p : Fin 3) → (pcfgs (F := F) p).Adm
  | ⟨0, _⟩ => adm0 m
  | ⟨1, _⟩ => cfg1.toPCfg_adm
  | ⟨2, _⟩ => cfg2.toPCfg_adm

variable (htok : ∀ c : Dev nD, k0_chk1 (tokWord (F := F) c (V1 m ρ c main_arg0)))

/-- At call 0's exit: its arrays at what the pipeline leaves (an input as entered, the output's write-backs folded),
    every other buffer as entered. -/
def W2 (c : Dev nD) : Valuation τ sig (Elt F) :=
  Pipeline.withArrays spec0 c (W1 m ρ c) fun w => (dat0 (adm0 m) (V1 m ρ) htok c).arrAt w (cfg0 (adm0 (F := F) m)).N
theorem W2_arr (c : Dev nD) (w : Fin 6) :
    W2 m ρ htok c (Proc.devRef .tc (Pipeline.arrRef spec0 w)) = (dat0 (adm0 m) (V1 m ρ) htok c).arrAt w (cfg0 (adm0 (F := F) m)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ htok c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ htok c b

theorem hF0 (c : Dev nD) (w : Fin 6) : (dat0 (adm0 m) (V1 m ρ) htok c).arrAt w (cfg0 (adm0 (F := F) m)).N = V2 m ρ htok c (Pipeline.arrRef spec0 w) :=
  (W2_arr m ρ htok c w).symm
theorem hrest0 (c : Dev nD) : ∀ b, b ∉ Finset.univ.image (Pipeline.arrRef spec0) → V2 m ρ htok c b = V1 m ρ c b :=
  fun b hb => W2_of_ne m ρ htok c b fun w e => hb (Finset.mem_image.mpr ⟨w, Finset.mem_univ _, e⟩)

/-- After the four slices of the projection matrix and bias: the second call's entry. -/
abbrev W3 : Dev nD → Valuation τ sig (Elt F) := fun c => StableHlo.after hostOps1 (W2 m ρ htok c)
abbrev V3 : (c : Dev nD) → (b : Ref sig .tc) → Buf (Elt F) ((c : Thread nD τ).loc b) := fun c b => W3 m ρ htok c b

/-- At call 1's exit: its arrays at what the pipeline leaves (an input as entered, the output's write-backs folded),
    every other buffer as entered. -/
def W4 (c : Dev nD) : Valuation τ sig (Elt F) :=
  Pipeline.withArrays spec1 c (W3 m ρ htok c) fun w => (dat1 (V3 m ρ htok) c).arrAt w cfg1.N
theorem W4_arr (c : Dev nD) (w : Fin 4) :
    W4 m ρ htok c (Proc.devRef .tc (Pipeline.arrRef spec1 w)) = (dat1 (V3 m ρ htok) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ htok c (Proc.devRef .tc b) = W3 m ρ htok c (Proc.devRef .tc b) := by
  unfold W4; exact Pipeline.withArrays_of_ne spec1 c _ _ b hb
abbrev V4 : (c : Dev nD) → (b : Ref sig .tc) → Buf (Elt F) ((c : Thread nD τ).loc b) := fun c b => W4 m ρ htok c b

theorem hF1 (c : Dev nD) (w : Fin 4) : (dat1 (V3 m ρ htok) c).arrAt w cfg1.N = V4 m ρ htok c (Pipeline.arrRef spec1 w) :=
  (W4_arr m ρ htok c w).symm
theorem hrest1 (c : Dev nD) : ∀ b, b ∉ Finset.univ.image (Pipeline.arrRef spec1) → V4 m ρ htok c b = V3 m ρ htok c b :=
  fun b hb => W4_of_ne m ρ htok c b fun w e => hb (Finset.mem_image.mpr ⟨w, Finset.mem_univ _, e⟩)

/-- At call 2's exit: its arrays at what the pipeline leaves (an input as entered, the output's write-backs folded),
    every other buffer as entered. -/
def W5 (c : Dev nD) : Valuation τ sig (Elt F) :=
  Pipeline.withArrays spec2 c (W4 m ρ htok c) fun w => (dat2 (V4 m ρ htok) c).arrAt w cfg2.N
theorem W5_arr (c : Dev nD) (w : Fin 4) :
    W5 m ρ htok c (Proc.devRef .tc (Pipeline.arrRef spec2 w)) = (dat2 (V4 m ρ htok) c).arrAt w cfg2.N := by
  unfold W5; exact Pipeline.withArrays_arr spec2 (launch2 (F := F)).win.arr_inj c _ _ w
theorem W5_of_ne (c : Dev nD) (b : Ref sig .tc) (hb : ∀ w, Pipeline.arrRef spec2 w ≠ b) :
    W5 m ρ htok c (Proc.devRef .tc b) = W4 m ρ htok c (Proc.devRef .tc b) := by
  unfold W5; exact Pipeline.withArrays_of_ne spec2 c _ _ b hb
abbrev V5 : (c : Dev nD) → (b : Ref sig .tc) → Buf (Elt F) ((c : Thread nD τ).loc b) := fun c b => W5 m ρ htok c b

theorem hF2 (c : Dev nD) (w : Fin 4) : (dat2 (V4 m ρ htok) c).arrAt w cfg2.N = V5 m ρ htok c (Pipeline.arrRef spec2 w) :=
  (W5_arr m ρ htok c w).symm
theorem hrest2 (c : Dev nD) : ∀ b, b ∉ Finset.univ.image (Pipeline.arrRef spec2) → V5 m ρ htok c b = V4 m ρ htok c b :=
  fun b hb => W5_of_ne m ρ htok c b fun w e => hb (Finset.mem_image.mpr ⟨w, Finset.mem_univ _, e⟩)

/-- After the concatenation of the two logit pieces, -/
abbrev W6 : Dev nD → Valuation τ sig (Elt F) := fun c => StableHlo.after hostOps3 (W5 m ρ htok c)
/-- after the log-softmax, -/
abbrev W7 : Dev nD → Valuation τ sig (Elt F) := fun c => StableHlo.after hostOps3_1 (W6 m ρ htok c)
/-- and after the final broadcast of the hidden state: the contents at the return. -/
abbrev W8 : Dev nD → Valuation τ sig (Elt F) := fun c => StableHlo.after hostOps3_2 (W7 m ρ htok c)

/-! ## The proof data family and what rides along -/

/-- Every call's proof data, each at its entry contents. -/
def pdats : (p : Fin 3) → (c : Dev nD) → Dat τ (Elt F) Unit ℕ (Pipeline.UD sig nD τ) ℕ (Pipeline.pin (pcfgs (F := F)) (adm m) p) c
  | ⟨0, _⟩ => fun c => dat0 (adm0 m) (V1 m ρ) htok c
  | ⟨1, _⟩ => fun c => dat1 (V3 m ρ htok) c
  | ⟨2, _⟩ => fun c => dat2 (V4 m ρ htok) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ htok c) ∗ ∃ r, prngReg c r)

/-! ## The first call as a segment -/

/-- There is one core. -/
theorem dev_eq (c : Dev nD) : c = (⟨0, Nat.one_pos⟩ : Dev nD) := Subsingleton.elim _ _

/-- The first call's entry leaves the token table as launched: the reshape before it writes another buffer. -/
theorem V1_tok (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- The table's contents the pipeline is pinned at are the entry contents of its buffer. -/
theorem prefHeld0_eq (c : Dev nD) :
    (Pipeline.prefHeld (Ix := Unit) (Name := ℕ) (U := Pipeline.UD sig nD τ) (Lvl := ℕ) pre0 c (fun _ => fullShare) (adm0 (F := F) m).1 : sProp 𝕄)
      = iprop(hbPt0 c tbM0 (V1 m ρ c main_arg0)) := by
  unfold Pipeline.prefHeld
  rw [show (Finset.univ : Finset (Fin 1)) = {0} from by decide, bigSep_singleton, V1_tok]
  obtain rfl := dev_eq c
  rfl

set_option backward.isDefEq.respectTransparency.types false in
/-- The first call as a segment: entered with every unscoped buffer at `W1`, left at `W2`.  Its arrays are split out
    of the unscoped buffers and put back at the exit contents; the embedding matrix and the token table, which the body
    reads itself, are split out of the bypassing buffers — the table as the pipeline's prefetched table — and rejoined;
    the generator register and the body's own semaphore (at zero from the boundary and back) go into the invariant
    and come back; nothing is owed. -/
def reg0 : Pipeline.RegionSeg (pcfgs (F := F)) (adm m) (pdats m ρ htok) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (adm0 m) (V1 m ρ) htok c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ htok c) ∗ R c)
  X c := iprop((∃ r, prngReg c r) ∗ Pipeline.ownSems0 (Ix := Unit) (Name := ℕ) (U := Pipeline.UD sig nD τ) (Lvl := ℕ) (Val := Elt F) (τ := τ) osem0 c ∗ hbPt0 c hbM0 (V1 m ρ c main_arg2))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) (adm m) (pdats m ρ htok) (launch0 (F := F)).win (launch0 (F := F)).arr_whole c
      ((pdats m ρ htok 0 c).share_full fun _ => rfl) (V1 m ρ c) fun _ => rfl
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts0_eq (V1 m ρ) c)) $$ HH
    icases H'' with ⟨Hhe, Hht⟩
    imodintro
    isplitl [Ha]; · iexact Ha
    isplitl [Hht]
    · iapply (Entails.of_eq (prefHeld0_eq m ρ c).symm); iexact Hht
    isplitl [HO]
    · unfold Pipeline.Dat.owesAt Pipeline.owesWithin
      icases HO with ⟨%W, HO⟩; iexists W; isplitr; · ipureintro; exact fun _ _ => Or.inl trivial
      iexact HO
    isplitl [Hp Hos Hhe]
    · isplitl [Hp]; · iexact Hp
      isplitl [Hos]; · iexact Hos
      iexact Hhe
    iexact HR
  hin c := by
    rw [show (pdats m ρ htok 0 c).Φ 0 = Pipeline.ΦD osem0 spec0 H0 (V1 m ρ) c from rfl, Pipeline.ΦD_eq, hbmPts0_eq]
    iintro ⟨⟨Hp, Ho, Hhe⟩, Hpf, Hr⟩
    ihave Hht := (Entails.of_eq (prefHeld0_eq m ρ c)) $$ Hpf
    isplitl [Hr]; · iexact Hr
    isplitl [Hp]; · iexact Hp
    isplitl [Ho]; · iexact Ho
    isplitl [Hhe]; · iexact Hhe
    iexact Hht
  hout c := by
    rw [show (pdats m ρ htok 0 c).Φ (Fin.last _) = Pipeline.ΦD osem0 spec0 H0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m ρ htok) ((pdats m ρ htok 0 c).share_full fun _ => rfl)
      (V1 m ρ c) (V2 m ρ htok c) ((pdats m ρ htok 0 c).arrAt · (cfg0 (adm0 (F := F) m)).N) (hF0 m ρ htok c) (hrest0 m ρ htok c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The two projection calls as segments -/

set_option backward.isDefEq.respectTransparency.types false in
/-- The output projection's call number 1 as a segment: entered with every unscoped buffer at `W3`, left at `W4`.
    Its arrays are split out of the unscoped buffers and put back at the exit contents; the generator register goes into
    the invariant and comes back; nothing is owed; the body has no semaphore of its own. -/
def reg1 : Pipeline.RegionSeg (pcfgs (F := F)) (adm m) (pdats m ρ htok) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ htok) c).loose
  hwaits := Pipeline.hwaits_of_owed_zero _ _ _ _ L lv 1 fun _ _ => rfl
  pre c := iprop(StableHlo.held (c : Thread nD τ) (Pipeline.ucRefs τ sig) (W3 m ρ htok c) ∗ R c)
  post c := iprop(StableHlo.held (c : Thread nD τ) (Pipeline.ucRefs τ sig) (W4 m ρ htok c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ htok c)
  hentry c := by
    rw [Pipeline.ownSems0_none]
    have hsplit := Pipeline.arrays_of_unscopedBufs (p := 1) (pcfgs (F := F)) (adm m) (pdats m ρ htok) (launch1 (F := F)).win (launch1 (F := F)).arr_whole c
      ((pdats m ρ htok 1 c).share_full fun _ => rfl) (V3 m ρ htok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ htok 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ htok 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m ρ htok) ((pdats m ρ htok 1 c).share_full fun _ => rfl)
      (V3 m ρ htok c) (V4 m ρ htok c) ((pdats m ρ htok 1 c).arrAt · cfg1.N) (hF1 m ρ htok c) (hrest1 m ρ htok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection's call number 2 as a segment: entered with every unscoped buffer at `W4`, left at `W5`.
    Its arrays are split out of the unscoped buffers and put back at the exit contents; the generator register goes into
    the invariant and comes back; nothing is owed; the body has no semaphore of its own. -/
def reg2 : Pipeline.RegionSeg (pcfgs (F := F)) (adm m) (pdats m ρ htok) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V4 m ρ htok) c).loose
  hwaits := Pipeline.hwaits_of_owed_zero _ _ _ _ L lv 2 fun _ _ => rfl
  pre c := iprop(StableHlo.held (c : Thread nD τ) (Pipeline.ucRefs τ sig) (W4 m ρ htok c) ∗ R c)
  post c := iprop(StableHlo.held (c : Thread nD τ) (Pipeline.ucRefs τ sig) (W5 m ρ htok c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ htok c)
  hentry c := by
    rw [Pipeline.ownSems0_none]
    have hsplit := Pipeline.arrays_of_unscopedBufs (p := 2) (pcfgs (F := F)) (adm m) (pdats m ρ htok) (launch2 (F := F)).win (launch2 (F := F)).arr_whole c
      ((pdats m ρ htok 2 c).share_full fun _ => rfl) (V4 m ρ htok c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ htok 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ htok 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m ρ htok) ((pdats m ρ htok 2 c).share_full fun _ => rfl)
      (V4 m ρ htok c) (V5 m ρ htok c) ((pdats m ρ htok 2 c).arrAt · cfg2.N) (hF2 m ρ htok c) (hrest2 m ρ htok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps3_1_fresh' : (hostOps3_1 : List (HloOp τ sig (Elt F))).Forall fun op => op.fresh = ∅ := by
  simp only [List.Forall]; repeat' constructor
theorem hostOps3_2_fresh' : (hostOps3_2 : List (HloOp τ sig (Elt F))).Forall fun op => op.fresh = ∅ := by
  simp only [List.Forall]; repeat' constructor

/-- The main function's eight items in order. -/
abbrev segs : List (Pipeline.Seg (pcfgs (F := F)) (adm m) (pdats m ρ htok) () defs₀ 𝒱₀ L lv) :=
  [ .host (hseg hostOps0 hostOps0_sub hostOps0_fresh' (W0 m ρ)),
    .region (reg0 m ρ htok),
    .host (hseg hostOps1 hostOps1_sub hostOps1_fresh' (W2 m ρ htok)),
    .region (reg1 m ρ htok),
    .region (reg2 m ρ htok),
    .host (hseg hostOps3 hostOps3_sub hostOps3_fresh' (W5 m ρ htok)),
    .host (hseg hostOps3_1 hostOps3_1_sub hostOps3_1_fresh' (W6 m ρ htok)),
    .host (hseg hostOps3_2 hostOps3_2_sub hostOps3_2_fresh' (W7 m ρ htok)) ]

/-- The main function is the run of its segments. -/
theorem main_run (c : Dev nD) : main (F := F) c = Pipeline.Seg.run (segs m ρ htok) := (main_chain c).trans (by chain_rfl)

set_option backward.isDefEq.respectTransparency.types false in
/-- THE RUN.  From any memory with zero counters whose token word keeps the looked-up row in range, every weakly fair
    execution of the main function terminates, nothing faulting, and every final state holds every unscoped buffer of
    each core at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ htok c b) :=
  Pipeline.θ_run_regions_kit (pcfgs (F := F)) (adm m) (pdats m ρ htok) () (cellOf_inj (adm m)) embL defs₀ 𝒱₀ L lv m ρ main (segs m ρ htok)
    (fun c Q => by rw [main_run m ρ htok c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ htok)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ htok c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ htok c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ htok c) s')
      isplitl [Hh] <;> iassumption)
    (hQ := fun s h c => h c)

end Cert.KernelIdeal.Hand

end
-- ==== Proof.KI.Frame.lean ====
/-
  The frame of the program: the side condition the first call's body assumes follows from the token lying in the
  index range of the embedding matrix, and at the last boundary every argument buffer holds what it held at launch —
  no host operation writes an argument and no call changes one (a call reads an argument through an input window, by
  its own transfer, as its table, or not at all).
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import proofs.«416419_j79018808312087_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The assumed side condition -/

/-- A token word below 50257 keeps the copied row inside the embedding matrix: row `token` of 50257, all 1024 columns. -/
theorem chk_of_lt (c : Dev nD) (ft : HbBuf0 (F := F) c tbM0) (h : ∀ i, (ft i).toNat < 50257) : k0_chk1 (tokWord (F := F) c ft) := by
  intro a
  unfold k0_off1
  have hw : (tokWord (F := F) c ft).toNat < 50257 := h _
  match a with
  | ⟨0, _⟩ => show (tokWord (F := F) c ft).toNat + 1 ≤ 50257; omega
  | ⟨1, _⟩ => show 0 + 1024 ≤ 1024; omega

/-- The first call's entry leaves the token table as launched, so a launch memory whose token is in range meets the
    body's assumption on every core. -/
theorem htok_of_lt (h : ∀ c : Dev nD, ∀ i, (m ((c : Thread nD τ).loc main_arg0) i).toNat < 50257) :
    ∀ c : Dev nD, k0_chk1 (tokWord (F := F) c (V1 m ρ c main_arg0)) := fun c => by
  rw [V1_tok]; exact chk_of_lt c _ (h c)

/-! ## What each stretch of host operations leaves alone -/

theorem keep0_w : (hostOps0 : List (HloOp τ sig (Elt F))).Forall fun op => op.writes ⊆ (([main_v0] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep0 (V : Valuation τ sig (Elt F)) (r : Ref sig .tc) (h : r ∉ ([main_v0] : List (Ref sig .tc))) :
    StableHlo.after hostOps0 V (Proc.devRef .tc r) = V (Proc.devRef .tc r) :=
  StableHlo.after_of_writes_sub hostOps0 _ keep0_w h
theorem keep1_w : (hostOps1 : List (HloOp τ sig (Elt F))).Forall fun op => op.writes ⊆ (([main_v2, main_v3, main_v4, main_v5] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep1 (V : Valuation τ sig (Elt F)) (r : Ref sig .tc) (h : r ∉ ([main_v2, main_v3, main_v4, main_v5] : List (Ref sig .tc))) :
    StableHlo.after hostOps1 V (Proc.devRef .tc r) = V (Proc.devRef .tc r) :=
  StableHlo.after_of_writes_sub hostOps1 _ keep1_w h
theorem keep3_w : (hostOps3 : List (HloOp τ sig (Elt F))).Forall fun op => op.writes ⊆ (([main_v8] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep3 (V : Valuation τ sig (Elt F)) (r : Ref sig .tc) (h : r ∉ ([main_v8] : List (Ref sig .tc))) :
    StableHlo.after hostOps3 V (Proc.devRef .tc r) = V (Proc.devRef .tc r) :=
  StableHlo.after_of_writes_sub hostOps3 _ keep3_w h
theorem keep3_1_w : (hostOps3_1 : List (HloOp τ sig (Elt F))).Forall fun op => op.writes ⊆ (([main_call0_cst, main_call0_v0, main_call0_cst_0, main_call0_v1, main_call0_v2, main_call0_v3, main_call0_v4, main_call0_v5, main_call0_v6, main_call0_cst_1, main_call0_v7, main_call0_v8, main_call0_v9, main_call0_v10, main_v9] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep3_1 (V : Valuation τ sig (Elt F)) (r : Ref sig .tc) (h : r ∉ ([main_call0_cst, main_call0_v0, main_call0_cst_0, main_call0_v1, main_call0_v2, main_call0_v3, main_call0_v4, main_call0_v5, main_call0_v6, main_call0_cst_1, main_call0_v7, main_call0_v8, main_call0_v9, main_call0_v10, main_v9] : List (Ref sig .tc))) :
    StableHlo.after hostOps3_1 V (Proc.devRef .tc r) = V (Proc.devRef .tc r) :=
  StableHlo.after_of_writes_sub hostOps3_1 _ keep3_1_w h
theorem keep3_2_w : (hostOps3_2 : List (HloOp τ sig (Elt F))).Forall fun op => op.writes ⊆ (([main_v10] : List (Ref sig .tc)).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer this stretch does not write keeps its contents. -/
theorem keep3_2 (V : Valuation τ sig (Elt F)) (r : Ref sig .tc) (h : r ∉ ([main_v10] : List (Ref sig .tc))) :
    StableHlo.after hostOps3_2 V (Proc.devRef .tc r) = V (Proc.devRef .tc r) :=
  StableHlo.after_of_writes_sub hostOps3_2 _ keep3_2_w h

/-! ## The arguments at the last boundary -/

variable (htok : ∀ c : Dev nD, k0_chk1 (tokWord (F := F) c (V1 m ρ c main_arg0)))

/-- `main_arg0` ends as launched: no host operation writes it and no call changes it. -/
theorem W8_main_arg0 (c : Dev nD) : W8 m ρ htok c (Proc.devRef .tc main_arg0) = m ((c : Thread nD τ).loc main_arg0) :=
  (keep3_2 _ main_arg0 (by decide)).trans <| (keep3_1 _ main_arg0 (by decide)).trans <| (keep3 _ main_arg0 (by decide)).trans <|
  (W5_of_ne m ρ htok c main_arg0 (by decide)).trans <| (W4_of_ne m ρ htok c main_arg0 (by decide)).trans <| (keep1 _ main_arg0 (by decide)).trans <|
  (W2_of_ne m ρ htok c main_arg0 (by decide)).trans <| (keep0 _ main_arg0 (by decide)).trans rfl
/-- `main_arg1` ends as launched: no host operation writes it and no call changes it. -/
theorem W8_main_arg1 (c : Dev nD) : W8 m ρ htok c (Proc.devRef .tc main_arg1) = m ((c : Thread nD τ).loc main_arg1) :=
  (keep3_2 _ main_arg1 (by decide)).trans <| (keep3_1 _ main_arg1 (by decide)).trans <| (keep3 _ main_arg1 (by decide)).trans <|
  (W5_of_ne m ρ htok c main_arg1 (by decide)).trans <| (W4_of_ne m ρ htok c main_arg1 (by decide)).trans <| (keep1 _ main_arg1 (by decide)).trans <|
  (W2_of_ne m ρ htok c main_arg1 (by decide)).trans <| (keep0 _ main_arg1 (by decide)).trans rfl
/-- `main_arg2` ends as launched: no host operation writes it and no call changes it. -/
theorem W8_main_arg2 (c : Dev nD) : W8 m ρ htok c (Proc.devRef .tc main_arg2) = m ((c : Thread nD τ).loc main_arg2) :=
  (keep3_2 _ main_arg2 (by decide)).trans <| (keep3_1 _ main_arg2 (by decide)).trans <| (keep3 _ main_arg2 (by decide)).trans <|
  (W5_of_ne m ρ htok c main_arg2 (by decide)).trans <| (W4_of_ne m ρ htok c main_arg2 (by decide)).trans <| (keep1 _ main_arg2 (by decide)).trans <|
  (W2_of_ne m ρ htok c main_arg2 (by decide)).trans <| (keep0 _ main_arg2 (by decide)).trans rfl
/-- `main_arg3` ends as launched: no host operation writes it and no call changes it. -/
theorem W8_main_arg3 (c : Dev nD) : W8 m ρ htok c (Proc.devRef .tc main_arg3) = m ((c : Thread nD τ).loc main_arg3) :=
  (keep3_2 _ main_arg3 (by decide)).trans <| (keep3_1 _ main_arg3 (by decide)).trans <| (keep3 _ main_arg3 (by decide)).trans <|
  (W5_of_ne m ρ htok c main_arg3 (by decide)).trans <| (W4_of_ne m ρ htok c main_arg3 (by decide)).trans <| (keep1 _ main_arg3 (by decide)).trans <|
  ((W2_arr m ρ htok c 1).trans (((dat0 (adm0 m) (V1 m ρ) htok c).arrAt_in 1 rfl _).trans (A_eq0 (adm0 m) (V1 m ρ) htok c 1))).trans <| (keep0 _ main_arg3 (by decide)).trans rfl
/-- `main_arg4` ends as launched: no host operation writes it and no call changes it. -/
theorem W8_main_arg4 (c : Dev nD) : W8 m ρ htok c (Proc.devRef .tc main_arg4) = m ((c : Thread nD τ).loc main_arg4) :=
  (keep3_2 _ main_arg4 (by decide)).trans <| (keep3_1 _ main_arg4 (by decide)).trans <| (keep3 _ main_arg4 (by decide)).trans <|
  (W5_of_ne m ρ htok c main_arg4 (by decide)).trans <| (W4_of_ne m ρ htok c main_arg4 (by decide)).trans <| (keep1 _ main_arg4 (by decide)).trans <|
  ((W2_arr m ρ htok c 2).trans (((dat0 (adm0 m) (V1 m ρ) htok c).arrAt_in 2 rfl _).trans (A_eq0 (adm0 m) (V1 m ρ) htok c 2))).trans <| (keep0 _ main_arg4 (by decide)).trans rfl
/-- `main_arg5` ends as launched: no host operation writes it and no call changes it. -/
theorem W8_main_arg5 (c : Dev nD) : W8 m ρ htok c (Proc.devRef .tc main_arg5) = m ((c : Thread nD τ).loc main_arg5) :=
  (keep3_2 _ main_arg5 (by decide)).trans <| (keep3_1 _ main_arg5 (by decide)).trans <| (keep3 _ main_arg5 (by decide)).trans <|
  (W5_of_ne m ρ htok c main_arg5 (by decide)).trans <| (W4_of_ne m ρ htok c main_arg5 (by decide)).trans <| (keep1 _ main_arg5 (by decide)).trans <|
  ((W2_arr m ρ htok c 3).trans (((dat0 (adm0 m) (V1 m ρ) htok c).arrAt_in 3 rfl _).trans (A_eq0 (adm0 m) (V1 m ρ) htok c 3))).trans <| (keep0 _ main_arg5 (by decide)).trans rfl
/-- `main_arg6` ends as launched: no host operation writes it and no call changes it. -/
theorem W8_main_arg6 (c : Dev nD) : W8 m ρ htok c (Proc.devRef .tc main_arg6) = m ((c : Thread nD τ).loc main_arg6) :=
  (keep3_2 _ main_arg6 (by decide)).trans <| (keep3_1 _ main_arg6 (by decide)).trans <| (keep3 _ main_arg6 (by decide)).trans <|
  (W5_of_ne m ρ htok c main_arg6 (by decide)).trans <| (W4_of_ne m ρ htok c main_arg6 (by decide)).trans <| (keep1 _ main_arg6 (by decide)).trans <|
  ((W2_arr m ρ htok c 4).trans (((dat0 (adm0 m) (V1 m ρ) htok c).arrAt_in 4 rfl _).trans (A_eq0 (adm0 m) (V1 m ρ) htok c 4))).trans <| (keep0 _ main_arg6 (by decide)).trans rfl
/-- `main_arg7` ends as launched: no host operation writes it and no call changes it. -/
theorem W8_main_arg7 (c : Dev nD) : W8 m ρ htok c (Proc.devRef .tc main_arg7) = m ((c : Thread nD τ).loc main_arg7) :=
  (keep3_2 _ main_arg7 (by decide)).trans <| (keep3_1 _ main_arg7 (by decide)).trans <| (keep3 _ main_arg7 (by decide)).trans <|
  (W5_of_ne m ρ htok c main_arg7 (by decide)).trans <| (W4_of_ne m ρ htok c main_arg7 (by decide)).trans <| (keep1 _ main_arg7 (by decide)).trans <|
  (W2_of_ne m ρ htok c main_arg7 (by decide)).trans <| (keep0 _ main_arg7 (by decide)).trans rfl
/-- `main_arg8` ends as launched: no host operation writes it and no call changes it. -/
theorem W8_main_arg8 (c : Dev nD) : W8 m ρ htok c (Proc.devRef .tc main_arg8) = m ((c : Thread nD τ).loc main_arg8) :=
  (keep3_2 _ main_arg8 (by decide)).trans <| (keep3_1 _ main_arg8 (by decide)).trans <| (keep3 _ main_arg8 (by decide)).trans <|
  (W5_of_ne m ρ htok c main_arg8 (by decide)).trans <| (W4_of_ne m ρ htok c main_arg8 (by decide)).trans <| (keep1 _ main_arg8 (by decide)).trans <|
  (W2_of_ne m ρ htok c main_arg8 (by decide)).trans <| (keep0 _ main_arg8 (by decide)).trans rfl

/-! ## The frame -/

include htok in
/-- From any memory with zero counters whose token word is in range: every weakly fair execution of the main function
    terminates, nothing faulting, and every argument buffer ends holding its launch contents. -/
theorem frame_of_tok : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ htok c),
     (h c _ (mem_uc main_arg1 (by decide))).trans (W8_main_arg1 m ρ htok c),
     (h c _ (mem_uc main_arg2 (by decide))).trans (W8_main_arg2 m ρ htok c),
     (h c _ (mem_uc main_arg3 (by decide))).trans (W8_main_arg3 m ρ htok c),
     (h c _ (mem_uc main_arg4 (by decide))).trans (W8_main_arg4 m ρ htok c),
     (h c _ (mem_uc main_arg5 (by decide))).trans (W8_main_arg5 m ρ htok c),
     (h c _ (mem_uc main_arg6 (by decide))).trans (W8_main_arg6 m ρ htok c),
     (h c _ (mem_uc main_arg7 (by decide))).trans (W8_main_arg7 m ρ htok c),
     (h c _ (mem_uc main_arg8 (by decide))).trans (W8_main_arg8 m ρ htok c)⟩)
    (run_all m ρ htok)

end Cert.KernelIdeal.Hand

end
-- ==== Proof.KI.LinValue.lean ====
/-
  The output projection's pallas_call number 1 at the extended reals: the value of its output array after the call.
  The specification `linOut1 h W b` is the row `h · Wᵀ + b`, column by column.  The body's payload at a column of its
  block is the sum over the contracted axis of the hidden row times a row of the matrix block, plus the bias block's
  entry (the format changes are the identity, the transposed matrix is read at the swapped index, the product into the
  zero accumulator is the plain sum).  Each grid point's three input blocks are the whole hidden row, 4096 consecutive
  rows of the matrix and the matching 4096 entries of the bias, so what the point writes back is its block of the
  specification; the points' blocks tile the output, so the output array ends holding the specification of the arrays
  as the call found them, and the three input arrays are unchanged.
-/
import proofs.«416419_j79018808312087_1_alg».proof.Proof.KI.Lin1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The specification: the projected row, column by column -/

/-- `h · Wᵀ + b` for a hidden row `h` [1,1024], a matrix `W` [49152,1024] and a bias `b` [49152]: column `q` is
    `∑ₖ h[0,k] · W[q,k] + b[q]`. -/
def linOut1 (h : FVec Ideal S1x1024 .f32) (W : FVec Ideal S49152x1024 .f32) (b : FVec Ideal S49152 .f32) : FVec Ideal S1x49152 .f32 :=
  fun j => (∑ k : Fin 1024, h (ix2 (0 : Fin 1) k) * W (ix2 (⟨(j 1).val, (j 1).isLt⟩ : Fin 49152) k)) + b (ix1 (⟨(j 1).val, (j 1).isLt⟩ : Fin 49152))

theorem linOut1_apply (h : FVec Ideal S1x1024 .f32) (W : FVec Ideal S49152x1024 .f32) (b : FVec Ideal S49152 .f32) (q : Fin 49152) :
    linOut1 h W b (ix2 (0 : Fin 1) q) = (∑ k : Fin 1024, h (ix2 (0 : Fin 1) k) * W (ix2 q k)) + b (ix1 q) := rfl

/-! ## The body's payload at a column of the block -/

theorem lhs1_0 (i : S1x4096.Idx) (q : dot_S1x1024_S1024x4096_S1x4096_1_0_0_1_n_n.contr.Idx) :
    (dot_S1x1024_S1024x4096_S1x4096_1_0_0_1_n_n.lhsIdx i q 0).val = (i 0).val := by
  unfold DotDims.lhsIdx
  rw [dif_neg (show ¬(0 : Fin S1x1024.rank) ∈ dot_S1x1024_S1024x4096_S1x4096_1_0_0_1_n_n.lhsBatch by decide), dif_pos (show (0 : Fin S1x1024.rank) ∈ dot_S1x1024_S1024x4096_S1x4096_1_0_0_1_n_n.lhsNonContracting by decide)]
  rfl
theorem lhs1_1 (i : S1x4096.Idx) (q : dot_S1x1024_S1024x4096_S1x4096_1_0_0_1_n_n.contr.Idx) :
    (dot_S1x1024_S1024x4096_S1x4096_1_0_0_1_n_n.lhsIdx i q 1).val = (q ⟨0, by decide⟩).val :=
  dot_S1x1024_S1024x4096_S1x4096_1_0_0_1_n_n.lhsIdx_val_of_single rfl i q
theorem rhs1_0 (i : S1x4096.Idx) (q : dot_S1x1024_S1024x4096_S1x4096_1_0_0_1_n_n.contr.Idx) :
    (dot_S1x1024_S1024x4096_S1x4096_1_0_0_1_n_n.rhsIdx i q 0).val = (q ⟨0, by decide⟩).val :=
  dot_S1x1024_S1024x4096_S1x4096_1_0_0_1_n_n.rhsIdx_val_of_single rfl i q
theorem rhs1_1 (i : S1x4096.Idx) (q : dot_S1x1024_S1024x4096_S1x4096_1_0_0_1_n_n.contr.Idx) :
    (dot_S1x1024_S1024x4096_S1x4096_1_0_0_1_n_n.rhsIdx i q 1).val = (i 1).val := by
  unfold DotDims.rhsIdx
  rw [dif_neg (show ¬(1 : Fin S1024x4096.rank) ∈ dot_S1x1024_S1024x4096_S1x4096_1_0_0_1_n_n.rhsBatch by decide), dif_pos (show (1 : Fin S1024x4096.rank) ∈ dot_S1x1024_S1024x4096_S1x4096_1_0_0_1_n_n.rhsNonContracting by decide)]
  rfl

/-- The matrix product into the zero accumulator, at column `q`: the sum over the contracted axis. -/
theorem matmul1_apply (l : FVec Ideal S1x1024 .bf16) (r : FVec Ideal S1024x4096 .bf16) (q : Fin 4096) :
    matmul dot_S1x1024_S1024x4096_S1x4096_1_0_0_1_n_n none l r (constant (F := Ideal) S1x4096 .f32 0x00000000#32) (ix2 (0 : Fin 1) q)
      = ∑ k : Fin 1024, l (ix2 (0 : Fin 1) k) * r (ix2 k q) := by
  refine (Ideal.matmul_constant_zero_apply dot_S1x1024_S1024x4096_S1x4096_1_0_0_1_n_n none l r (ix2 (0 : Fin 1) q)).trans ?_
  rw [← Equiv.sum_comp (contrEquiv1 dot_S1x1024_S1024x4096_S1x4096_1_0_0_1_n_n 1024 rfl rfl).symm]
  refine Finset.sum_congr rfl fun k _ => ?_
  have hk := contrEquiv1_symm_val dot_S1x1024_S1024x4096_S1x4096_1_0_0_1_n_n 1024 rfl rfl k
  have el : dot_S1x1024_S1024x4096_S1x4096_1_0_0_1_n_n.lhsIdx (ix2 (0 : Fin 1) q) ((contrEquiv1 dot_S1x1024_S1024x4096_S1x4096_1_0_0_1_n_n 1024 rfl rfl).symm k) = ix2 (0 : Fin 1) k := funext fun a => Fin.ext (by
    match a with
    | ⟨0, _⟩ => exact lhs1_0 _ _
    | ⟨1, _⟩ => exact (lhs1_1 _ _).trans hk)
  have er : dot_S1x1024_S1024x4096_S1x4096_1_0_0_1_n_n.rhsIdx (ix2 (0 : Fin 1) q) ((contrEquiv1 dot_S1x1024_S1024x4096_S1x4096_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

/-- The bias [4096] viewed [1,4096], at column `q`. -/
theorem bias1_apply (v : FVec Ideal S4096 .f32) (q : Fin 4096) :
    shapeCast S1x4096 v shapeCasts_S4096_S1x4096 (ix2 (0 : Fin 1) q) = v (ix1 q) :=
  shapeCast_apply v shapeCasts_S4096_S1x4096 (ix2 (0 : Fin 1) q) (ix1 q) (by
    rw [Shape.rowMajor_val_two, Shape.rowMajor_val_one]; show q.val = 0 * 4096 + q.val; omega)

/-- The payload at column `q` of the block: the sum over the contracted axis of the row times row `q` of the matrix
    block, plus entry `q` of the bias block. -/
theorem k1_pay1_apply (x0 : Vec Ideal S1x1024 .f32) (x1 : Vec Ideal S4096x1024 .f32) (x2 : Vec Ideal S4096 .f32) (q : Fin 4096) :
    k1_pay1 (F := Ideal) x0 x1 x2 (ix2 (0 : Fin 1) q) = (∑ k : Fin 1024, x0 (ix2 (0 : Fin 1) k) * x1 (ix2 q k)) + x2 (ix1 q) := by
  unfold k1_pay1
  dsimp only
  rw [addf_apply, shapeCast_self, shapeCast_self, shapeCast_self, matmul1_apply, bias1_apply]
  congr 1
  refine Finset.sum_congr rfl fun k _ => ?_
  rw [truncf_apply, transpose_apply [1, 0] _ transposes_S4096x1024_p1_0_S1024x4096 (ix2 k q) (ix2 q k) (fun b => match b with
    | ⟨0, _⟩ => rfl
    | ⟨1, _⟩ => rfl), truncf_apply]

variable (V : (c : Dev nD) → (b : Ref sig .tc) → Buf (Elt Ideal) ((c : Thread nD τ).loc b))

theorem zeroOffs2_c1 : (![0, 0] : Fin 2 → Nat) = fun _ => 0 := funext fun a => by fin_cases a <;> rfl
theorem zeroOffs1_c1 : (![0] : Fin 1 → Nat) = fun _ => 0 := funext fun a => by fin_cases a <;> rfl

/-! ## From the blocks to the array -/

/-- The windows' block indices at grid point `t`: the hidden row is the one block (0,0); the matrix window is at row block
    `t`, the bias window at block `t`, the output window at column block `t`. -/
theorem blockIdx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 2) = 0 ∧ win1_3.index t (1 : Fin 2) = t.val :=
  (by decide +kernel : ∀ t : Fin grid1.N, _)

/-- The hidden row's block at any point is the whole row. -/
theorem iblk1_0_apply (c : Dev nD) (t : Fin cfg1.N) (y : S1x1024.Idx) :
    (iblk1 V c 0 t : Vec Ideal S1x1024 .f32) y = (V c main_v1 : S1x1024.Idx → Elt Ideal .f32) y := by
  obtain ⟨e0, e1, -⟩ := blockIdx1 t
  unfold iblk1
  rw [View.read_apply]
  show V c main_v1 _ = V c main_v1 _
  congr 1
  funext a
  apply Fin.ext
  match a with
  | ⟨0, _⟩ => show win1_0.index t (0 : Fin 2) * 1 + 1 * (y 0).val = (y 0).val; rw [e0]; omega
  | ⟨1, _⟩ => show win1_0.index t (1 : Fin 2) * 1024 + 1 * (y 1).val = (y 1).val; rw [e1]; omega

/-- The matrix window's block at point `t` is rows `4096 t … 4096 t + 4095` of the matrix. -/
theorem iblk1_1_apply (c : Dev nD) (t : Fin cfg1.N) (y : S4096x1024.Idx) (i : S49152x1024.Idx)
    (hi0 : (i 0).val = t.val * 4096 + (y 0).val) (hi1 : (i 1).val = (y 1).val) :
    (iblk1 V c 1 t : Vec Ideal S4096x1024 .f32) y = (V c main_v2 : S49152x1024.Idx → Elt Ideal .f32) i := by
  obtain ⟨-, -, e2, e3, -⟩ := blockIdx1 t
  unfold iblk1
  rw [View.read_apply]
  show V c main_v2 _ = V c main_v2 _
  congr 1
  funext a
  apply Fin.ext
  match a with
  | ⟨0, _⟩ => show win1_1.index t (0 : Fin 2) * 4096 + 1 * (y 0).val = (i 0).val; rw [e2, hi0]; omega
  | ⟨1, _⟩ => show win1_1.index t (1 : Fin 2) * 1024 + 1 * (y 1).val = (i 1).val; rw [e3, hi1]; omega

/-- The bias window's block at point `t` is entries `4096 t … 4096 t + 4095` of the bias. -/
theorem iblk1_2_apply (c : Dev nD) (t : Fin cfg1.N) (y : S4096.Idx) (i : S49152.Idx)
    (hi0 : (i 0).val = t.val * 4096 + (y 0).val) :
    (iblk1 V c 2 t : Vec Ideal S4096 .f32) y = (V c main_v3 : S49152.Idx → Elt Ideal .f32) i := by
  obtain ⟨-, -, -, -, e4, -⟩ := blockIdx1 t
  unfold iblk1
  rw [View.read_apply]
  show V c main_v3 _ = V c main_v3 _
  congr 1
  funext a
  apply Fin.ext
  match a with
  | ⟨0, _⟩ => show win1_2.index t (0 : Fin 1) * 4096 + 1 * (y 0).val = (i 0).val; rw [e4, hi0]; omega

/-- At one point: when the three loaded blocks are the row, rows `4096 n …` of the matrix and entries `4096 n …` of the
    bias, the payload at column `y` of the block is the projected row at column `4096 n + y`. -/
theorem payload_is_linOut1 (h : FVec Ideal S1x1024 .f32) (W : FVec Ideal S49152x1024 .f32) (b : FVec Ideal S49152 .f32)
    (x0 : Vec Ideal S1x1024 .f32) (x1 : Vec Ideal S4096x1024 .f32) (x2 : Vec Ideal S4096 .f32) (n : Nat) (hn : n < 12)
    (h0 : ∀ y : S1x1024.Idx, x0 y = h y)
    (h1 : ∀ (y : S4096x1024.Idx) (i : S49152x1024.Idx), (i 0).val = n * 4096 + (y 0).val → (i 1).val = (y 1).val → x1 y = W i)
    (h2 : ∀ (y : S4096.Idx) (i : S49152.Idx), (i 0).val = n * 4096 + (y 0).val → x2 y = b i)
    (y : S1x4096.Idx) (i : S1x49152.Idx) (hi0 : (i 0).val = (y 0).val) (hi1 : (i 1).val = n * 4096 + (y 1).val) :
    k1_pay1 (F := Ideal) x0 x1 x2 y = linOut1 h W b i := by
  obtain ⟨p, q, rfl⟩ : ∃ (p : Fin 1) (q : Fin 4096), y = ix2 p q := ⟨y 0, y 1, eq_ix2 y⟩
  obtain rfl : p = 0 := Subsingleton.elim _ _
  rw [k1_pay1_apply]
  unfold linOut1
  congr 1
  · refine Finset.sum_congr rfl fun k _ => ?_
    rw [h0, h1 (ix2 q k) (ix2 (⟨(i 1).val, (i 1).isLt⟩ : Fin 49152) k) hi1 rfl]
  · exact h2 (ix1 q) (ix1 (⟨(i 1).val, (i 1).isLt⟩ : Fin 49152)) hi1

/-- What point `t` writes back is block `t` of the projected row of the arrays as the call finds them. -/
theorem flushed1_3_eq (c : Dev nD) (t : Fin cfg1.N) :
    (dat1 (F := Ideal) V c).flushed 3 t
      = ((cfg1.win 3).blk t).view.read (Elt Ideal) (linOut1 (V c main_v1) (V c main_v2) (V c main_v3)) := by
  show (cfg1.win 3).cut (grid1.coords t) ((dat1 V c).after 3 t) = _
  rw [after1_3]
  unfold out1_3
  rw [View.canon_unit_zero zeroOffs2_c1]
  simp only [View.ld_unit_zero (S := S1x1024) zeroOffs2_c1, View.ld_unit_zero (S := S4096x1024) zeroOffs2_c1, View.ld_unit_zero (S := S4096) zeroOffs1_c1]
  obtain ⟨-, -, -, -, -, e5, e6⟩ := blockIdx1 t
  have hN : cfg1.N = 12 := N_1
  have ht := t.isLt
  funext j
  show k1_pay1 (F := Ideal) (iblk1 V c 0 t) (iblk1 V c 1 t) (iblk1 V c 2 t) j
    = linOut1 (V c main_v1) (V c main_v2) (V c main_v3) (((cfg1.win 3).blk t).view.emb j)
  refine payload_is_linOut1 _ _ _ _ _ _ t.val (by omega) (fun y => iblk1_0_apply V c t y) (fun y i a0 a1 => iblk1_1_apply V c t y i a0 a1)
    (fun y i a0 => iblk1_2_apply V c t y i a0) j _ ?_ ?_
  · show win1_3.index t (0 : Fin 2) * 1 + 1 * (j 0).val = (j 0).val; rw [e5]; omega
  · show win1_3.index t (1 : Fin 2) * 4096 + 1 * (j 1).val = t.val * 4096 + (j 1).val; rw [e6]; omega

/-- A column of the output is in point `t`'s block iff each coordinate is in the block's range on its axis. -/
theorem mem_blk1_3 (t : Fin cfg1.N) (i : S1x49152.Idx) :
    i ∈ ((cfg1.win 3).blk t).view.set ↔ ∀ a : Fin 2, win1_3.index t a * S1x4096.size a ≤ (i a).val ∧ (i a).val < win1_3.index t a * S1x4096.size a + S1x4096.size a := by
  show i ∈ ((View.whole main_v6).slice (win1_3.rect t)).set ↔ _
  rw [View.set_slice_whole, Rect.mem_set_unit]
  exact Iff.rfl

/-- The points' blocks tile the output: column `q` is in the block of point `q / 4096`. -/
theorem blocks_cover1 (i : S1x49152.Idx) : ∃ t : Fin cfg1.N, (cfg1.win 3).flush t = true ∧ i ∈ ((cfg1.win 3).blk t).view.set := by
  have hN : cfg1.N = 12 := N_1
  have hi0 : (i 0).val < 1 := (i 0).isLt
  have hi1 : (i 1).val < 49152 := (i 1).isLt
  obtain ⟨t, ht⟩ : ∃ t : Fin cfg1.N, t.val = (i 1).val / 4096 := ⟨⟨(i 1).val / 4096, by omega⟩, rfl⟩
  obtain ⟨-, -, -, -, -, e5, e6⟩ := blockIdx1 t
  refine ⟨t, flush1_3 t, ?_⟩
  rw [mem_blk1_3]
  intro a
  match a with
  | ⟨0, _⟩ => show win1_3.index t (0 : Fin 2) * 1 ≤ (i 0).val ∧ (i 0).val < win1_3.index t (0 : Fin 2) * 1 + 1; rw [e5]; omega
  | ⟨1, _⟩ => show win1_3.index t (1 : Fin 2) * 4096 ≤ (i 1).val ∧ (i 1).val < win1_3.index t (1 : Fin 2) * 4096 + 4096; rw [e6, ht]; omega

/-- The output array after the call: the projected row of the arrays as the call finds them. -/
theorem arr1_final (c : Dev nD) :
    (dat1 (F := Ideal) V c).arrAt 3 cfg1.N = linOut1 (V c main_v1) (V c main_v2) (V c main_v3) :=
  (dat1 V c).arrAt_eq_of_cover 3 (linOut1 (V c main_v1) (V c main_v2) (V c main_v3)) (fun t _ => flushed1_3_eq V c t) blocks_cover1

/-- The input arrays are as the call found them. -/
theorem arr1_in0 (c : Dev nD) : (dat1 (F := Ideal) V c).arrAt 0 cfg1.N = V c (Pipeline.arrRef spec1 0) :=
  ((dat1 V c).arrAt_in 0 rfl _).trans (A_eq1 V c 0)
theorem arr1_in1 (c : Dev nD) : (dat1 (F := Ideal) V c).arrAt 1 cfg1.N = V c (Pipeline.arrRef spec1 1) :=
  ((dat1 V c).arrAt_in 1 rfl _).trans (A_eq1 V c 1)
theorem arr1_in2 (c : Dev nD) : (dat1 (F := Ideal) V c).arrAt 2 cfg1.N = V c (Pipeline.arrRef spec1 2) :=
  ((dat1 V c).arrAt_in 2 rfl _).trans (A_eq1 V c 2)

end Cert.KernelIdeal.Hand

end
-- ==== Proof.KI.LinValue2.lean ====
/-
  The output projection's pallas_call number 2 at the extended reals: the value of its output array after the call.
  The specification `linOut2 h W b` is the row `h · Wᵀ + b`, column by column.  The body's payload at a column of its
  block is the sum over the contracted axis of the hidden row times a row of the matrix block, plus the bias block's
  entry (the format changes are the identity, the transposed matrix is read at the swapped index, the product into the
  zero accumulator is the plain sum).  Each grid point's three input blocks are the whole hidden row, 1105 consecutive
  rows of the matrix and the matching 1105 entries of the bias, so what the point writes back is its block of the
  specification; the points' blocks tile the output, so the output array ends holding the specification of the arrays
  as the call found them, and the three input arrays are unchanged.
-/
import proofs.«416419_j79018808312087_1_alg».proof.Proof.KI.Lin2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The specification: the projected row, column by column -/

/-- `h · Wᵀ + b` for a hidden row `h` [1,1024], a matrix `W` [1105,1024] and a bias `b` [1105]: column `q` is
    `∑ₖ h[0,k] · W[q,k] + b[q]`. -/
def linOut2 (h : FVec Ideal S1x1024 .f32) (W : FVec Ideal S1105x1024 .f32) (b : FVec Ideal S1105 .f32) : FVec Ideal S1x1105 .f32 :=
  fun j => (∑ k : Fin 1024, h (ix2 (0 : Fin 1) k) * W (ix2 (⟨(j 1).val, (j 1).isLt⟩ : Fin 1105) k)) + b (ix1 (⟨(j 1).val, (j 1).isLt⟩ : Fin 1105))

theorem linOut2_apply (h : FVec Ideal S1x1024 .f32) (W : FVec Ideal S1105x1024 .f32) (b : FVec Ideal S1105 .f32) (q : Fin 1105) :
    linOut2 h W b (ix2 (0 : Fin 1) q) = (∑ k : Fin 1024, h (ix2 (0 : Fin 1) k) * W (ix2 q k)) + b (ix1 q) := rfl

/-! ## The body's payload at a column of the block -/

theorem lhs2_0 (i : S1x1105.Idx) (q : dot_S1x1024_S1024x1105_S1x1105_1_0_0_1_n_n.contr.Idx) :
    (dot_S1x1024_S1024x1105_S1x1105_1_0_0_1_n_n.lhsIdx i q 0).val = (i 0).val := by
  unfold DotDims.lhsIdx
  rw [dif_neg (show ¬(0 : Fin S1x1024.rank) ∈ dot_S1x1024_S1024x1105_S1x1105_1_0_0_1_n_n.lhsBatch by decide), dif_pos (show (0 : Fin S1x1024.rank) ∈ dot_S1x1024_S1024x1105_S1x1105_1_0_0_1_n_n.lhsNonContracting by decide)]
  rfl
theorem lhs2_1 (i : S1x1105.Idx) (q : dot_S1x1024_S1024x1105_S1x1105_1_0_0_1_n_n.contr.Idx) :
    (dot_S1x1024_S1024x1105_S1x1105_1_0_0_1_n_n.lhsIdx i q 1).val = (q ⟨0, by decide⟩).val :=
  dot_S1x1024_S1024x1105_S1x1105_1_0_0_1_n_n.lhsIdx_val_of_single rfl i q
theorem rhs2_0 (i : S1x1105.Idx) (q : dot_S1x1024_S1024x1105_S1x1105_1_0_0_1_n_n.contr.Idx) :
    (dot_S1x1024_S1024x1105_S1x1105_1_0_0_1_n_n.rhsIdx i q 0).val = (q ⟨0, by decide⟩).val :=
  dot_S1x1024_S1024x1105_S1x1105_1_0_0_1_n_n.rhsIdx_val_of_single rfl i q
theorem rhs2_1 (i : S1x1105.Idx) (q : dot_S1x1024_S1024x1105_S1x1105_1_0_0_1_n_n.contr.Idx) :
    (dot_S1x1024_S1024x1105_S1x1105_1_0_0_1_n_n.rhsIdx i q 1).val = (i 1).val := by
  unfold DotDims.rhsIdx
  rw [dif_neg (show ¬(1 : Fin S1024x1105.rank) ∈ dot_S1x1024_S1024x1105_S1x1105_1_0_0_1_n_n.rhsBatch by decide), dif_pos (show (1 : Fin S1024x1105.rank) ∈ dot_S1x1024_S1024x1105_S1x1105_1_0_0_1_n_n.rhsNonContracting by decide)]
  rfl

/-- The matrix product into the zero accumulator, at column `q`: the sum over the contracted axis. -/
theorem matmul2_apply (l : FVec Ideal S1x1024 .bf16) (r : FVec Ideal S1024x1105 .bf16) (q : Fin 1105) :
    matmul dot_S1x1024_S1024x1105_S1x1105_1_0_0_1_n_n none l r (constant (F := Ideal) S1x1105 .f32 0x00000000#32) (ix2 (0 : Fin 1) q)
      = ∑ k : Fin 1024, l (ix2 (0 : Fin 1) k) * r (ix2 k q) := by
  refine (Ideal.matmul_constant_zero_apply dot_S1x1024_S1024x1105_S1x1105_1_0_0_1_n_n none l r (ix2 (0 : Fin 1) q)).trans ?_
  rw [← Equiv.sum_comp (contrEquiv1 dot_S1x1024_S1024x1105_S1x1105_1_0_0_1_n_n 1024 rfl rfl).symm]
  refine Finset.sum_congr rfl fun k _ => ?_
  have hk := contrEquiv1_symm_val dot_S1x1024_S1024x1105_S1x1105_1_0_0_1_n_n 1024 rfl rfl k
  have el : dot_S1x1024_S1024x1105_S1x1105_1_0_0_1_n_n.lhsIdx (ix2 (0 : Fin 1) q) ((contrEquiv1 dot_S1x1024_S1024x1105_S1x1105_1_0_0_1_n_n 1024 rfl rfl).symm k) = ix2 (0 : Fin 1) k := funext fun a => Fin.ext (by
    match a with
    | ⟨0, _⟩ => exact lhs2_0 _ _
    | ⟨1, _⟩ => exact (lhs2_1 _ _).trans hk)
  have er : dot_S1x1024_S1024x1105_S1x1105_1_0_0_1_n_n.rhsIdx (ix2 (0 : Fin 1) q) ((contrEquiv1 dot_S1x1024_S1024x1105_S1x1105_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-- The bias [1105] viewed [1,1105], at column `q`. -/
theorem bias2_apply (v : FVec Ideal S1105 .f32) (q : Fin 1105) :
    shapeCast S1x1105 v shapeCasts_S1105_S1x1105 (ix2 (0 : Fin 1) q) = v (ix1 q) :=
  shapeCast_apply v shapeCasts_S1105_S1x1105 (ix2 (0 : Fin 1) q) (ix1 q) (by
    rw [Shape.rowMajor_val_two, Shape.rowMajor_val_one]; show q.val = 0 * 1105 + q.val; omega)

/-- The payload at column `q` of the block: the sum over the contracted axis of the row times row `q` of the matrix
    block, plus entry `q` of the bias block. -/
theorem k2_pay1_apply (x0 : Vec Ideal S1x1024 .f32) (x1 : Vec Ideal S1105x1024 .f32) (x2 : Vec Ideal S1105 .f32) (q : Fin 1105) :
    k2_pay1 (F := Ideal) x0 x1 x2 (ix2 (0 : Fin 1) q) = (∑ k : Fin 1024, x0 (ix2 (0 : Fin 1) k) * x1 (ix2 q k)) + x2 (ix1 q) := by
  unfold k2_pay1
  dsimp only
  rw [addf_apply, shapeCast_self, shapeCast_self, shapeCast_self, matmul2_apply, bias2_apply]
  congr 1
  refine Finset.sum_congr rfl fun k _ => ?_
  rw [truncf_apply, transpose_apply [1, 0] _ transposes_S1105x1024_p1_0_S1024x1105 (ix2 k q) (ix2 q k) (fun b => match b with
    | ⟨0, _⟩ => rfl
    | ⟨1, _⟩ => rfl), truncf_apply]

variable (V : (c : Dev nD) → (b : Ref sig .tc) → Buf (Elt Ideal) ((c : Thread nD τ).loc b))

theorem zeroOffs2_c2 : (![0, 0] : Fin 2 → Nat) = fun _ => 0 := funext fun a => by fin_cases a <;> rfl
theorem zeroOffs1_c2 : (![0] : Fin 1 → Nat) = fun _ => 0 := funext fun a => by fin_cases a <;> rfl

/-! ## From the blocks to the array -/

/-- The windows' block indices at grid point `t`: the hidden row is the one block (0,0); the matrix window is at row block
    `t`, the bias window at block `t`, the output window at column block `t`. -/
theorem blockIdx2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 1) = t.val
    ∧ win2_3.index t (0 : Fin 2) = 0 ∧ win2_3.index t (1 : Fin 2) = t.val :=
  (by decide +kernel : ∀ t : Fin grid2.N, _)

/-- The hidden row's block at any point is the whole row. -/
theorem iblk2_0_apply (c : Dev nD) (t : Fin cfg2.N) (y : S1x1024.Idx) :
    (iblk2 V c 0 t : Vec Ideal S1x1024 .f32) y = (V c main_v1 : S1x1024.Idx → Elt Ideal .f32) y := by
  obtain ⟨e0, e1, -⟩ := blockIdx2 t
  unfold iblk2
  rw [View.read_apply]
  show V c main_v1 _ = V c main_v1 _
  congr 1
  funext a
  apply Fin.ext
  match a with
  | ⟨0, _⟩ => show win2_0.index t (0 : Fin 2) * 1 + 1 * (y 0).val = (y 0).val; rw [e0]; omega
  | ⟨1, _⟩ => show win2_0.index t (1 : Fin 2) * 1024 + 1 * (y 1).val = (y 1).val; rw [e1]; omega

/-- The matrix window's block at point `t` is rows `1105 t … 1105 t + 4095` of the matrix. -/
theorem iblk2_1_apply (c : Dev nD) (t : Fin cfg2.N) (y : S1105x1024.Idx) (i : S1105x1024.Idx)
    (hi0 : (i 0).val = t.val * 1105 + (y 0).val) (hi1 : (i 1).val = (y 1).val) :
    (iblk2 V c 1 t : Vec Ideal S1105x1024 .f32) y = (V c main_v4 : S1105x1024.Idx → Elt Ideal .f32) i := by
  obtain ⟨-, -, e2, e3, -⟩ := blockIdx2 t
  unfold iblk2
  rw [View.read_apply]
  show V c main_v4 _ = V c main_v4 _
  congr 1
  funext a
  apply Fin.ext
  match a with
  | ⟨0, _⟩ => show win2_1.index t (0 : Fin 2) * 1105 + 1 * (y 0).val = (i 0).val; rw [e2, hi0]; omega
  | ⟨1, _⟩ => show win2_1.index t (1 : Fin 2) * 1024 + 1 * (y 1).val = (i 1).val; rw [e3, hi1]; omega

/-- The bias window's block at point `t` is entries `1105 t … 1105 t + 4095` of the bias. -/
theorem iblk2_2_apply (c : Dev nD) (t : Fin cfg2.N) (y : S1105.Idx) (i : S1105.Idx)
    (hi0 : (i 0).val = t.val * 1105 + (y 0).val) :
    (iblk2 V c 2 t : Vec Ideal S1105 .f32) y = (V c main_v5 : S1105.Idx → Elt Ideal .f32) i := by
  obtain ⟨-, -, -, -, e4, -⟩ := blockIdx2 t
  unfold iblk2
  rw [View.read_apply]
  show V c main_v5 _ = V c main_v5 _
  congr 1
  funext a
  apply Fin.ext
  match a with
  | ⟨0, _⟩ => show win2_2.index t (0 : Fin 1) * 1105 + 1 * (y 0).val = (i 0).val; rw [e4, hi0]; omega

/-- At one point: when the three loaded blocks are the row, rows `1105 n …` of the matrix and entries `1105 n …` of the
    bias, the payload at column `y` of the block is the projected row at column `1105 n + y`. -/
theorem payload_is_linOut2 (h : FVec Ideal S1x1024 .f32) (W : FVec Ideal S1105x1024 .f32) (b : FVec Ideal S1105 .f32)
    (x0 : Vec Ideal S1x1024 .f32) (x1 : Vec Ideal S1105x1024 .f32) (x2 : Vec Ideal S1105 .f32) (n : Nat) (hn : n < 1)
    (h0 : ∀ y : S1x1024.Idx, x0 y = h y)
    (h1 : ∀ (y : S1105x1024.Idx) (i : S1105x1024.Idx), (i 0).val = n * 1105 + (y 0).val → (i 1).val = (y 1).val → x1 y = W i)
    (h2 : ∀ (y : S1105.Idx) (i : S1105.Idx), (i 0).val = n * 1105 + (y 0).val → x2 y = b i)
    (y : S1x1105.Idx) (i : S1x1105.Idx) (hi0 : (i 0).val = (y 0).val) (hi1 : (i 1).val = n * 1105 + (y 1).val) :
    k2_pay1 (F := Ideal) x0 x1 x2 y = linOut2 h W b i := by
  obtain ⟨p, q, rfl⟩ : ∃ (p : Fin 1) (q : Fin 1105), y = ix2 p q := ⟨y 0, y 1, eq_ix2 y⟩
  obtain rfl : p = 0 := Subsingleton.elim _ _
  rw [k2_pay1_apply]
  unfold linOut2
  congr 1
  · refine Finset.sum_congr rfl fun k _ => ?_
    rw [h0, h1 (ix2 q k) (ix2 (⟨(i 1).val, (i 1).isLt⟩ : Fin 1105) k) hi1 rfl]
  · exact h2 (ix1 q) (ix1 (⟨(i 1).val, (i 1).isLt⟩ : Fin 1105)) hi1

/-- What point `t` writes back is block `t` of the projected row of the arrays as the call finds them. -/
theorem flushed2_3_eq (c : Dev nD) (t : Fin cfg2.N) :
    (dat2 (F := Ideal) V c).flushed 3 t
      = ((cfg2.win 3).blk t).view.read (Elt Ideal) (linOut2 (V c main_v1) (V c main_v4) (V c main_v5)) := by
  show (cfg2.win 3).cut (grid2.coords t) ((dat2 V c).after 3 t) = _
  rw [after2_3]
  unfold out2_3
  rw [View.canon_unit_zero zeroOffs2_c2]
  simp only [View.ld_unit_zero (S := S1x1024) zeroOffs2_c2, View.ld_unit_zero (S := S1105x1024) zeroOffs2_c2, View.ld_unit_zero (S := S1105) zeroOffs1_c2]
  obtain ⟨-, -, -, -, -, e5, e6⟩ := blockIdx2 t
  have hN : cfg2.N = 1 := N_2
  have ht := t.isLt
  funext j
  show k2_pay1 (F := Ideal) (iblk2 V c 0 t) (iblk2 V c 1 t) (iblk2 V c 2 t) j
    = linOut2 (V c main_v1) (V c main_v4) (V c main_v5) (((cfg2.win 3).blk t).view.emb j)
  refine payload_is_linOut2 _ _ _ _ _ _ t.val (by omega) (fun y => iblk2_0_apply V c t y) (fun y i a0 a1 => iblk2_1_apply V c t y i a0 a1)
    (fun y i a0 => iblk2_2_apply V c t y i a0) j _ ?_ ?_
  · show win2_3.index t (0 : Fin 2) * 1 + 1 * (j 0).val = (j 0).val; rw [e5]; omega
  · show win2_3.index t (1 : Fin 2) * 1105 + 1 * (j 1).val = t.val * 1105 + (j 1).val; rw [e6]; omega

/-- A column of the output is in point `t`'s block iff each coordinate is in the block's range on its axis. -/
theorem mem_blk2_3 (t : Fin cfg2.N) (i : S1x1105.Idx) :
    i ∈ ((cfg2.win 3).blk t).view.set ↔ ∀ a : Fin 2, win2_3.index t a * S1x1105.size a ≤ (i a).val ∧ (i a).val < win2_3.index t a * S1x1105.size a + S1x1105.size a := by
  show i ∈ ((View.whole main_v7).slice (win2_3.rect t)).set ↔ _
  rw [View.set_slice_whole, Rect.mem_set_unit]
  exact Iff.rfl

/-- The points' blocks tile the output: column `q` is in the block of point `q / 1105`. -/
theorem blocks_cover2 (i : S1x1105.Idx) : ∃ t : Fin cfg2.N, (cfg2.win 3).flush t = true ∧ i ∈ ((cfg2.win 3).blk t).view.set := by
  have hN : cfg2.N = 1 := N_2
  have hi0 : (i 0).val < 1 := (i 0).isLt
  have hi1 : (i 1).val < 1105 := (i 1).isLt
  obtain ⟨t, ht⟩ : ∃ t : Fin cfg2.N, t.val = (i 1).val / 1105 := ⟨⟨(i 1).val / 1105, by omega⟩, rfl⟩
  obtain ⟨-, -, -, -, -, e5, e6⟩ := blockIdx2 t
  refine ⟨t, flush2_3 t, ?_⟩
  rw [mem_blk2_3]
  intro a
  match a with
  | ⟨0, _⟩ => show win2_3.index t (0 : Fin 2) * 1 ≤ (i 0).val ∧ (i 0).val < win2_3.index t (0 : Fin 2) * 1 + 1; rw [e5]; omega
  | ⟨1, _⟩ => show win2_3.index t (1 : Fin 2) * 1105 ≤ (i 1).val ∧ (i 1).val < win2_3.index t (1 : Fin 2) * 1105 + 1105; rw [e6, ht]; omega

/-- The output array after the call: the projected row of the arrays as the call finds them. -/
theorem arr2_final (c : Dev nD) :
    (dat2 (F := Ideal) V c).arrAt 3 cfg2.N = linOut2 (V c main_v1) (V c main_v4) (V c main_v5) :=
  (dat2 V c).arrAt_eq_of_cover 3 (linOut2 (V c main_v1) (V c main_v4) (V c main_v5)) (fun t _ => flushed2_3_eq V c t) blocks_cover2

/-- The input arrays are as the call found them. -/
theorem arr2_in0 (c : Dev nD) : (dat2 (F := Ideal) V c).arrAt 0 cfg2.N = V c (Pipeline.arrRef spec2 0) :=
  ((dat2 V c).arrAt_in 0 rfl _).trans (A_eq2 V c 0)
theorem arr2_in1 (c : Dev nD) : (dat2 (F := Ideal) V c).arrAt 1 cfg2.N = V c (Pipeline.arrRef spec2 1) :=
  ((dat2 V c).arrAt_in 1 rfl _).trans (A_eq2 V c 1)
theorem arr2_in2 (c : Dev nD) : (dat2 (F := Ideal) V c).arrAt 2 cfg2.N = V c (Pipeline.arrRef spec2 2) :=
  ((dat2 V c).arrAt_in 2 rfl _).trans (A_eq2 V c 2)

end Cert.KernelIdeal.Hand

end
-- ==== Proof.KI.ValueHost.lean ====
/-
  The two results at the last boundary, at the extended reals, as functions of the launch memory and of the hidden row
  `hK` the first call leaves in its output array: the second result is that row with a unit axis added; the first is the
  log-softmax chain applied to the concatenation of the two projection calls' results, each call's result the
  projection of `hK` by its slice of the projection matrix and bias (the value of a projection call: the blocks of
  its output array are the blocks of one whole-array function).
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import proofs.«416419_j79018808312087_1_alg».proof.Proof.KI.Frame
import proofs.«416419_j79018808312087_1_alg».proof.Proof.KI.LinValue
import proofs.«416419_j79018808312087_1_alg».proof.Proof.KI.LinValue2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt Ideal) ℓ) (ρ : Dev nD → PrngReg)
variable (htok : ∀ c : Dev nD, k0_chk1 (tokWord (F := Ideal) c (V1 m ρ c main_arg0)))

/-- The hidden row after the two GRU cells: what the first call leaves in its output array. -/
def hK (c : Dev nD) : FVec Ideal S1x1024 .f32 := W2 m ρ htok c (Proc.devRef .tc main_v1)

/-- The log-softmax chain of the main function, as one function of the logits. -/
def lsK {F : FTy → Type} [FloatOps F] (x : FVec F S1x50257 .f32) : FVec F S1x50257 .f32 :=
  subf (subf x (broadcastInDim S1x50257 ![0, 1] bcast_S1x1_S1x50257_0_1 (broadcastInDim S1x1 ![0] bcast_S1_S1x1_0
      (maximumf (broadcastInDim S1 ![] bcast_S_S1 (constant S_ .f32 0xFF800000#32)) (Host.reduce FloatOps.maximumf x (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp (subf x (broadcastInDim S1x50257 ![0, 1] bcast_S1x1_S1x50257_0_1 (broadcastInDim S1x1 ![0] bcast_S1_S1x1_0
        (maximumf (broadcastInDim S1 ![] bcast_S_S1 (constant S_ .f32 0xFF800000#32)) (Host.reduce FloatOps.maximumf x (constant S_ .f32 0xFF800000#32) reducesTo_S1x50257_S1_d1 h_S_))))))
        (constant S_ .f32 0x00000000#32) reducesTo_S1x50257_S1_d1 h_S_))))

/-- The concatenation of the two projection results along the vocabulary axis. -/
def catK {F : FTy → Type} [FloatOps F] (a : FVec F S1x49152 .f32) (b : FVec F S1x1105 .f32) : FVec F S1x50257 .f32 :=
  concatenate S1x50257 1 [⟨S1x49152, a⟩, ⟨S1x1105, b⟩] concatenates_S1x49152_S1x1105_S1x50257_d1

omit [FloatOps F] in
/-- Contents carried to a typed reference's buffer and back are unchanged: the two transports are along one equation. -/
theorem ofBuf_toBuf {Val : EltTy → Type} {T : BufTy} (x : StableHlo.TRef sig T) (v : T.Contents Val) : x.ofBuf (x.toBuf v) = v := by
  obtain ⟨r, rfl, _, _⟩ := x; rfl

/-- The log-softmax stretch of the main function leaves, in the first result's buffer, `lsK` of what the concatenation's
    buffer held: read at any float instance and any contents. -/
theorem ls_after {F : FTy → Type} [FloatOps F] (V6 : Valuation τ sig (Elt F)) :
    StableHlo.after hostOps3_1 V6 (Proc.devRef .tc main_v9) = (lsK (F := F) (V6 (Proc.devRef .tc main_v8) : FVec F S1x50257 .f32) : FVec F S1x50257 .f32) := by
  after_results
  simp only [ofBuf_toBuf]
  rfl

/-! ## The hidden row reaches both projection calls and the end unchanged -/

theorem V3_h (c : Dev nD) : V3 m ρ htok c main_v1 = hK m ρ htok c := keep1 _ main_v1 (by decide)
theorem V4_h (c : Dev nD) : V4 m ρ htok c main_v1 = hK m ρ htok c :=
  (W4_arr m ρ htok c 0).trans ((arr1_in0 (V3 m ρ htok) c).trans (V3_h m ρ htok c))
theorem V5_h (c : Dev nD) : V5 m ρ htok c main_v1 = hK m ρ htok c :=
  (W5_arr m ρ htok c 0).trans ((arr2_in0 (V4 m ρ htok) c).trans (V4_h m ρ htok c))

/-! ## The slices of the projection matrix and bias, as the projection calls find them -/

theorem V3_v2 (c : Dev nD) : V3 m ρ htok c main_v2 = extractStridedSlice S49152x1024 ![0, 0] (m ((c : Thread nD τ).loc main_arg7)) slices_S50257x1024_S49152x1024_0_0 := by
  show StableHlo.after hostOps1 (W2 m ρ htok c) (Proc.devRef .tc main_v2) = _
  after_results
  rw [show W2 m ρ htok c (Proc.devRef .tc main_arg7) = m ((c : Thread nD τ).loc main_arg7) from
    (W2_of_ne m ρ htok c main_arg7 (by decide)).trans ((keep0 _ main_arg7 (by decide)).trans rfl)]
theorem V3_v3 (c : Dev nD) : V3 m ρ htok c main_v3 = extractStridedSlice S49152 ![0] (m ((c : Thread nD τ).loc main_arg8)) slices_S50257_S49152_0 := by
  show StableHlo.after hostOps1 (W2 m ρ htok c) (Proc.devRef .tc main_v3) = _
  after_results
  rw [show W2 m ρ htok c (Proc.devRef .tc main_arg8) = m ((c : Thread nD τ).loc main_arg8) from
    (W2_of_ne m ρ htok c main_arg8 (by decide)).trans ((keep0 _ main_arg8 (by decide)).trans rfl)]
theorem V4_v4 (c : Dev nD) : V4 m ρ htok c main_v4 = extractStridedSlice S1105x1024 ![49152, 0] (m ((c : Thread nD τ).loc main_arg7)) slices_S50257x1024_S1105x1024_49152_0 := by
  rw [show V4 m ρ htok c main_v4 = W3 m ρ htok c (Proc.devRef .tc main_v4) from W4_of_ne m ρ htok c main_v4 (by decide)]
  show StableHlo.after hostOps1 (W2 m ρ htok c) (Proc.devRef .tc main_v4) = _
  after_results
  rw [show W2 m ρ htok c (Proc.devRef .tc main_arg7) = m ((c : Thread nD τ).loc main_arg7) from
    (W2_of_ne m ρ htok c main_arg7 (by decide)).trans ((keep0 _ main_arg7 (by decide)).trans rfl)]
theorem V4_v5 (c : Dev nD) : V4 m ρ htok c main_v5 = extractStridedSlice S1105 ![49152] (m ((c : Thread nD τ).loc main_arg8)) slices_S50257_S1105_49152 := by
  rw [show V4 m ρ htok c main_v5 = W3 m ρ htok c (Proc.devRef .tc main_v5) from W4_of_ne m ρ htok c main_v5 (by decide)]
  show StableHlo.after hostOps1 (W2 m ρ htok c) (Proc.devRef .tc main_v5) = _
  after_results
  rw [show W2 m ρ htok c (Proc.devRef .tc main_arg8) = m ((c : Thread nD τ).loc main_arg8) from
    (W2_of_ne m ρ htok c main_arg8 (by decide)).trans ((keep0 _ main_arg8 (by decide)).trans rfl)]

/-! ## The two results -/

/-- The second result: the hidden row with a unit axis added in front. -/
theorem W8_v10 (c : Dev nD) : W8 m ρ htok c (Proc.devRef .tc main_v10)
    = broadcastInDim S1x1x1024 ![1, 2] bcast_S1x1024_S1x1x1024_1_2 (hK m ρ htok c) := by
  show StableHlo.after hostOps3_2 (W7 m ρ htok c) (Proc.devRef .tc main_v10) = _
  after_results
  rw [show W5 m ρ htok c (Proc.devRef .tc main_v1) = hK m ρ htok c from V5_h m ρ htok c]

/-- The two projection results at the second call's and third call's exits. -/
theorem W5_v6 (c : Dev nD) : W5 m ρ htok c (Proc.devRef .tc main_v6)
    = linOut1 (hK m ρ htok c) (extractStridedSlice S49152x1024 ![0, 0] (m ((c : Thread nD τ).loc main_arg7)) slices_S50257x1024_S49152x1024_0_0)
        (extractStridedSlice S49152 ![0] (m ((c : Thread nD τ).loc main_arg8)) slices_S50257_S49152_0) := by
  rw [show W5 m ρ htok c (Proc.devRef .tc main_v6) = W4 m ρ htok c (Proc.devRef .tc main_v6) from W5_of_ne m ρ htok c main_v6 (by decide),
    show W4 m ρ htok c (Proc.devRef .tc main_v6) = _ from W4_arr m ρ htok c 3, arr1_final (V3 m ρ htok) c, V3_h, V3_v2, V3_v3]
theorem W5_v7 (c : Dev nD) : W5 m ρ htok c (Proc.devRef .tc main_v7)
    = linOut2 (hK m ρ htok c) (extractStridedSlice S1105x1024 ![49152, 0] (m ((c : Thread nD τ).loc main_arg7)) slices_S50257x1024_S1105x1024_49152_0)
        (extractStridedSlice S1105 ![49152] (m ((c : Thread nD τ).loc main_arg8)) slices_S50257_S1105_49152) := by
  rw [show W5 m ρ htok c (Proc.devRef .tc main_v7) = _ from W5_arr m ρ htok c 3, arr2_final (V4 m ρ htok) c, V4_h, V4_v4, V4_v5]

/-- The first result: the log-softmax chain of the concatenated projection results. -/
theorem W8_v9 (c : Dev nD) : W8 m ρ htok c (Proc.devRef .tc main_v9)
    = (lsK (F := Ideal) (catK (F := Ideal) (W5 m ρ htok c (Proc.devRef .tc main_v6) : FVec Ideal S1x49152 .f32) (W5 m ρ htok c (Proc.devRef .tc main_v7) : FVec Ideal S1x1105 .f32)) : FVec Ideal S1x50257 .f32) := by
  rw [show W8 m ρ htok c (Proc.devRef .tc main_v9) = W7 m ρ htok c (Proc.devRef .tc main_v9) from keep3_2 _ main_v9 (by decide)]
  have e8 : W6 m ρ htok c (Proc.devRef .tc main_v8) = (catK (F := Ideal) (W5 m ρ htok c (Proc.devRef .tc main_v6) : FVec Ideal S1x49152 .f32) (W5 m ρ htok c (Proc.devRef .tc main_v7) : FVec Ideal S1x1105 .f32) : FVec Ideal S1x50257 .f32) := by
    show StableHlo.after hostOps3 (W5 m ρ htok c) (Proc.devRef .tc main_v8) = _
    after_results
    rfl
  show StableHlo.after hostOps3_1 (W6 m ρ htok c) (Proc.devRef .tc main_v9) = _
  rw [ls_after, e8]

end Cert.KernelIdeal.Hand

end
-- ==== Proof.KI.GruValue.lean ====
/-
  The first pallas_call (the embedding lookup and the two GRU cells) at the extended reals: the value of its output
  array after the call.  The call has one grid point and every window's block is its whole array, at block index zero
  whatever the prefetched table holds.  The body reads the token word `tok` — the table's one word —, copies row `tok`
  of the embedding matrix [50257,1024] into its scratch row and loads it back: the row `embRow tok`, whose column `j` is
  the matrix at `(tok, j)`.  Its one store writes, over the whole output block, the two cells' result on that row and
  the five input blocks; the input blocks are the input arrays, and the output block is the output array, so the
  output array ends holding that result of the arrays as the call finds them, and the five input arrays are unchanged.
-/
import proofs.«416419_j79018808312087_1_alg».proof.Proof.KI.Gru0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

/-! ## Zero offsets, however spelt -/

theorem zeroOffs2_g : (![0, 0] : Fin 2 → Nat) = fun _ => 0 := funext fun a => by fin_cases a <;> rfl
theorem zeroOffs1_g : (![0] : Fin 1 → Nat) = fun _ => 0 := funext fun a => by fin_cases a <;> rfl

/-! ## The token word -/

/-- The scalar load reads the table's one word. -/
theorem tokWord_eq (c : Dev nD) (ft : HbBuf0 (F := Ideal) c tbM0) :
    tokWord (F := Ideal) c ft = (ft : IVec S1 32) (ix1 (0 : Fin 1)) := by
  unfold tokWord
  rw [View.readAt_apply, View.read_apply]
  show (ft : IVec S1 32) _ = (ft : IVec S1 32) _
  refine congrArg (ft : IVec S1 32) (funext fun a => Fin.ext ?_)
  have h1 := (ix1 (0 : Fin 1) a).isLt
  have h2 := ((tbM0.view.emb ((Rect.unit (s := S1) ![0] S1.size inb_S1_S1_0).toLoadRect.idx (Shape.Idx.first (numel1_S1.symm ▸ Nat.one_pos)))) a).isLt
  match a with
  | ⟨0, _⟩ => exact (Nat.lt_one_iff.mp h2).trans (Nat.lt_one_iff.mp h1).symm

/-! ## The looked-up row -/

theorem tokRow_lt (tok : BitVec 32) (htk : k0_chk1 tok) : tok.toNat < 50257 := by
  have h : tok.toNat + 1 ≤ 50257 := htk 0
  omega

/-- Row `tok` of the embedding matrix, as the transfer leaves it in the scratch row: the matrix read through the
    one-row slice at offset `(tok, 0)`. -/
def embRow (tok : BitVec 32) (htk : k0_chk1 tok) (fe : FVec Ideal S50257x1024 .f32) : FVec Ideal S1x1024 .f32 :=
  (hbM0.slice (Rect.unit (s := S50257x1024) (k0_off1 tok) S1x1024.size (k0_off1_inb tok htk)) (fun _ => rfl) : Memref sig .tc .hbm S1x1024 .f32).view.read (Elt Ideal) fe

/-- Column `j` of the looked-up row is the matrix at `(tok, j)`. -/
theorem embRow_apply (tok : BitVec 32) (htk : k0_chk1 tok) (fe : FVec Ideal S50257x1024 .f32) (j : Fin 1024) :
    embRow tok htk fe (ix2 (0 : Fin 1) j) = fe (ix2 (⟨tok.toNat, tokRow_lt tok htk⟩ : Fin 50257) j) := by
  unfold embRow
  rw [View.read_apply]
  show fe _ = fe _
  refine congrArg fe (funext fun a => Fin.ext ?_)
  match a with
  | ⟨0, _⟩ => show tok.toNat + 1 * 0 = tok.toNat; omega
  | ⟨1, _⟩ => show 0 + 1 * j.val = j.val; omega

/-! ## What the body's one store leaves in the output block -/

/-- The scratch row as the body loads it after the transfer has landed: the looked-up row. -/
theorem scratch_row_eq (c : Dev nD) (fe : HbBuf0 (F := Ideal) c hbM0) (ft : HbBuf0 (F := Ideal) c tbM0) (htok : k0_chk1 (tokWord c ft)) :
    kernelRun0.sl.v3 (F := Ideal) c fe ft htok = embRow (tokWord c ft) htok fe := by
  sl_unfold_run_names
  rw [View.readCov_eq_canon_ld _ _ _ (fun y => ⟨_, List.mem_singleton_self _, by
    show y ∈ (Rect.whole S1x1024).set; rw [Rect.set_whole]; exact Finset.mem_univ y⟩)]
  have hc : ∀ w : S1x1024.Idx → Elt Ideal .f32,
      View.canon [(⟨Rect.whole S1x1024, w⟩ : View.Piece (Elt Ideal) S1x1024 .f32)] = w := fun w => View.canon_unit_zero rfl _ w
  rw [hc, View.ld_unit_zero zeroOffs2_g]
  rfl

/-- The output block after the body, from the five input blocks, the matrix and the table: its one store, over the whole
    block, of the two cells' result on the looked-up row and the inputs. -/
theorem out0_5_eq (c : Dev nD) (i : grid0.Coords)
    (arg3 : Memref sig .tc .vmem S1x1024 .f32) (harg3 : arg3.IsWhole) (arg4 : Memref sig .tc .vmem S3072x1024 .f32) (harg4 : arg4.IsWhole)
    (arg5 : Memref sig .tc .vmem S3072x1024 .f32) (harg5 : arg5.IsWhole) (arg6 : Memref sig .tc .vmem S3072 .f32) (harg6 : arg6.IsWhole)
    (arg7 : Memref sig .tc .vmem S3072 .f32) (harg7 : arg7.IsWhole) (arg8 : Memref sig .tc .vmem S1x1024 .f32) (harg8 : arg8.IsWhole)
    (x0 : Vec Ideal S1x1024 .f32) (x1 x2 : Vec Ideal S3072x1024 .f32) (x3 x4 : Vec Ideal S3072 .f32)
    (fe : HbBuf0 (F := Ideal) c hbM0) (ft : HbBuf0 (F := Ideal) c tbM0) (htok : k0_chk1 (tokWord c ft)) :
    out0_5 (F := Ideal) c i arg3 harg3 arg4 harg4 arg5 harg5 arg6 harg6 arg7 harg7 arg8 harg8 x0 x1 x2 x3 x4 fe ft htok
      = k0_pay1 (F := Ideal) (k0_pay2 x0) (k0_pay3 x1) (k0_pay4 x2) (k0_pay5 x3) (k0_pay6 x4)
          (k0_pay9 (embRow (tokWord c ft) htok fe) x0 x1 x2 x3 x4)
          (k0_pay10 (embRow (tokWord c ft) htok fe) x0 x1 x2 x3 x4)
          (k0_pay11 (embRow (tokWord c ft) htok fe) x0 x1 x2 x3 x4) := by
  unfold out0_5
  rw [View.read_writes_eq_canon _ _ _ (cover0_5 c i arg3 harg3 arg4 harg4 arg5 harg5 arg6 harg6 arg7 harg7 arg8 harg8 x0 x1 x2 x3 x4 fe ft htok)]
  unfold kernelRun0
  dsimp only
  rw [View.canon_unit_zero zeroOffs2_g, scratch_row_eq]
  simp only [View.readAt_eq_ld, harg3.read_unread, harg4.read_unread, harg5.read_unread, harg6.read_unread, harg7.read_unread,
    View.ld_unit_zero (S := S1x1024) zeroOffs2_g, View.ld_unit_zero (S := S3072x1024) zeroOffs2_g, View.ld_unit_zero (S := S3072) zeroOffs1_g]

/-! ## The one grid point and the windows' blocks

The table's contents stay a variable `a0` throughout: no index map of this call reads the table. -/

variable (a0 : (pcfg0 (F := Ideal)).Adm)
variable (V : (c : Dev nD) → (b : Ref sig .tc) → Buf (Elt Ideal) ((c : Thread nD τ).loc b))
variable (htok : ∀ c : Dev nD, k0_chk1 (tokWord (F := Ideal) c (V c main_arg0)))

/-- The grid has one point, and at it every window's block index is zero on every axis. -/
theorem blockIdx0 (t : Fin (cfg0 a0).N) :
    t.val = 0 ∧ ∀ (w : Fin (cfg0 a0).W) (a : Fin ((cfg0 a0).win w).shape.rank), ((cfg0 a0).win w).index t a = 0 := by
  refine ⟨?_, fun w a => ?_⟩
  · have h : t.val < grid0.N := t.isLt
    rw [N_0] at h; omega
  · match w, a with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
    | ⟨3, _⟩, ⟨0, _⟩ => rfl
    | ⟨4, _⟩, ⟨0, _⟩ => rfl
    | ⟨5, _⟩, ⟨0, _⟩ => rfl
    | ⟨5, _⟩, ⟨1, _⟩ => rfl

theorem iblk0_0_eq (c : Dev nD) (t : Fin (cfg0 a0).N) :
    (iblk0 a0 V c 0 t : Vec Ideal S1x1024 .f32) = (V c main_v0 : Vec Ideal S1x1024 .f32) := by
  obtain ⟨-, e⟩ := blockIdx0 a0 t
  have e0 := e 0 (0 : Fin 2)
  have e1 := e 0 (1 : Fin 2)
  refine funext fun (y : S1x1024.Idx) => ?_
  show (V c main_v0 : Vec Ideal S1x1024 .f32) _ = (V c main_v0 : Vec Ideal S1x1024 .f32) y
  refine congrArg (V c main_v0 : Vec Ideal S1x1024 .f32) (funext fun a => Fin.ext ?_)
  match a with
  | ⟨0, _⟩ =>
    show ((cfg0 a0).win 0).index t (0 : Fin 2) * 1 + 1 * (y 0).val = (y 0).val
    omega
  | ⟨1, _⟩ =>
    show ((cfg0 a0).win 0).index t (1 : Fin 2) * 1024 + 1 * (y 1).val = (y 1).val
    omega

theorem iblk0_1_eq (c : Dev nD) (t : Fin (cfg0 a0).N) :
    (iblk0 a0 V c 1 t : Vec Ideal S3072x1024 .f32) = (V c main_arg3 : Vec Ideal S3072x1024 .f32) := by
  obtain ⟨-, e⟩ := blockIdx0 a0 t
  have e0 := e 1 (0 : Fin 2)
  have e1 := e 1 (1 : Fin 2)
  refine funext fun (y : S3072x1024.Idx) => ?_
  show (V c main_arg3 : Vec Ideal S3072x1024 .f32) _ = (V c main_arg3 : Vec Ideal S3072x1024 .f32) y
  refine congrArg (V c main_arg3 : Vec Ideal S3072x1024 .f32) (funext fun a => Fin.ext ?_)
  match a with
  | ⟨0, _⟩ =>
    show ((cfg0 a0).win 1).index t (0 : Fin 2) * 3072 + 1 * (y 0).val = (y 0).val
    omega
  | ⟨1, _⟩ =>
    show ((cfg0 a0).win 1).index t (1 : Fin 2) * 1024 + 1 * (y 1).val = (y 1).val
    omega

theorem iblk0_2_eq (c : Dev nD) (t : Fin (cfg0 a0).N) :
    (iblk0 a0 V c 2 t : Vec Ideal S3072x1024 .f32) = (V c main_arg4 : Vec Ideal S3072x1024 .f32) := by
  obtain ⟨-, e⟩ := blockIdx0 a0 t
  have e0 := e 2 (0 : Fin 2)
  have e1 := e 2 (1 : Fin 2)
  refine funext fun (y : S3072x1024.Idx) => ?_
  show (V c main_arg4 : Vec Ideal S3072x1024 .f32) _ = (V c main_arg4 : Vec Ideal S3072x1024 .f32) y
  refine congrArg (V c main_arg4 : Vec Ideal S3072x1024 .f32) (funext fun a => Fin.ext ?_)
  match a with
  | ⟨0, _⟩ =>
    show ((cfg0 a0).win 2).index t (0 : Fin 2) * 3072 + 1 * (y 0).val = (y 0).val
    omega
  | ⟨1, _⟩ =>
    show ((cfg0 a0).win 2).index t (1 : Fin 2) * 1024 + 1 * (y 1).val = (y 1).val
    omega

theorem iblk0_3_eq (c : Dev nD) (t : Fin (cfg0 a0).N) :
    (iblk0 a0 V c 3 t : Vec Ideal S3072 .f32) = (V c main_arg5 : Vec Ideal S3072 .f32) := by
  obtain ⟨-, e⟩ := blockIdx0 a0 t
  have e0 := e 3 (0 : Fin 1)
  refine funext fun (y : S3072.Idx) => ?_
  show (V c main_arg5 : Vec Ideal S3072 .f32) _ = (V c main_arg5 : Vec Ideal S3072 .f32) y
  refine congrArg (V c main_arg5 : Vec Ideal S3072 .f32) (funext fun a => Fin.ext ?_)
  match a with
  | ⟨0, _⟩ =>
    show ((cfg0 a0).win 3).index t (0 : Fin 1) * 3072 + 1 * (y 0).val = (y 0).val
    omega

theorem iblk0_4_eq (c : Dev nD) (t : Fin (cfg0 a0).N) :
    (iblk0 a0 V c 4 t : Vec Ideal S3072 .f32) = (V c main_arg6 : Vec Ideal S3072 .f32) := by
  obtain ⟨-, e⟩ := blockIdx0 a0 t
  have e0 := e 4 (0 : Fin 1)
  refine funext fun (y : S3072.Idx) => ?_
  show (V c main_arg6 : Vec Ideal S3072 .f32) _ = (V c main_arg6 : Vec Ideal S3072 .f32) y
  refine congrArg (V c main_arg6 : Vec Ideal S3072 .f32) (funext fun a => Fin.ext ?_)
  match a with
  | ⟨0, _⟩ =>
    show ((cfg0 a0).win 4).index t (0 : Fin 1) * 3072 + 1 * (y 0).val = (y 0).val
    omega

/-- The output window's block at the point is the whole output array: what the point writes back of a block's contents
    `G` is `G` read through the block. -/
theorem cut_eq_read_blk0_5 (t : Fin (cfg0 a0).N) (G : Vec Ideal S1x1024 .f32) :
    ((cfg0 a0).win 5).cut (grid0.coords t) G = (((cfg0 a0).win 5).blk t).view.read (Elt Ideal) G := by
  obtain ⟨-, e⟩ := blockIdx0 a0 t
  have e0 := e 5 (0 : Fin 2)
  have e1 := e 5 (1 : Fin 2)
  refine funext fun (j : S1x1024.Idx) => ?_
  show G _ = G _
  refine congrArg G (funext fun a => Fin.ext ?_)
  match a with
  | ⟨0, _⟩ =>
    show (j 0).val = ((cfg0 a0).win 5).index t (0 : Fin 2) * 1 + 1 * (j 0).val
    omega
  | ⟨1, _⟩ =>
    show (j 1).val = ((cfg0 a0).win 5).index t (1 : Fin 2) * 1024 + 1 * (j 1).val
    omega

/-- The output window is written back at the one point. -/
theorem flush0_5 (t : Fin (cfg0 a0).N) : ((cfg0 a0).win 5).flush t = true := by
  obtain ⟨e0, -⟩ := blockIdx0 a0 t
  have ht : t.val + 1 = grid0.N := by rw [N_0, e0]
  show (true && (decide (t.val + 1 = grid0.N) || _)) = true
  rw [decide_eq_true ht]; rfl

/-- Its block there covers the output array. -/
theorem blocks_cover0 (i : S1x1024.Idx) :
    ∃ t : Fin (cfg0 a0).N, ((cfg0 a0).win 5).flush t = true ∧ i ∈ (((cfg0 a0).win 5).blk t).view.set := by
  obtain ⟨t⟩ : Nonempty (Fin (cfg0 a0).N) := ⟨⟨0, lt_of_lt_of_eq Nat.one_pos N_0.symm⟩⟩
  obtain ⟨-, e⟩ := blockIdx0 a0 t
  have e0 := e 5 (0 : Fin 2)
  have e1 := e 5 (1 : Fin 2)
  have hi0 : (i 0).val < 1 := (i 0).isLt
  have hi1 : (i 1).val < 1024 := (i 1).isLt
  have hm : i ∈ (((cfg0 a0).win 5).rect t).set := Rect.mem_set_unit.mpr fun a => by
    match a with
    | ⟨0, _⟩ =>
      show ((cfg0 a0).win 5).index t (0 : Fin 2) * 1 ≤ (i 0).val ∧ (i 0).val < ((cfg0 a0).win 5).index t (0 : Fin 2) * 1 + 1
      omega
    | ⟨1, _⟩ =>
      show ((cfg0 a0).win 5).index t (1 : Fin 2) * 1024 ≤ (i 1).val ∧ (i 1).val < ((cfg0 a0).win 5).index t (1 : Fin 2) * 1024 + 1024
      omega
  exact ⟨t, flush0_5 a0 t, (congrArg (fun s => i ∈ s) (View.set_slice_whole main_v1 (((cfg0 a0).win 5).rect t))).mpr hm⟩

/-! ## The arrays after the call -/

/-- What the point writes back is the two cells' result on the looked-up row and the five input arrays as the call
    finds them, read through the output's block. -/
theorem flushed0_5_eq (c : Dev nD) (t : Fin (cfg0 a0).N) :
    (dat0 (F := Ideal) a0 V htok c).flushed 5 t
      = (((cfg0 a0).win 5).blk t).view.read (Elt Ideal)
        (k0_pay1 (F := Ideal) (k0_pay2 (V c main_v0)) (k0_pay3 (V c main_arg3)) (k0_pay4 (V c main_arg4)) (k0_pay5 (V c main_arg5)) (k0_pay6 (V c main_arg6))
          (k0_pay9 (embRow (tokWord c (V c main_arg0)) (htok c) (V c main_arg2)) (V c main_v0) (V c main_arg3) (V c main_arg4) (V c main_arg5) (V c main_arg6))
          (k0_pay10 (embRow (tokWord c (V c main_arg0)) (htok c) (V c main_arg2)) (V c main_v0) (V c main_arg3) (V c main_arg4) (V c main_arg5) (V c main_arg6))
          (k0_pay11 (embRow (tokWord c (V c main_arg0)) (htok c) (V c main_arg2)) (V c main_v0) (V c main_arg3) (V c main_arg4) (V c main_arg5) (V c main_arg6))) := by
  show ((cfg0 a0).win 5).cut (grid0.coords t) ((dat0 a0 V htok c).after 5 t) = _
  rw [after0_5]
  unfold outsAt0
  rw [out0_5_eq c (grid0.coords t) (ms0_0 a0 t) (hs0_0 a0 t) (ms0_1 a0 t) (hs0_1 a0 t) (ms0_2 a0 t) (hs0_2 a0 t) (ms0_3 a0 t) (hs0_3 a0 t)
    (ms0_4 a0 t) (hs0_4 a0 t) (ms0_5 a0 t) (hs0_5 a0 t) (iblk0 a0 V c 0 t) (iblk0 a0 V c 1 t) (iblk0 a0 V c 2 t) (iblk0 a0 V c 3 t) (iblk0 a0 V c 4 t)
    (V c main_arg2) (V c main_arg0) (htok c)]
  rw [iblk0_0_eq a0 V c t, iblk0_1_eq a0 V c t, iblk0_2_eq a0 V c t, iblk0_3_eq a0 V c t, iblk0_4_eq a0 V c t]
  exact cut_eq_read_blk0_5 a0 t _

/-- The output array after the call: the two cells' result on row `token` of the embedding matrix and the five input
    arrays as the call finds them. -/
theorem arr0_final (c : Dev nD) :
    (dat0 (F := Ideal) a0 V htok c).arrAt 5 (cfg0 a0).N
      = k0_pay1 (F := Ideal) (k0_pay2 (V c main_v0)) (k0_pay3 (V c main_arg3)) (k0_pay4 (V c main_arg4)) (k0_pay5 (V c main_arg5)) (k0_pay6 (V c main_arg6))
          (k0_pay9 (embRow (tokWord c (V c main_arg0)) (htok c) (V c main_arg2)) (V c main_v0) (V c main_arg3) (V c main_arg4) (V c main_arg5) (V c main_arg6))
          (k0_pay10 (embRow (tokWord c (V c main_arg0)) (htok c) (V c main_arg2)) (V c main_v0) (V c main_arg3) (V c main_arg4) (V c main_arg5) (V c main_arg6))
          (k0_pay11 (embRow (tokWord c (V c main_arg0)) (htok c) (V c main_arg2)) (V c main_v0) (V c main_arg3) (V c main_arg4) (V c main_arg5) (V c main_arg6)) :=
  (dat0 a0 V htok c).arrAt_eq_of_cover 5 _ (fun t _ => flushed0_5_eq a0 V htok c t) (blocks_cover0 a0)

/-- The input arrays are as the call found them. -/
theorem arr0_in0 (c : Dev nD) : (dat0 (F := Ideal) a0 V htok c).arrAt 0 (cfg0 a0).N = V c (Pipeline.arrRef spec0 0) :=
  ((dat0 a0 V htok c).arrAt_in 0 rfl _).trans (A_eq0 a0 V htok c 0)
theorem arr0_in1 (c : Dev nD) : (dat0 (F := Ideal) a0 V htok c).arrAt 1 (cfg0 a0).N = V c (Pipeline.arrRef spec0 1) :=
  ((dat0 a0 V htok c).arrAt_in 1 rfl _).trans (A_eq0 a0 V htok c 1)
theorem arr0_in2 (c : Dev nD) : (dat0 (F := Ideal) a0 V htok c).arrAt 2 (cfg0 a0).N = V c (Pipeline.arrRef spec0 2) :=
  ((dat0 a0 V htok c).arrAt_in 2 rfl _).trans (A_eq0 a0 V htok c 2)
theorem arr0_in3 (c : Dev nD) : (dat0 (F := Ideal) a0 V htok c).arrAt 3 (cfg0 a0).N = V c (Pipeline.arrRef spec0 3) :=
  ((dat0 a0 V htok c).arrAt_in 3 rfl _).trans (A_eq0 a0 V htok c 3)
theorem arr0_in4 (c : Dev nD) : (dat0 (F := Ideal) a0 V htok c).arrAt 4 (cfg0 a0).N = V c (Pipeline.arrRef spec0 4) :=
  ((dat0 a0 V htok c).arrAt_in 4 rfl _).trans (A_eq0 a0 V htok c 4)

end Cert.KernelIdeal.Hand

end
-- ==== Proof.RefDefs.lean ====
/-
  The reference computation at the ideal values, as functions of its argument arrays. With x = relu (row t of the
  embedding table) and h the incoming hidden state, one GRU cell (gate order r, z, n; the two weight matrices [3·1024, 1024],
  the two bias vectors [3·1024]) is
      gi = x · W_ihᵀ + b_ih,   gh = h · W_hhᵀ + b_hh                     (two [1, 3072] rows)
      r = σ (gi[0:1024] + gh[0:1024]),   z = σ (gi[1024:2048] + gh[1024:2048]),
      n = tanh (gi[2048:3072] + r · gh[2048:3072]),      h' = (1 − z) · n + z · h,
  σ y = 1 / (1 + e^(−y)) spelt as a quotient. The reference applies the cell twice with the same weights, the second
  time to (h', h'); the logits are h'' · W_outᵀ + b_out; its two results are the log-softmax of the logits along the
  row and h'' with a leading unit axis. Each definition below is written with the array operations the reference
  itself applies, in its order; the lemmas after them read the stages at one element over the extended reals: a matrix
  product as the sum over the 1024 contraction coordinates, a slice of the gate row at its offset, the quotient
  spelling of σ as the logistic function.
-/
import proofs.«416419_j79018808312087_1_alg».proof.Proof.Gen.ReferenceIdeal
import proofs.«416419_j79018808312087_1_alg».proof.Proof.RefRead
import Idealize.ShloMosaic.Lib.Pipeline.Value
import Idealize.ShloMosaic.Lib.ValueIdx
import Idealize.ShloMosaic.Lib.ValueIdxCoords
import Idealize.ShloMosaic.Lib.ValueLayout
import Idealize.ShloMosaic.Lib.IdealHost
import Idealize.ShloMosaic.Lib.StableHlo.Predicate
import Idealize.ShloMosaic.PureOps.Ideal.Laws

noncomputable section

open scoped BigOperators

namespace Cert.RefValue

open Cert.ReferenceIdeal Cert.ReferenceIdeal.Gen Idealize.ShloMosaic Idealize.ShloMosaic.ValueIdx

/-! ## The stages, array by array -/

/-- Row `tok` of the table as a [1, 1024] array, the row number clamped into the table (as a gather clamps its start
    index); for `tok.toNat < 50257` it is row `tok.toNat` itself (`row_apply`). -/
def row (tok : BitVec 32) (emb : FVec Ideal S50257x1024 .f32) : FVec Ideal S1x1024 .f32 :=
  fun i => emb (ix2 (⟨min tok.toNat 50256, by omega⟩ : Fin 50257) (i 1))

/-- The token: the one entry of the [1] array of 32-bit words. -/
def tokenOf (x0 : IVec S1 32) : BitVec 32 := x0 (ix1 (0 : Fin 1))

/-- `max x 0`, elementwise. -/
def relu (x : FVec Ideal S1x1024 .f32) : FVec Ideal S1x1024 .f32 :=
  maximumf x (broadcastInDim S1x1024 ![] bcast_S_S1x1024 (constant S_ .f32 0x00000000#32))

/-- The incoming hidden state [1, 1, 1024] without its leading axis. -/
def dropAxis (hid : FVec Ideal S1x1x1024 .f32) : FVec Ideal S1x1024 .f32 :=
  shapeCast S1x1024 hid shapeCasts_S1x1x1024_S1x1024

/-- The [1, 1024] array of ones (the word 0x3F800000 is the float 1). -/
def ones : FVec Ideal S1x1024 .f32 :=
  broadcastInDim S1x1024 ![] bcast_S_S1x1024 (constant S_ .f32 0x3F800000#32)

/-- The three gate pre-activations of one operand: `x · Wᵀ + b`, a [1, 3072] row. -/
def gates (x : FVec Ideal S1x1024 .f32) (w : FVec Ideal S3072x1024 .f32) (b : FVec Ideal S3072 .f32) :
    FVec Ideal S1x3072 .f32 :=
  addf (Host.dotGeneral dot_S1x1024_S1024x3072_S1x3072_1_0_0_1_n_n none x
      (transpose S1024x3072 [1, 0] w transposes_S3072x1024_S1024x3072_1_0))
    (broadcastInDim S1x3072 ![1] bcast_S3072_S1x3072_1 b)

/-- The r-gate's third of a gate row: columns 0 … 1023. -/
def sliceR (g : FVec Ideal S1x3072 .f32) : FVec Ideal S1x1024 .f32 :=
  extractStridedSlice S1x1024 ![0, 0] g slices_S1x3072_S1x1024_0_0
/-- The z-gate's third: columns 1024 … 2047. -/
def sliceZ (g : FVec Ideal S1x3072 .f32) : FVec Ideal S1x1024 .f32 :=
  extractStridedSlice S1x1024 ![0, 1024] g slices_S1x3072_S1x1024_0_1024
/-- The n-gate's third: columns 2048 … 3071. -/
def sliceN (g : FVec Ideal S1x3072 .f32) : FVec Ideal S1x1024 .f32 :=
  extractStridedSlice S1x1024 ![0, 2048] g slices_S1x3072_S1x1024_0_2048

/-- `1 / (1 + e^(−y))`, elementwise, spelt as the quotient. -/
def sigmoid (y : FVec Ideal S1x1024 .f32) : FVec Ideal S1x1024 .f32 :=
  Host.divf ones (addf ones (Host.exp (Host.negf y)))

/-- One GRU cell: the new hidden state from the input `x` and the hidden state `h`. -/
def gruCell (x h : FVec Ideal S1x1024 .f32) (wih whh : FVec Ideal S3072x1024 .f32) (bih bhh : FVec Ideal S3072 .f32) :
    FVec Ideal S1x1024 .f32 :=
  addf
    (mulf (subf ones (sigmoid (addf (sliceZ (gates x wih bih)) (sliceZ (gates h whh bhh)))))
      (Host.tanh (addf (sliceN (gates x wih bih))
        (mulf (sigmoid (addf (sliceR (gates x wih bih)) (sliceR (gates h whh bhh)))) (sliceN (gates h whh bhh))))))
    (mulf (sigmoid (addf (sliceZ (gates x wih bih)) (sliceZ (gates h whh bhh)))) h)

/-- The hidden state after the first cell, from the looked-up row and the incoming hidden state. -/
def hidden1 (tok : BitVec 32) (hid : FVec Ideal S1x1x1024 .f32) (emb : FVec Ideal S50257x1024 .f32)
    (wih whh : FVec Ideal S3072x1024 .f32) (bih bhh : FVec Ideal S3072 .f32) : FVec Ideal S1x1024 .f32 :=
  gruCell (relu (row tok emb)) (dropAxis hid) wih whh bih bhh

/-- The hidden state after the two cells: the second cell takes the first's result as input and as hidden state. -/
def hidden2 (tok : BitVec 32) (hid : FVec Ideal S1x1x1024 .f32) (emb : FVec Ideal S50257x1024 .f32)
    (wih whh : FVec Ideal S3072x1024 .f32) (bih bhh : FVec Ideal S3072 .f32) : FVec Ideal S1x1024 .f32 :=
  gruCell (hidden1 tok hid emb wih whh bih bhh) (hidden1 tok hid emb wih whh bih bhh) wih whh bih bhh

/-- The logits `h · W_outᵀ + b_out`, a [1, 50257] row. -/
def logits (h : FVec Ideal S1x1024 .f32) (wout : FVec Ideal S50257x1024 .f32) (bout : FVec Ideal S50257 .f32) :
    FVec Ideal S1x50257 .f32 :=
  addf (Host.dotGeneral dot_S1x1024_S1024x50257_S1x50257_1_0_0_1_n_n none h
      (transpose S1024x50257 [1, 0] wout transposes_S50257x1024_S1024x50257_1_0))
    (broadcastInDim S1x50257 ![1] bcast_S50257_S1x50257_1 bout)

/-- The log-softmax along the row: `(x − m) − log (∑ e^(x − m))` with `m` the row's maximum (taken from −∞), each of
    `m` and the logarithm broadcast back over the row. -/
def logSoftmax (x : FVec Ideal S1x50257 .f32) : FVec Ideal S1x50257 .f32 :=
  subf
    (subf x (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd
        (Host.exp (subf x (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x50257_S1_d1 h_S_))))))
        (constant S_ .f32 0x00000000#32) reducesTo_S1x50257_S1_d1 h_S_))))

/-- The hidden state with a leading unit axis: [1, 1024] as [1, 1, 1024]. -/
def addAxis (h : FVec Ideal S1x1024 .f32) : FVec Ideal S1x1x1024 .f32 :=
  broadcastInDim S1x1x1024 ![1, 2] bcast_S1x1024_S1x1x1024_1_2 h

/-! ## The stages at one element -/

/-- The word 0x3F800000 is the float 1. -/
theorem ofBits_one_f32 : Ideal.ofBits .f32 0x3F800000#32 = 1 := IdealRules.sign_bit.ideal_onePat .f32

/-- Every index of a [1, 1024] array is `(0, j)`. -/
theorem idx_S1x1024 (i : S1x1024.Idx) : ∃ j : Fin 1024, i = ix2 (0 : Fin 1) j := by
  refine ⟨i 1, funext fun a => ?_⟩
  match a with
  | ⟨0, _⟩ => exact Fin.ext (by have h : (i 0).val < 1 := (i 0).isLt; show (i 0).val = 0; omega)
  | ⟨1, _⟩ => rfl

/-- For a row number inside the table the clamp is idle: the row is the table's row `tok.toNat`. -/
theorem row_apply (tok : BitVec 32) (emb : FVec Ideal S50257x1024 .f32) (h : tok.toNat < 50257) (j : Fin 1024) :
    row tok emb (ix2 (0 : Fin 1) j) = emb (ix2 (⟨tok.toNat, h⟩ : Fin 50257) j) := by
  have e : (⟨min tok.toNat 50256, by omega⟩ : Fin 50257) = ⟨tok.toNat, h⟩ := Fin.ext (Nat.min_eq_left (by omega))
  show emb (ix2 (⟨min tok.toNat 50256, by omega⟩ : Fin 50257) j) = _
  rw [e]

theorem ones_apply (i : S1x1024.Idx) : ones i = 1 := by
  unfold ones
  rw [broadcastInDim_scalar_apply]
  exact ofBits_one_f32

theorem relu_apply (x : FVec Ideal S1x1024 .f32) (i : S1x1024.Idx) : relu x i = max (x i) 0 := by
  unfold relu
  show max (x i) _ = _
  rw [broadcastInDim_scalar_apply]
  show max (x i) (Ideal.ofBits .f32 0x00000000#32) = _
  rw [Ideal.ofBits_zero_f32]

theorem dropAxis_apply (hid : FVec Ideal S1x1x1024 .f32) (j : Fin 1024) :
    dropAxis hid (ix2 (0 : Fin 1) j) = hid (ix3 (0 : Fin 1) (0 : Fin 1) j) :=
  shapeCast_1ab_ab_apply hid shapeCasts_S1x1x1024_S1x1024 (0 : Fin 1) j

theorem addAxis_apply (h : FVec Ideal S1x1024 .f32) (j : Fin 1024) :
    addAxis h (ix3 (0 : Fin 1) (0 : Fin 1) j) = h (ix2 (0 : Fin 1) j) := by
  unfold addAxis
  exact broadcastInDim_apply _ bcast_S1x1024_S1x1x1024_1_2 h _ _ (fun a => match a with
    | ⟨0, _⟩ => by show 0 = if (1 : Nat) = 1 then 0 else _; rw [if_pos rfl]
    | ⟨1, _⟩ => by show j.val = if (1024 : Nat) = 1 then 0 else j.val; rw [if_neg (by decide)])

theorem sliceR_apply (g : FVec Ideal S1x3072 .f32) (j : Fin 1024) :
    sliceR g (ix2 (0 : Fin 1) j) = g (ix2 (0 : Fin 1) (⟨j.val, by omega⟩ : Fin 3072)) :=
  slice2_axis1_apply 0 g slices_S1x3072_S1x1024_0_0 (0 : Fin 1) j _ (Nat.zero_add _).symm
theorem sliceZ_apply (g : FVec Ideal S1x3072 .f32) (j : Fin 1024) :
    sliceZ g (ix2 (0 : Fin 1) j) = g (ix2 (0 : Fin 1) (⟨1024 + j.val, by omega⟩ : Fin 3072)) :=
  slice2_axis1_apply 1024 g slices_S1x3072_S1x1024_0_1024 (0 : Fin 1) j _ rfl
theorem sliceN_apply (g : FVec Ideal S1x3072 .f32) (j : Fin 1024) :
    sliceN g (ix2 (0 : Fin 1) j) = g (ix2 (0 : Fin 1) (⟨2048 + j.val, by omega⟩ : Fin 3072)) :=
  slice2_axis1_apply 2048 g slices_S1x3072_S1x1024_0_2048 (0 : Fin 1) j _ rfl

/-- The quotient spelling of σ is the logistic function, at every extended real. -/
theorem sigmoid_apply (y : FVec Ideal S1x1024 .f32) (i : S1x1024.Idx) : sigmoid y i = Ideal.logistic (y i) := by
  show Ideal.div (ones i) (ones i + Ideal.exp (-(y i))) = _
  rw [ones_apply]
  rfl

/-- The [1, 1024] × [1024, 3072] product at column `j`: the sum over the contraction coordinate. -/
theorem dot3072_apply (x : FVec Ideal S1x1024 .f32) (w : FVec Ideal S1024x3072 .f32) (j : Fin 3072) :
    Host.dotGeneral dot_S1x1024_S1024x3072_S1x3072_1_0_0_1_n_n none x w (ix2 (0 : Fin 1) j)
      = ∑ k : Fin 1024, x (ix2 (0 : Fin 1) k) * w (ix2 k j) := by
  simp only [Host.dotGeneral]
  rw [Ideal.dotGeneral_apply, ← Equiv.sum_comp (contrEquiv1 dot_S1x1024_S1024x3072_S1x3072_1_0_0_1_n_n 1024 rfl rfl).symm]
  refine Finset.sum_congr rfl fun k _ => ?_
  have hk := contrEquiv1_symm_val dot_S1x1024_S1024x3072_S1x3072_1_0_0_1_n_n 1024 rfl rfl k
  have el : dot_S1x1024_S1024x3072_S1x3072_1_0_0_1_n_n.lhsIdx (ix2 (0 : Fin 1) j)
      ((contrEquiv1 dot_S1x1024_S1024x3072_S1x3072_1_0_0_1_n_n 1024 rfl rfl).symm k) = ix2 (0 : Fin 1) k :=
    funext fun a => Fin.ext (by
      match a with
      | ⟨0, _⟩ => exact Cert.ReferenceIdeal.ReadP.lhs_main_v10_0 _ _
      | ⟨1, _⟩ => exact (Cert.ReferenceIdeal.ReadP.lhs_main_v10_1 _ _).trans hk)
  have er : dot_S1x1024_S1024x3072_S1x3072_1_0_0_1_n_n.rhsIdx (ix2 (0 : Fin 1) j)
      ((contrEquiv1 dot_S1x1024_S1024x3072_S1x3072_1_0_0_1_n_n 1024 rfl rfl).symm k) = ix2 k j :=
    funext fun a => Fin.ext (by
      match a with
      | ⟨0, _⟩ => exact (Cert.ReferenceIdeal.ReadP.rhs_main_v10_0 _ _).trans hk
      | ⟨1, _⟩ => exact Cert.ReferenceIdeal.ReadP.rhs_main_v10_1 _ _)
  rw [el, er]

/-- The [1, 1024] × [1024, 50257] product at column `v`. -/
theorem dot50257_apply (x : FVec Ideal S1x1024 .f32) (w : FVec Ideal S1024x50257 .f32) (v : Fin 50257) :
    Host.dotGeneral dot_S1x1024_S1024x50257_S1x50257_1_0_0_1_n_n none x w (ix2 (0 : Fin 1) v)
      = ∑ k : Fin 1024, x (ix2 (0 : Fin 1) k) * w (ix2 k v) := by
  simp only [Host.dotGeneral]
  rw [Ideal.dotGeneral_apply, ← Equiv.sum_comp (contrEquiv1 dot_S1x1024_S1024x50257_S1x50257_1_0_0_1_n_n 1024 rfl rfl).symm]
  refine Finset.sum_congr rfl fun k _ => ?_
  have hk := contrEquiv1_symm_val dot_S1x1024_S1024x50257_S1x50257_1_0_0_1_n_n 1024 rfl rfl k
  have el : dot_S1x1024_S1024x50257_S1x50257_1_0_0_1_n_n.lhsIdx (ix2 (0 : Fin 1) v)
      ((contrEquiv1 dot_S1x1024_S1024x50257_S1x50257_1_0_0_1_n_n 1024 rfl rfl).symm k) = ix2 (0 : Fin 1) k :=
    funext fun a => Fin.ext (by
      match a with
      | ⟨0, _⟩ => exact Cert.ReferenceIdeal.ReadP.lhs_main_v82_0 _ _
      | ⟨1, _⟩ => exact (Cert.ReferenceIdeal.ReadP.lhs_main_v82_1 _ _).trans hk)
  have er : dot_S1x1024_S1024x50257_S1x50257_1_0_0_1_n_n.rhsIdx (ix2 (0 : Fin 1) v)
      ((contrEquiv1 dot_S1x1024_S1024x50257_S1x50257_1_0_0_1_n_n 1024 rfl rfl).symm k) = ix2 k v :=
    funext fun a => Fin.ext (by
      match a with
      | ⟨0, _⟩ => exact (Cert.ReferenceIdeal.ReadP.rhs_main_v82_0 _ _).trans hk
      | ⟨1, _⟩ => exact Cert.ReferenceIdeal.ReadP.rhs_main_v82_1 _ _)
  rw [el, er]

/-- A gate pre-activation at column `j`: row `j` of the weight matrix against the operand, plus the bias. -/
theorem gates_apply (x : FVec Ideal S1x1024 .f32) (w : FVec Ideal S3072x1024 .f32) (b : FVec Ideal S3072 .f32) (j : Fin 3072) :
    gates x w b (ix2 (0 : Fin 1) j) = (∑ k : Fin 1024, x (ix2 (0 : Fin 1) k) * w (ix2 j k)) + b (ix1 j) := by
  unfold gates
  rw [addf_apply, dot3072_apply]
  congr 1
  · exact Finset.sum_congr rfl fun k _ => by rw [transpose_ix2_apply]
  · exact broadcastInDim_apply _ bcast_S3072_S1x3072_1 b _ _ (fun a => match a with
      | ⟨0, _⟩ => by show j.val = if (3072 : Nat) = 1 then 0 else j.val; rw [if_neg (by decide)])

/-- A logit: row `v` of the output matrix against the hidden state, plus the bias. -/
theorem logits_apply (h : FVec Ideal S1x1024 .f32) (wout : FVec Ideal S50257x1024 .f32) (bout : FVec Ideal S50257 .f32)
    (v : Fin 50257) :
    logits h wout bout (ix2 (0 : Fin 1) v) = (∑ k : Fin 1024, h (ix2 (0 : Fin 1) k) * wout (ix2 v k)) + bout (ix1 v) := by
  unfold logits
  rw [addf_apply, dot50257_apply]
  congr 1
  · exact Finset.sum_congr rfl fun k _ => by rw [transpose_ix2_apply]
  · exact broadcastInDim_apply _ bcast_S50257_S1x50257_1 bout _ _ (fun a => match a with
      | ⟨0, _⟩ => by show v.val = if (50257 : Nat) = 1 then 0 else v.val; rw [if_neg (by decide)])

theorem tanh_apply (y : FVec Ideal S1x1024 .f32) (i : S1x1024.Idx) : Host.tanh y i = Ideal.tanh (y i) := rfl

/-- One GRU cell at column `j`, over the extended reals: `(1 − z) · tanh (giₙ + r · ghₙ) + z · h` with
    `r = logistic (gi_r + gh_r)`, `z = logistic (gi_z + gh_z)`, the gate rows read at `j`, `1024 + j`, `2048 + j`. -/
theorem gruCell_apply (x h : FVec Ideal S1x1024 .f32) (wih whh : FVec Ideal S3072x1024 .f32) (bih bhh : FVec Ideal S3072 .f32)
    (j : Fin 1024) :
    gruCell x h wih whh bih bhh (ix2 (0 : Fin 1) j)
      = (1 - Ideal.logistic (gates x wih bih (ix2 (0 : Fin 1) (⟨1024 + j.val, by omega⟩ : Fin 3072)) + gates h whh bhh (ix2 (0 : Fin 1) (⟨1024 + j.val, by omega⟩ : Fin 3072))))
          * Ideal.tanh (gates x wih bih (ix2 (0 : Fin 1) (⟨2048 + j.val, by omega⟩ : Fin 3072))
              + Ideal.logistic (gates x wih bih (ix2 (0 : Fin 1) (⟨j.val, by omega⟩ : Fin 3072)) + gates h whh bhh (ix2 (0 : Fin 1) (⟨j.val, by omega⟩ : Fin 3072)))
                * gates h whh bhh (ix2 (0 : Fin 1) (⟨2048 + j.val, by omega⟩ : Fin 3072)))
        + Ideal.logistic (gates x wih bih (ix2 (0 : Fin 1) (⟨1024 + j.val, by omega⟩ : Fin 3072)) + gates h whh bhh (ix2 (0 : Fin 1) (⟨1024 + j.val, by omega⟩ : Fin 3072)))
          * h (ix2 (0 : Fin 1) j) := by
  unfold gruCell
  simp only [addf_apply, mulf_apply, subf_apply, tanh_apply, sigmoid_apply, ones_apply, sliceR_apply, sliceZ_apply, sliceN_apply]

/-! ## The row lookup

The reference reads the table through a gather whose one start index is the token word, wrapped first as a python
index (`t + 50257` where `t < 0` as a signed word). For a token inside the table the wrap is idle and the gather's own
clamp too: the gathered [1, 1024] array is row `t`. -/

local notation "GD" => gather_S50257x1024_S1x1_S1x1024_1_0_n_n_0_1_11024

/-- The row gather at `(0, j)`: the table at the start index (read signed, clamped into the table), column `j`. -/
theorem gather_row_apply (emb : FVec Ideal S50257x1024 .f32) (idx : IVec S1x1 32) (j : Fin 1024) :
    Host.gather GD emb idx (ix2 (0 : Fin 1) j)
      = emb (ix2 (⟨min (idx (ix2 (0 : Fin 1) (0 : Fin 1))).toInt.toNat 50256, by omega⟩ : Fin 50257) j) := by
  unfold Host.gather
  congr 1
  funext a
  refine Fin.ext ?_
  match a with
  | ⟨0, _⟩ =>
    show GatherDims.start GD (ix2 (0 : Fin 1) j) idx 0 + GatherDims.batchCoord GD (ix2 (0 : Fin 1) j) 0 + GatherDims.offCoord GD (ix2 (0 : Fin 1) j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap GD from List.mem_singleton.mpr rfl)]
    have hsi : GatherDims.siIdx GD (ix2 (0 : Fin 1) j) ⟨List.idxOf (0 : Fin 2) (GatherDims.startIndexMap GD),
        List.idxOf_lt_length_iff.2 (List.mem_singleton.mpr rfl)⟩ = ix2 (0 : Fin 1) (0 : Fin 1) := by
      funext b; refine Fin.ext ?_
      match b with
      | ⟨0, _⟩ => rfl
      | ⟨1, _⟩ => rfl
    rw [hsi]
    rfl
  | ⟨1, _⟩ =>
    show GatherDims.start GD (ix2 (0 : Fin 1) j) idx 1 + GatherDims.batchCoord GD (ix2 (0 : Fin 1) j) 1 + GatherDims.offCoord GD (ix2 (0 : Fin 1) j) 1 = j.val
    rw [GatherDims.batchCoord_eq_zero _ _ _ List.not_mem_nil]
    unfold GatherDims.start
    rw [dif_neg (show ¬ (1 : Fin 2) ∈ GatherDims.startIndexMap GD by decide)]
    unfold GatherDims.offCoord
    rw [dif_pos (show (1 : Fin 2) ∈ GatherDims.sKept GD by decide)]
    simp only [Nat.zero_add]
    rfl

/-- A token word inside the table is not negative as a signed word, so the wrapped index is the word itself, and
    the gathered array is the table's row. -/
theorem gather_token (emb : FVec Ideal S50257x1024 .f32) (x0 : IVec S1 32) (htok : (tokenOf x0).toNat < 50257) :
    Host.gather GD emb (broadcastInDim S1x1 ![0] bcast_S1_S1x1_0
        (select (cmpi .slt x0 (broadcastInDim S1 ![] bcast_S_S1 (constantI S_ 32 0#32)))
          (addi x0 (broadcastInDim S1 ![] bcast_S_S1 (constantI S_ 32 50257#32))) x0))
      = row (tokenOf x0) emb := by
  have htok' : (x0 (ix1 (0 : Fin 1))).toNat < 50257 := htok
  funext i
  obtain ⟨j, rfl⟩ := idx_S1x1024 i
  rw [gather_row_apply]
  have hb : (broadcastInDim S1x1 ![0] bcast_S1_S1x1_0
        (select (cmpi .slt x0 (broadcastInDim S1 ![] bcast_S_S1 (constantI S_ 32 0#32)))
          (addi x0 (broadcastInDim S1 ![] bcast_S_S1 (constantI S_ 32 50257#32))) x0)) (ix2 (0 : Fin 1) (0 : Fin 1))
      = x0 (ix1 (0 : Fin 1)) := by
    rw [broadcastInDim_apply _ bcast_S1_S1x1_0 _ _ (ix1 (0 : Fin 1)) (fun a => match a with
      | ⟨0, _⟩ => by show 0 = if (1 : Nat) = 1 then 0 else _; rw [if_pos rfl])]
    show Scalar.select (IntOp.cmpi .slt (x0 (ix1 (0 : Fin 1))) _) _ (x0 (ix1 (0 : Fin 1))) = _
    rw [broadcastInDim_scalar_apply]
    show Scalar.select (IntOp.cmpi .slt (x0 (ix1 (0 : Fin 1))) 0#32) _ (x0 (ix1 (0 : Fin 1))) = _
    have hn : ¬ IntOp.cmpi .slt (x0 (ix1 (0 : Fin 1))) 0#32 = 1#1 := fun h =>
      absurd ((Idealize.ShloMosaic.StableHlo.Predicate.slt_iff_toNat (by omega) (by decide)).mp h) (by simp)
    rw [eq_zero_of_ne_one hn, select_zero]
  show emb (ix2 _ j) = emb (ix2 (⟨min (x0 (ix1 (0 : Fin 1))).toNat 50256, by omega⟩ : Fin 50257) j)
  refine congrArg emb (congrArg (fun a : Fin 50257 => ix2 a j) (Fin.ext ?_))
  show min (BitVec.toInt _).toNat 50256 = min (x0 (ix1 (0 : Fin 1))).toNat 50256
  rw [hb, Idealize.ShloMosaic.StableHlo.Predicate.toInt_eq_toNat_of_lt (by omega), Int.toNat_natCast]

/-! ## The log-softmax stays closed

Both programs apply the same log-softmax to their logits, so a proof never needs its body: from here on it unfolds
only through `logSoftmax_def`. -/

theorem logSoftmax_def (x : FVec Ideal S1x50257 .f32) :
    logSoftmax x =
      subf
        (subf x (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x50257_S1_d1 h_S_)))))
        (broadcastInDim S1x50257 ![0, 1] bcast_S1x1_S1x50257_0_1 (Host.log (broadcastInDim S1x1 ![0] bcast_S1_S1x1_0
          (Host.reduceAdd
            (Host.exp (subf x (broadcastInDim S1x50257 ![0, 1] bcast_S1x1_S1x50257_0_1 (broadcastInDim S1x1 ![0] bcast_S1_S1x1_0
              (maximumf (broadcastInDim S1 ![] bcast_S_S1 (constant S_ .f32 0xFF800000#32))
                (Host.reduce FloatOps.maximumf x (constant S_ .f32 0xFF800000#32) reducesTo_S1x50257_S1_d1 h_S_))))))
            (constant S_ .f32 0x00000000#32) reducesTo_S1x50257_S1_d1 h_S_)))) := rfl

attribute [irreducible] logSoftmax

end Cert.RefValue

end
-- ==== Proof.KI.GruBridge.lean ====
/-
  The first call's stored value against the reference's two GRU cells, at the extended reals.

  One cell, with gate rows gi, gh [1,3072] and hidden row h [1,1024], is
      (1 − σ(gi_z + gh_z)) · tanh(gi_n + σ(gi_r + gh_r) · gh_n) + σ(gi_z + gh_z) · h,
  the thirds r, z, n of a gate row being its columns 0…1023, 1024…2047, 2048…3071.  The kernel computes a gate row as
  the matrix product of the operand with the transposed weight matrix into the zero accumulator, plus the bias viewed
  [1,3072]; at a column that is the sum over the 1024 contraction coordinates of operand times weight row, plus the
  bias entry — the reference's gate row.  The kernel's first part returns z, n and 1 − z of the first cell, the stored
  payload finishes the first cell and runs the second on its result with the same weights; the reference does the
  same with the same grouping of every product and sum, so the two agree term by term.
-/
import proofs.«416419_j79018808312087_1_alg».proof.Proof.Gen.KernelIdeal.Skeleton
import proofs.«416419_j79018808312087_1_alg».proof.Proof.RefDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The kernel's gate row -/

/-- A gate row as the kernel computes it: the operand (its format changed) times the transposed weight matrix into the
    zero accumulator, plus the bias row. -/
def gateRowK (x : FVec Ideal S1x1024 .f32) (Wb : FVec Ideal S3072x1024 .bf16) (bc : FVec Ideal S1x3072 .f32) : FVec Ideal S1x3072 .f32 :=
  addf (matmul dot_S1x1024_S1024x3072_S1x3072_1_0_0_1_n_n none (truncf .bf16 x bitsLt_bf16_f32)
      (transpose S1024x3072 [1, 0] Wb transposes_S3072x1024_p1_0_S1024x3072) (constant S1x3072 .f32 0x00000000#32)) bc

theorem lhsG_0 (i : S1x3072.Idx) (q : dot_S1x1024_S1024x3072_S1x3072_1_0_0_1_n_n.contr.Idx) :
    (dot_S1x1024_S1024x3072_S1x3072_1_0_0_1_n_n.lhsIdx i q 0).val = (i 0).val := by
  unfold DotDims.lhsIdx
  rw [dif_neg (show ¬(0 : Fin S1x1024.rank) ∈ dot_S1x1024_S1024x3072_S1x3072_1_0_0_1_n_n.lhsBatch by decide), dif_pos (show (0 : Fin S1x1024.rank) ∈ dot_S1x1024_S1024x3072_S1x3072_1_0_0_1_n_n.lhsNonContracting by decide)]
  rfl
theorem lhsG_1 (i : S1x3072.Idx) (q : dot_S1x1024_S1024x3072_S1x3072_1_0_0_1_n_n.contr.Idx) :
    (dot_S1x1024_S1024x3072_S1x3072_1_0_0_1_n_n.lhsIdx i q 1).val = (q ⟨0, by decide⟩).val :=
  dot_S1x1024_S1024x3072_S1x3072_1_0_0_1_n_n.lhsIdx_val_of_single rfl i q
theorem rhsG_0 (i : S1x3072.Idx) (q : dot_S1x1024_S1024x3072_S1x3072_1_0_0_1_n_n.contr.Idx) :
    (dot_S1x1024_S1024x3072_S1x3072_1_0_0_1_n_n.rhsIdx i q 0).val = (q ⟨0, by decide⟩).val :=
  dot_S1x1024_S1024x3072_S1x3072_1_0_0_1_n_n.rhsIdx_val_of_single rfl i q
theorem rhsG_1 (i : S1x3072.Idx) (q : dot_S1x1024_S1024x3072_S1x3072_1_0_0_1_n_n.contr.Idx) :
    (dot_S1x1024_S1024x3072_S1x3072_1_0_0_1_n_n.rhsIdx i q 1).val = (i 1).val := by
  unfold DotDims.rhsIdx
  rw [dif_neg (show ¬(1 : Fin S1024x3072.rank) ∈ dot_S1x1024_S1024x3072_S1x3072_1_0_0_1_n_n.rhsBatch by decide), dif_pos (show (1 : Fin S1024x3072.rank) ∈ dot_S1x1024_S1024x3072_S1x3072_1_0_0_1_n_n.rhsNonContracting by decide)]
  rfl

/-- The [1,1024] × [1024,3072] product into the zero accumulator, at column `j`: the sum over the contracted axis. -/
theorem matmulG_apply (l : FVec Ideal S1x1024 .bf16) (r : FVec Ideal S1024x3072 .bf16) (j : Fin 3072) :
    matmul dot_S1x1024_S1024x3072_S1x3072_1_0_0_1_n_n none l r (constant (F := Ideal) S1x3072 .f32 0x00000000#32) (ix2 (0 : Fin 1) j)
      = ∑ k : Fin 1024, l (ix2 (0 : Fin 1) k) * r (ix2 k j) := by
  refine (Ideal.matmul_constant_zero_apply dot_S1x1024_S1024x3072_S1x3072_1_0_0_1_n_n none l r (ix2 (0 : Fin 1) j)).trans ?_
  rw [← Equiv.sum_comp (contrEquiv1 dot_S1x1024_S1024x3072_S1x3072_1_0_0_1_n_n 1024 rfl rfl).symm]
  refine Finset.sum_congr rfl fun k _ => ?_
  have hk := contrEquiv1_symm_val dot_S1x1024_S1024x3072_S1x3072_1_0_0_1_n_n 1024 rfl rfl k
  have el : dot_S1x1024_S1024x3072_S1x3072_1_0_0_1_n_n.lhsIdx (ix2 (0 : Fin 1) j) ((contrEquiv1 dot_S1x1024_S1024x3072_S1x3072_1_0_0_1_n_n 1024 rfl rfl).symm k) = ix2 (0 : Fin 1) k := funext fun a => Fin.ext (by
    match a with
    | ⟨0, _⟩ => exact lhsG_0 _ _
    | ⟨1, _⟩ => exact (lhsG_1 _ _).trans hk)
  have er : dot_S1x1024_S1024x3072_S1x3072_1_0_0_1_n_n.rhsIdx (ix2 (0 : Fin 1) j) ((contrEquiv1 dot_S1x1024_S1024x3072_S1x3072_1_0_0_1_n_n 1024 rfl rfl).symm k) = ix2 k j := funext fun a => Fin.ext (by
    match a with
    | ⟨0, _⟩ => exact (rhsG_0 _ _).trans hk
    | ⟨1, _⟩ => exact rhsG_1 _ _)
  rw [el, er]

/-- The kernel's gate row at column `j`. -/
theorem gateRowK_apply (x : FVec Ideal S1x1024 .f32) (Wb : FVec Ideal S3072x1024 .bf16) (bc : FVec Ideal S1x3072 .f32) (j : Fin 3072) :
    gateRowK x Wb bc (ix2 (0 : Fin 1) j) = (∑ k : Fin 1024, x (ix2 (0 : Fin 1) k) * Wb (ix2 j k)) + bc (ix2 (0 : Fin 1) j) := by
  unfold gateRowK
  rw [addf_apply, matmulG_apply]
  congr 1
  refine Finset.sum_congr rfl fun k _ => ?_
  rw [truncf_apply, transpose_ix2_apply]

/-- Every index of a [1, 3072] row is `(0, j)`. -/
theorem idx_gateRow (i : S1x3072.Idx) : ∃ j : Fin 3072, i = ix2 (0 : Fin 1) j := by
  refine ⟨i 1, funext fun a => ?_⟩
  match a with
  | ⟨0, _⟩ => exact Fin.ext (by have h : (i 0).val < 1 := (i 0).isLt; show (i 0).val = 0; omega)
  | ⟨1, _⟩ => rfl

/-- The kernel's gate row of an operand, a weight matrix (its format changed) and a bias (viewed [1,3072]) is the
    reference's gate row. -/
theorem gateRowK_eq_gates (x : FVec Ideal S1x1024 .f32) (W : Vec Ideal S3072x1024 .f32) (b : Vec Ideal S3072 .f32) :
    gateRowK x (k0_pay3 (F := Ideal) W) (k0_pay5 (F := Ideal) b) = Cert.RefValue.gates x W b := by
  funext i
  obtain ⟨j, rfl⟩ := idx_gateRow i
  rw [gateRowK_apply, Cert.RefValue.gates_apply]
  congr 1
  exact shapeCast_a_1a_apply b shapeCasts_S3072_S1x3072 (0 : Fin 1) j
theorem gateRowK_eq_gates' (x : FVec Ideal S1x1024 .f32) (W : Vec Ideal S3072x1024 .f32) (b : Vec Ideal S3072 .f32) :
    gateRowK x (k0_pay4 (F := Ideal) W) (k0_pay6 (F := Ideal) b) = Cert.RefValue.gates x W b :=
  gateRowK_eq_gates x W b

/-! ## One cell from its gate rows -/

/-- One cell from its two gate rows and the hidden row, with the kernel's operations in the kernel's grouping. -/
def cellK (gi gh : FVec Ideal S1x3072 .f32) (h : FVec Ideal S1x1024 .f32) : FVec Ideal S1x1024 .f32 :=
  addf
    (mulf (subf (broadcast S1x1024 (Scalar.ofBits (F := Ideal) .f32 0x3F800000#32))
        (logistic (addf (extractStridedSlice S1x1024 ![0, 1024] gi slices_S1x3072_o0_1024_S1x1024)
          (extractStridedSlice S1x1024 ![0, 1024] gh slices_S1x3072_o0_1024_S1x1024))))
      (tanh (addf (extractStridedSlice S1x1024 ![0, 2048] gi slices_S1x3072_o0_2048_S1x1024)
        (mulf (logistic (addf (extractStridedSlice S1x1024 ![0, 0] gi slices_S1x3072_o0_0_S1x1024)
            (extractStridedSlice S1x1024 ![0, 0] gh slices_S1x3072_o0_0_S1x1024)))
          (extractStridedSlice S1x1024 ![0, 2048] gh slices_S1x3072_o0_2048_S1x1024)))))
    (mulf (logistic (addf (extractStridedSlice S1x1024 ![0, 1024] gi slices_S1x3072_o0_1024_S1x1024)
        (extractStridedSlice S1x1024 ![0, 1024] gh slices_S1x3072_o0_1024_S1x1024))) h)

theorem sliceK_r_apply (g : FVec Ideal S1x3072 .f32) (j : Fin 1024) :
    extractStridedSlice S1x1024 ![0, 0] g slices_S1x3072_o0_0_S1x1024 (ix2 (0 : Fin 1) j) = g (ix2 (0 : Fin 1) (⟨j.val, by omega⟩ : Fin 3072)) :=
  slice2_axis1_apply 0 g slices_S1x3072_o0_0_S1x1024 (0 : Fin 1) j _ (Nat.zero_add _).symm
theorem sliceK_z_apply (g : FVec Ideal S1x3072 .f32) (j : Fin 1024) :
    extractStridedSlice S1x1024 ![0, 1024] g slices_S1x3072_o0_1024_S1x1024 (ix2 (0 : Fin 1) j) = g (ix2 (0 : Fin 1) (⟨1024 + j.val, by omega⟩ : Fin 3072)) :=
  slice2_axis1_apply 1024 g slices_S1x3072_o0_1024_S1x1024 (0 : Fin 1) j _ rfl
theorem sliceK_n_apply (g : FVec Ideal S1x3072 .f32) (j : Fin 1024) :
    extractStridedSlice S1x1024 ![0, 2048] g slices_S1x3072_o0_2048_S1x1024 (ix2 (0 : Fin 1) j) = g (ix2 (0 : Fin 1) (⟨2048 + j.val, by omega⟩ : Fin 3072)) :=
  slice2_axis1_apply 2048 g slices_S1x3072_o0_2048_S1x1024 (0 : Fin 1) j _ rfl

theorem logisticK_apply (y : FVec Ideal S1x1024 .f32) (i : S1x1024.Idx) : logistic y i = Ideal.logistic (y i) := rfl
theorem tanhK_apply (y : FVec Ideal S1x1024 .f32) (i : S1x1024.Idx) : tanh y i = Ideal.tanh (y i) := rfl
theorem oneK_apply (i : S1x1024.Idx) : broadcast S1x1024 (Scalar.ofBits (F := Ideal) .f32 0x3F800000#32) i = 1 :=
  Cert.RefValue.ofBits_one_f32

/-- The cell at column `j`. -/
theorem cellK_apply (gi gh : FVec Ideal S1x3072 .f32) (h : FVec Ideal S1x1024 .f32) (j : Fin 1024) :
    cellK gi gh h (ix2 (0 : Fin 1) j)
      = (1 - Ideal.logistic (gi (ix2 (0 : Fin 1) (⟨1024 + j.val, by omega⟩ : Fin 3072)) + gh (ix2 (0 : Fin 1) (⟨1024 + j.val, by omega⟩ : Fin 3072))))
          * Ideal.tanh (gi (ix2 (0 : Fin 1) (⟨2048 + j.val, by omega⟩ : Fin 3072))
              + Ideal.logistic (gi (ix2 (0 : Fin 1) (⟨j.val, by omega⟩ : Fin 3072)) + gh (ix2 (0 : Fin 1) (⟨j.val, by omega⟩ : Fin 3072)))
                * gh (ix2 (0 : Fin 1) (⟨2048 + j.val, by omega⟩ : Fin 3072)))
        + Ideal.logistic (gi (ix2 (0 : Fin 1) (⟨1024 + j.val, by omega⟩ : Fin 3072)) + gh (ix2 (0 : Fin 1) (⟨1024 + j.val, by omega⟩ : Fin 3072)))
          * h (ix2 (0 : Fin 1) j) := by
  unfold cellK
  simp only [addf_apply, mulf_apply, subf_apply, logisticK_apply, tanhK_apply, oneK_apply, sliceK_r_apply, sliceK_z_apply, sliceK_n_apply]

/-- The cell over the reference's gate rows is the reference's cell. -/
theorem cellK_gates (x h : FVec Ideal S1x1024 .f32) (wih whh : FVec Ideal S3072x1024 .f32) (bih bhh : FVec Ideal S3072 .f32) :
    cellK (Cert.RefValue.gates x wih bih) (Cert.RefValue.gates h whh bhh) h = Cert.RefValue.gruCell x h wih whh bih bhh := by
  funext i
  obtain ⟨j, rfl⟩ := Cert.RefValue.idx_S1x1024 i
  rw [cellK_apply, Cert.RefValue.gruCell_apply]

/-! ## The kernel's payloads as cells -/

/-- The first part's three results make the first cell: `(1 − z) · n + z · h` over the kernel's two gate rows. -/
theorem firstCellK (r x0 : Vec Ideal S1x1024 .f32) (x1 x2 : Vec Ideal S3072x1024 .f32) (x3 x4 : Vec Ideal S3072 .f32) :
    addf (mulf (k0_pay11 (F := Ideal) r x0 x1 x2 x3 x4) (k0_pay10 (F := Ideal) r x0 x1 x2 x3 x4)) (mulf (k0_pay9 (F := Ideal) r x0 x1 x2 x3 x4) (k0_pay2 (F := Ideal) x0))
      = cellK (gateRowK (maximumf r (broadcast S1x1024 (Scalar.ofBits (F := Ideal) .f32 0x00000000#32))) (k0_pay3 (F := Ideal) x1) (k0_pay5 (F := Ideal) x3))
          (gateRowK (k0_pay2 (F := Ideal) x0) (k0_pay4 (F := Ideal) x2) (k0_pay6 (F := Ideal) x4)) (k0_pay2 (F := Ideal) x0) := rfl

/-- The stored payload finishes the first cell (`h₁ = (1 − z) · n + z · h` from the first part's results) and is the
    second cell on `(h₁, h₁)` over the kernel's gate rows with the same weights and biases. -/
theorem secondCellK (v7 : FVec Ideal S1x1024 .f32) (v9 v11 : FVec Ideal S3072x1024 .bf16) (v13 v15 : FVec Ideal S1x3072 .f32)
    (v33 v36 v38 : FVec Ideal S1x1024 .f32) :
    k0_pay1 (F := Ideal) v7 v9 v11 v13 v15 v33 v36 v38
      = cellK (gateRowK (addf (mulf v38 v36) (mulf v33 v7)) v9 v13) (gateRowK (addf (mulf v38 v36) (mulf v33 v7)) v11 v15)
          (addf (mulf v38 v36) (mulf v33 v7)) := rfl

/-- The kernel's `max r 0` is the reference's. -/
theorem reluK (r : FVec Ideal S1x1024 .f32) :
    maximumf r (broadcast S1x1024 (Scalar.ofBits (F := Ideal) .f32 0x00000000#32)) = Cert.RefValue.relu r := by
  funext i
  rw [Cert.RefValue.relu_apply]
  show max (r i) (Ideal.ofBits .f32 0x00000000#32) = _
  rw [Ideal.ofBits_zero_f32]

/-- The hidden row viewed in its own shape is the hidden row. -/
theorem hiddenK (x0 : Vec Ideal S1x1024 .f32) : k0_pay2 (F := Ideal) x0 = x0 := by
  unfold k0_pay2
  exact shapeCast_self x0 shapeCasts_S1x1024_S1x1024

/-! ## The stored value is the reference's two cells -/

/-- The value the first call stores, from the looked-up embedding row `r` (before the `max · 0`), the hidden row `x0`, the
    two weight matrices and the two biases. -/
def gruK (r x0 : FVec Ideal S1x1024 .f32) (x1 x2 : FVec Ideal S3072x1024 .f32) (x3 x4 : FVec Ideal S3072 .f32) : FVec Ideal S1x1024 .f32 :=
  k0_pay1 (F := Ideal) (k0_pay2 x0) (k0_pay3 x1) (k0_pay4 x2) (k0_pay5 x3) (k0_pay6 x4) (k0_pay9 r x0 x1 x2 x3 x4) (k0_pay10 r x0 x1 x2 x3 x4) (k0_pay11 r x0 x1 x2 x3 x4)

/-- The first cell of the kernel is the reference's first cell. -/
theorem firstCellK_eq (r x0 : FVec Ideal S1x1024 .f32) (x1 x2 : FVec Ideal S3072x1024 .f32) (x3 x4 : FVec Ideal S3072 .f32) :
    addf (mulf (k0_pay11 (F := Ideal) r x0 x1 x2 x3 x4) (k0_pay10 (F := Ideal) r x0 x1 x2 x3 x4)) (mulf (k0_pay9 (F := Ideal) r x0 x1 x2 x3 x4) (k0_pay2 (F := Ideal) x0))
      = Cert.RefValue.gruCell (Cert.RefValue.relu r) x0 x1 x2 x3 x4 := by
  rw [firstCellK, reluK, hiddenK, gateRowK_eq_gates, gateRowK_eq_gates', cellK_gates]

theorem gruK_eq (r x0 : FVec Ideal S1x1024 .f32) (x1 x2 : FVec Ideal S3072x1024 .f32) (x3 x4 : FVec Ideal S3072 .f32) :
    gruK r x0 x1 x2 x3 x4
      = Cert.RefValue.gruCell (Cert.RefValue.gruCell (Cert.RefValue.relu r) x0 x1 x2 x3 x4)
          (Cert.RefValue.gruCell (Cert.RefValue.relu r) x0 x1 x2 x3 x4) x1 x2 x3 x4 := by
  unfold gruK
  rw [secondCellK, firstCellK_eq, gateRowK_eq_gates, gateRowK_eq_gates', cellK_gates]

end Cert.KernelIdeal.Hand

end
-- ==== Proof.KI.LogitsBridge.lean ====
/-
  The output projection, tiled against whole.  The kernel cuts the projection matrix [50257, 1024] and the bias [50257]
  into rows [0, 49152) and [49152, 50257), projects the hidden row through each cut, and lays the two result rows
  [1, 49152] and [1, 1105] end to end along the columns.  The reference projects through the whole matrix once.  At
  column `v` the laid-out row reads its first piece at `v` when `v < 49152` and its second piece at `v - 49152`
  otherwise; a cut from row `o` reads, at row `q`, the source at row `o + q`; so both sides are the same sum
  `∑ₖ h[0,k] · W[v,k] + b[v]`, and no finiteness is needed.
-/
import proofs.«416419_j79018808312087_1_alg».proof.Proof.KI.LinValue
import proofs.«416419_j79018808312087_1_alg».proof.Proof.KI.LinValue2
import proofs.«416419_j79018808312087_1_alg».proof.Proof.RefDefs
import proofs.«416419_j79018808312087_1_alg».proof.Proof.Gen.KernelIdeal.Launch
import Idealize.ShloMosaic.Lib.Pipeline.Value
import Idealize.ShloMosaic.Lib.ValueIdx
import Idealize.ShloMosaic.Lib.ValueLayout

noncomputable section

open scoped BigOperators

namespace Cert.KernelIdeal.Hand

open Cert.KernelIdeal Cert.KernelIdeal.Gen Idealize.ShloMosaic ValueIdx

/-! ## A vector cut read at an index -/

/-- A vector cut from `o` reads, at `j`, the source at `k` with `k = o + j`. -/
theorem slice1_axis0_apply {α : Type} {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## The kernel's logits: two projections laid end to end -/

/-- The kernel's logits row [1, 50257]: the projection through rows [0, 49152) of the matrix and bias, then the
    projection through rows [49152, 50257), concatenated along the columns. -/
def logitsK (h : FVec Ideal S1x1024 .f32) (wout : FVec Ideal S50257x1024 .f32) (bout : FVec Ideal S50257 .f32) : FVec Ideal S1x50257 .f32 :=
  concatenate S1x50257 1 [⟨S1x49152, linOut1 h (extractStridedSlice S49152x1024 ![0, 0] wout slices_S50257x1024_S49152x1024_0_0) (extractStridedSlice S49152 ![0] bout slices_S50257_S49152_0)⟩,
                          ⟨S1x1105, linOut2 h (extractStridedSlice S1105x1024 ![49152, 0] wout slices_S50257x1024_S1105x1024_49152_0) (extractStridedSlice S1105 ![49152] bout slices_S50257_S1105_49152)⟩] concatenates_S1x49152_S1x1105_S1x50257_d1

/-- A column below 49152 lies in the first piece, at the same column. -/
theorem logitsK_left (h : FVec Ideal S1x1024 .f32) (wout : FVec Ideal S50257x1024 .f32) (bout : FVec Ideal S50257 .f32)
    (v : Fin 50257) (hv : v.val < 49152) :
    logitsK h wout bout (ix2 (0 : Fin 1) v)
      = linOut1 h (extractStridedSlice S49152x1024 ![0, 0] wout slices_S50257x1024_S49152x1024_0_0) (extractStridedSlice S49152 ![0] bout slices_S50257_S49152_0)
          (ix2 (0 : Fin 1) (⟨v.val, hv⟩ : Fin 49152)) :=
  concatenate_pair_apply_left 1 _ _ concatenates_S1x49152_S1x1105_S1x50257_d1 (ix2 (0 : Fin 1) v) rfl
    (ix2 (0 : Fin 1) (⟨v.val, hv⟩ : Fin 49152)) (fun b => match b with
      | ⟨0, _⟩ => rfl
      | ⟨1, _⟩ => rfl)

/-- A column from 49152 on lies in the second piece, 49152 columns earlier. -/
theorem logitsK_right (h : FVec Ideal S1x1024 .f32) (wout : FVec Ideal S50257x1024 .f32) (bout : FVec Ideal S50257 .f32)
    (v : Fin 50257) (hv : 49152 ≤ v.val) (hq : v.val - 49152 < 1105) :
    logitsK h wout bout (ix2 (0 : Fin 1) v)
      = linOut2 h (extractStridedSlice S1105x1024 ![49152, 0] wout slices_S50257x1024_S1105x1024_49152_0) (extractStridedSlice S1105 ![49152] bout slices_S50257_S1105_49152)
          (ix2 (0 : Fin 1) (⟨v.val - 49152, hq⟩ : Fin 1105)) := by
  -- off the concatenated axis (the one row) the two indices agree
  have hi : ∀ b : Fin S1x1105.rank, b.cast (rfl : S1x1105.rank = S1x50257.rank) ≠ (1 : Fin S1x50257.rank) →
      ((ix2 (0 : Fin 1) (⟨v.val - 49152, hq⟩ : Fin 1105)) b).val = ((ix2 (0 : Fin 1) v) (b.cast (rfl : S1x1105.rank = S1x50257.rank))).val := by
    intro b hb
    have hb1 : b.val ≠ 1 := fun e => hb (Fin.ext e)
    have hb2 : b.val < 2 := b.isLt
    obtain rfl : b = (0 : Fin 2) := Fin.ext (by show b.val = 0; omega)
    rfl
  -- on it, the piece's column plus the first piece's 49152 columns is the column read
  have ha : ((ix2 (0 : Fin 1) (⟨v.val - 49152, hq⟩ : Fin 1105)) ((1 : Fin S1x50257.rank).cast (rfl : S1x1105.rank = S1x50257.rank).symm)).val
      + S1x49152.size ((1 : Fin S1x50257.rank).cast (rfl : S1x49152.rank = S1x50257.rank).symm) = ((ix2 (0 : Fin 1) v) (1 : Fin S1x50257.rank)).val := by
    show (v.val - 49152) + 49152 = v.val
    omega
  exact concatenate_pair_apply_right 1 _ _ concatenates_S1x49152_S1x1105_S1x50257_d1 (ix2 (0 : Fin 1) v) rfl rfl
    (ix2 (0 : Fin 1) (⟨v.val - 49152, hq⟩ : Fin 1105)) hi ha

/-! ## Tiled equals whole -/

/-- The kernel's tiled projection is the reference's single one. -/
theorem logitsK_eq (h : FVec Ideal S1x1024 .f32) (wout : FVec Ideal S50257x1024 .f32) (bout : FVec Ideal S50257 .f32) :
    logitsK h wout bout = Cert.RefValue.logits h wout bout := by
  funext i
  obtain ⟨p, v, rfl⟩ : ∃ (p : Fin 1) (v : Fin 50257), i = ix2 p v := ⟨i 0, i 1, eq_ix2 i⟩
  obtain rfl : p = 0 := Subsingleton.elim _ _
  rw [Cert.RefValue.logits_apply]
  have hvlt : v.val < 50257 := v.isLt
  by_cases hv : v.val < 49152
  · rw [logitsK_left h wout bout v hv, linOut1_apply]
    congr 1
    · refine Finset.sum_congr rfl fun k _ => ?_
      rw [slice2_axis0_apply 0 wout slices_S50257x1024_S49152x1024_0_0 (⟨v.val, hv⟩ : Fin 49152) k v (by show v.val = 0 + v.val; omega)]
    · exact slice1_axis0_apply 0 bout slices_S50257_S49152_0 (⟨v.val, hv⟩ : Fin 49152) v (by show v.val = 0 + v.val; omega)
  · have hq : v.val - 49152 < 1105 := by omega
    rw [logitsK_right h wout bout v (by omega) hq, linOut2_apply]
    congr 1
    · refine Finset.sum_congr rfl fun k _ => ?_
      rw [slice2_axis0_apply 49152 wout slices_S50257x1024_S1105x1024_49152_0 (⟨v.val - 49152, hq⟩ : Fin 1105) k v (by show v.val = 49152 + (v.val - 49152); omega)]
    · exact slice1_axis0_apply 49152 bout slices_S50257_S1105_49152 (⟨v.val - 49152, hq⟩ : Fin 1105) v (by show v.val = 49152 + (v.val - 49152); omega)

end Cert.KernelIdeal.Hand

end
-- ==== Proof.KI.Final.lean ====
/-
  The idealized kernel's results in the reference's terms.  With the token in range the row the first call's transfer
  copies is the reference's looked-up row, the hidden row it leaves is the reference's two GRU cells of it, the
  concatenated tile projections are the reference's one projection of that hidden row, and the log-softmax chain and the
  added unit axis are the reference's own operations: so the run ends with the two results at the reference's two
  expressions of the launch memory, the arguments unchanged.
-/
import proofs.«416419_j79018808312087_1_alg».proof.Proof.Gen.KernelIdeal.Launch
import proofs.«416419_j79018808312087_1_alg».proof.Proof.Gen.KernelIdeal.Skeleton
import proofs.«416419_j79018808312087_1_alg».proof.Proof.Gen.KernelIdeal.Points
import proofs.«416419_j79018808312087_1_alg».proof.Proof.KI.ValueHost
import proofs.«416419_j79018808312087_1_alg».proof.Proof.KI.GruValue
import proofs.«416419_j79018808312087_1_alg».proof.Proof.KI.GruBridge
import proofs.«416419_j79018808312087_1_alg».proof.Proof.KI.LogitsBridge
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ) (ρ : Dev nD → PrngReg)
variable (htok : ∀ c : Dev nD, k0_chk1 (tokWord (F := Ideal) c (V1 m ρ c main_arg0)))

/-- The token word of the launch memory on core `c`. -/
abbrev tokK (c : Dev nD) : BitVec 32 := (m ((c : Thread nD τ).loc main_arg0) : IVec S1 32) (ix1 (0 : Fin 1))

/-- The reference's hidden row after the two cells, of the launch memory on core `c`. -/
abbrev hidRef (c : Dev nD) : FVec Ideal S1x1024 .f32 :=
  Cert.RefValue.hidden2 (tokK m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## The first call's inputs, as it finds them -/

theorem tokWord_V1 (c : Dev nD) : tokWord (F := Ideal) c (V1 m ρ c main_arg0) = tokK m c := by
  rw [V1_tok]; exact tokWord_eq c _

theorem V1_v0 (c : Dev nD) : V1 m ρ c main_v0 = Cert.RefValue.dropAxis (m ((c : Thread nD τ).loc main_arg1)) := by
  show StableHlo.after hostOps0 (W0 m ρ c) (Proc.devRef .tc main_v0) = _
  after_results
  rfl
theorem V1_arg2 (c : Dev nD) : V1 m ρ c main_arg2 = m ((c : Thread nD τ).loc main_arg2) := (keep0 _ main_arg2 (by decide)).trans rfl
theorem V1_arg3 (c : Dev nD) : V1 m ρ c main_arg3 = m ((c : Thread nD τ).loc main_arg3) := (keep0 _ main_arg3 (by decide)).trans rfl
theorem V1_arg4 (c : Dev nD) : V1 m ρ c main_arg4 = m ((c : Thread nD τ).loc main_arg4) := (keep0 _ main_arg4 (by decide)).trans rfl
theorem V1_arg5 (c : Dev nD) : V1 m ρ c main_arg5 = m ((c : Thread nD τ).loc main_arg5) := (keep0 _ main_arg5 (by decide)).trans rfl
theorem V1_arg6 (c : Dev nD) : V1 m ρ c main_arg6 = m ((c : Thread nD τ).loc main_arg6) := (keep0 _ main_arg6 (by decide)).trans rfl

/-- A row copied from inside the matrix is the reference's looked-up row. -/
theorem embRow_row (tok : BitVec 32) (htk : k0_chk1 tok) (hlt : tok.toNat < 50257) (fe : FVec Ideal S50257x1024 .f32) :
    embRow tok htk fe = Cert.RefValue.row tok fe := by
  funext i
  obtain ⟨j, rfl⟩ := Cert.RefValue.idx_S1x1024 i
  rw [embRow_apply, Cert.RefValue.row_apply tok fe hlt]

/-! ## The hidden row -/

include htok in
theorem hK_eq (c : Dev nD) (hlt : (tokK m c).toNat < 50257) : hK m ρ htok c = hidRef m c := by
  unfold hK
  rw [show W2 m ρ htok c (Proc.devRef .tc main_v1) = _ from W2_arr m ρ htok c 5, arr0_final (adm0 m) (V1 m ρ) htok c]
  show gruK _ _ _ _ _ _ = _
  rw [gruK_eq, embRow_row _ _ (by rw [tokWord_V1]; exact hlt), tokWord_V1, V1_v0, V1_arg2, V1_arg3, V1_arg4, V1_arg5, V1_arg6]
  rfl

/-! ## The results -/

theorem lsK_eq (x : FVec Ideal S1x50257 .f32) : lsK (F := Ideal) x = Cert.RefValue.logSoftmax x := by
  rw [Cert.RefValue.logSoftmax_def]; rfl

include htok in
/-- THE KERNEL'S VALUE.  From a memory whose token is in range, the idealized kernel runs to a state holding the
    reference's log-probabilities and hidden state of the launch memory, the arguments unchanged. -/
theorem value_of_tok (hlt : ∀ c : Dev nD, (tokK m c).toNat < 50257) :
    θ_run defs (onTc (τ := τ) (main (F := Ideal))) ⟨m, fun _ => 0, ρ⟩ (fun r => ∀ c : Dev nD,
      r.2.mem ((c.tc : Thread nD τ).loc main_v9) = Cert.RefValue.logSoftmax (Cert.RefValue.logits (hidRef m c) (m ((c : Thread nD τ).loc main_arg7)) (m ((c : Thread nD τ).loc main_arg8)))
      ∧ r.2.mem ((c.tc : Thread nD τ).loc main_v10) = Cert.RefValue.addAxis (hidRef m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (by
        rw [W8_v9, W5_v6, W5_v7, hK_eq m ρ htok c (hlt c)]
        show lsK (F := Ideal) (logitsK _ _ _) = _
        rw [logitsK_eq, lsK_eq]),
     (h c _ (mem_uc main_v10 (by decide))).trans (by
        rw [W8_v10, hK_eq m ρ htok c (hlt c)]; rfl),
     (h c _ (mem_uc main_arg0 (by decide))).trans (W8_main_arg0 m ρ htok c),
     (h c _ (mem_uc main_arg1 (by decide))).trans (W8_main_arg1 m ρ htok c),
     (h c _ (mem_uc main_arg2 (by decide))).trans (W8_main_arg2 m ρ htok c),
     (h c _ (mem_uc main_arg3 (by decide))).trans (W8_main_arg3 m ρ htok c),
     (h c _ (mem_uc main_arg4 (by decide))).trans (W8_main_arg4 m ρ htok c),
     (h c _ (mem_uc main_arg5 (by decide))).trans (W8_main_arg5 m ρ htok c),
     (h c _ (mem_uc main_arg6 (by decide))).trans (W8_main_arg6 m ρ htok c),
     (h c _ (mem_uc main_arg7 (by decide))).trans (W8_main_arg7 m ρ htok c),
     (h c _ (mem_uc main_arg8 (by decide))).trans (W8_main_arg8 m ρ htok c)⟩)
    (run_all m ρ htok)

end Cert.KernelIdeal.Hand

end
-- ==== Proof.RefValue.lean ====
/-
  The reference's run, read as the functions of `RefDefs`: for a token inside the embedding table
  (`t.toNat < 50257`, `t` the one entry of the first argument) every execution of the reference ends with its first
  result at `logSoftmax (logits h'' W_out b_out)` and its second at `h''` with a leading unit axis, `h''` the hidden
  state after the two GRU cells from `relu (emb[t])` and the incoming hidden state; the nine arguments are unchanged.
  The reference's operations, stage by stage, are these functions by unfolding: the one step that is not an unfolding
  is the lookup, where the token's range makes the index wrap and the gather's clamp idle (`gather_token`).
-/
import proofs.«416419_j79018808312087_1_alg».proof.Proof.RefRun
import proofs.«416419_j79018808312087_1_alg».proof.Proof.RefDefs

noncomputable section

namespace Cert.RefValue

open Cert.ReferenceIdeal Cert.ReferenceIdeal.Gen Idealize.ShloMosaic Idealize.ShloMosaic.TcCoe Idealize.SL.Sem
  Idealize.ShloMosaic.ValueIdx Cert.ReferenceIdeal.ReadP

/-! ## The stages are the functions -/

section Stages
variable (x0 : IVec S1 32) (x1 : FVec Ideal S1x1x1024 .f32) (x2 : FVec Ideal S50257x1024 .f32)
  (x3 x4 : FVec Ideal S3072x1024 .f32) (x5 x6 : FVec Ideal S3072 .f32) (x7 : FVec Ideal S50257x1024 .f32)
  (x8 : FVec Ideal S50257 .f32)

/-- The looked-up, rectified row: for a token inside the table the wrapped and clamped start index is the token. -/
theorem stage_v7 (htok : (tokenOf x0).toNat < 50257) :
    val_main_v7 (F := Ideal) x0 x2 = relu (row (tokenOf x0) x2) := by
  have h := gather_token x2 x0 htok
  unfold val_main_v7 val_main_v6 val_main_v5 val_main_v4 val_main_v3 val_main_v2 val_main_v1 val_main_v0 val_main_c val_main_c_0
    val_main_call0_v0 val_main_call0_cst relu
  rw [h]

theorem stage_v8 : val_main_v8 (F := Ideal) x1 = dropAxis x1 := rfl

set_option maxRecDepth 8192 in
/-- The first cell: the reference's operations up to `main_v44` are `gruCell` of the rectified row and the hidden state. -/
theorem stage_v44 :
    val_main_v44 (F := Ideal) x0 x1 x2 x3 x4 x5 x6
      = gruCell (val_main_v7 (F := Ideal) x0 x2) (val_main_v8 (F := Ideal) x1) x3 x4 x5 x6 := rfl

set_option maxRecDepth 8192 in
/-- The second cell, on the first's result twice. -/
theorem stage_v80 :
    val_main_v80 (F := Ideal) x0 x1 x2 x3 x4 x5 x6
      = gruCell (val_main_v44 (F := Ideal) x0 x1 x2 x3 x4 x5 x6) (val_main_v44 (F := Ideal) x0 x1 x2 x3 x4 x5 x6) x3 x4 x5 x6 := rfl

theorem stage_v84 :
    val_main_v84 (F := Ideal) x0 x1 x2 x3 x4 x5 x6 x7 x8
      = logits (val_main_v80 (F := Ideal) x0 x1 x2 x3 x4 x5 x6) x7 x8 := rfl

theorem stage_v85 :
    val_main_v85 (F := Ideal) x0 x1 x2 x3 x4 x5 x6 x7 x8
      = logSoftmax (val_main_v84 (F := Ideal) x0 x1 x2 x3 x4 x5 x6 x7 x8) := by
  rw [logSoftmax_def]; rfl

theorem stage_v86 :
    val_main_v86 (F := Ideal) x0 x1 x2 x3 x4 x5 x6 = addAxis (val_main_v80 (F := Ideal) x0 x1 x2 x3 x4 x5 x6) := rfl

/-- The hidden state after the two cells. -/
theorem hidden2_eq (htok : (tokenOf x0).toNat < 50257) :
    val_main_v80 (F := Ideal) x0 x1 x2 x3 x4 x5 x6 = hidden2 (tokenOf x0) x1 x2 x3 x4 x5 x6 := by
  rw [stage_v80, stage_v44, stage_v7 x0 x2 htok, stage_v8]
  rfl

/-- The first result. -/
theorem out0_eq (htok : (tokenOf x0).toNat < 50257) :
    val_main_v85 (F := Ideal) x0 x1 x2 x3 x4 x5 x6 x7 x8
      = logSoftmax (logits (hidden2 (tokenOf x0) x1 x2 x3 x4 x5 x6) x7 x8) := by
  rw [stage_v85, stage_v84, hidden2_eq x0 x1 x2 x3 x4 x5 x6 htok]

/-- The second result. -/
theorem out1_eq (htok : (tokenOf x0).toNat < 50257) :
    val_main_v86 (F := Ideal) x0 x1 x2 x3 x4 x5 x6 = addAxis (hidden2 (tokenOf x0) x1 x2 x3 x4 x5 x6) := by
  rw [stage_v86, hidden2_eq x0 x1 x2 x3 x4 x5 x6 htok]

end Stages

/-! ## The run -/

/-- From any memory whose token (on every device) is inside the table, with zero counters: every weakly fair execution
    of the reference terminates with its two results at the functions above of the launch contents of its arguments,
    and the arguments unchanged. -/
theorem ref_run (m' : (ℓ : Loc nD τ sig) → Buf (Elt Ideal) ℓ) (ρ' : Dev nD → PrngReg)
    (htok : ∀ c : Dev nD, (tokenOf (m' ((c.tc : Thread nD τ).loc main_arg0))).toNat < 50257) :
    θ_run (defs (F := Ideal)) (onTc (τ := τ) (main (F := Ideal))) ⟨m', fun _ => 0, ρ'⟩ fun r => ∀ c : Dev nD,
      r.2.mem ((c.tc : Thread nD τ).loc main_v85) = logSoftmax (logits (hidden2 (tokenOf (m' ((c.tc : Thread nD τ).loc main_arg0))) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))) (m' ((c.tc : Thread nD τ).loc main_arg7)) (m' ((c.tc : Thread nD τ).loc main_arg8)))
      ∧ r.2.mem ((c.tc : Thread nD τ).loc main_v86) = addAxis (hidden2 (tokenOf (m' ((c.tc : Thread nD τ).loc main_arg0))) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) :=
  (θ_run (defs (F := Ideal)) _ _).mono
    (fun _ h c => ⟨(h c).1.trans (out0_eq _ _ _ _ _ _ _ _ _ (htok c)), (h c).2.1.trans (out1_eq _ _ _ _ _ _ _ (htok c)), (h c).2.2⟩)
    (Cert.ReferenceIdeal.ValueP.run (F := Ideal) m' ρ')

end Cert.RefValue

end
-- ==== Proof.lean ====
/-
  A decoder step — the embedding row of a token through relu and two GRU cells that share their weights, a projection
  onto the vocabulary and a log-softmax — computed by three pallas_calls, against its plain reference, over the
  extended reals.

  The kernel looks the row up by its own transfer of row `token` of the embedding matrix, which is inside the matrix
  exactly when `0 ≤ token < 50257`: the precondition states that range (outside it the reference itself indexes out
  of range), and it is all the proof uses of the precondition — no law that needs finite inputs is involved, since the
  two programs compute the same expressions in the same grouping.  The first call's hidden row is the reference's two
  cells (a matrix product into a zero accumulator is the reference's contraction; the logistic function is the
  reference's `1 / (1 + e⁻ˣ)`; a change of float format is the identity here); the projection is tiled over the
  vocabulary in twelve blocks of 4096 rows and a last block of 1105, whose results, concatenated, are the reference's
  one projection; the log-softmax and the final unit axis are the same host operations on both sides.

  Frames: each call's body is run once (the first with its transfer and the assumed in-range fact), the pipeline's
  proof data say what every window's buffer holds after it, and the main function is the list of its host stretches
  and calls, each entered from the contents the previous one leaves; no item writes an argument.  The word-level
  kernel has the same frame, its modules laid out from the idealized ones by renaming.
-/
import proofs.«416419_j79018808312087_1_alg».proof.Defs
import proofs.«416419_j79018808312087_1_alg».proof.Proof.Gen.Kernel
import proofs.«416419_j79018808312087_1_alg».proof.Proof.Gen.KernelIdeal
import proofs.«416419_j79018808312087_1_alg».proof.Proof.Gen.ReferenceIdeal
import proofs.«416419_j79018808312087_1_alg».proof.Proof.Gen.Pre_finite_inputs
import proofs.«416419_j79018808312087_1_alg».proof.Proof.TokenRange
import proofs.«416419_j79018808312087_1_alg».proof.Proof.KB.Frame
import proofs.«416419_j79018808312087_1_alg».proof.Proof.KI.Final
import proofs.«416419_j79018808312087_1_alg».proof.Proof.RefValue

noncomputable section

namespace Cert.Proof

open Idealize.ShloMosaic Idealize.ShloMosaic.TcCoe Idealize.SL.Sem

/-- The kernel as printed runs and leaves its arguments unchanged: the precondition bounds the token, which is what
    its first call's body assumes. -/
theorem frame_p : Cert.frame_Kernel (hKernel := Cert.Kernel.Gen.facts) (hPre_finite_inputs := Cert.Pre_finite_inputs.Gen.facts) := fun m ρ hpre =>
  Cert.Kernel.Hand.frame_of_tok m ρ (Cert.Kernel.Hand.htok_of_lt m ρ fun c i =>
    Cert.TokenRange.tok_all _ _ _ _ _ _ _ _ _ (hpre c) i)

/-- The same for its idealization. -/
theorem frame_pi : Cert.frame_KernelIdeal (hKernelIdeal := Cert.KernelIdeal.Gen.facts) (hPre_finite_inputs := Cert.Pre_finite_inputs.Gen.facts) := fun m ρ hpre =>
  Cert.KernelIdeal.Hand.frame_of_tok m ρ (Cert.KernelIdeal.Hand.htok_of_lt m ρ fun c i =>
    Cert.TokenRange.tok_all _ _ _ _ _ _ _ _ _ (hpre c) i)

/-- The reference runs and leaves its arguments unchanged: its run with the results dropped. -/
theorem frame_ri : Cert.frame_ReferenceIdeal (hReferenceIdeal := Cert.ReferenceIdeal.Gen.facts) (hPre_finite_inputs := Cert.Pre_finite_inputs.Gen.facts) := fun m ρ hpre =>
  (θ_run Cert.ReferenceIdeal.defs _ _).mono (fun _ h c => (h c).2.2)
    (Cert.RefValue.ref_run m ρ fun c => Cert.TokenRange.tok_all _ _ _ _ _ _ _ _ _ (hpre c) _)

/-- From memories agreeing on the arguments, with the token in range, the idealized kernel and the reference both end
    with the reference's log-probabilities and hidden state of the launch memory. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hall : ∀ c : Dev Cert.KernelIdeal.nD, ∀ i, (m ((c.tc : Thread Cert.KernelIdeal.nD Cert.KernelIdeal.τ).loc Cert.KernelIdeal.main_arg0) i).toNat < 50257 :=
    fun c i => Cert.TokenRange.tok_all _ _ _ _ _ _ _ _ _ (hpre c) i
  have hlt : ∀ c : Dev Cert.KernelIdeal.nD, (Cert.KernelIdeal.Hand.tokK m c).toNat < 50257 := fun c => hall c _
  refine ⟨fun c => Cert.RefValue.logSoftmax (Cert.RefValue.logits (Cert.KernelIdeal.Hand.hidRef m c)
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
      fun c => Cert.RefValue.addAxis (Cert.KernelIdeal.Hand.hidRef m c),
      Cert.KernelIdeal.Hand.value_of_tok m ρ (Cert.KernelIdeal.Hand.htok_of_lt m ρ hall) hlt, ?_⟩
  refine (θ_run Cert.ReferenceIdeal.defs _ _).mono (fun _ h c => ?_)
    (Cert.RefValue.ref_run m' ρ' fun c => by rw [(hagree c).1]; exact hlt c)
  obtain ⟨h0, h1, hargs⟩ := h c
  refine ⟨h0.trans ?_, h1.trans ?_, hargs⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]; rfl
  · rw [(hagree c).1, (hagree c).2.1, (hagree c).2.2.1, (hagree c).2.2.2.1, (hagree c).2.2.2.2.1, (hagree c).2.2.2.2.2.1, (hagree c).2.2.2.2.2.2.1]; rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
